-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x35 : Shape := ⟨2, ![50000, 35]⟩
abbrev S100000x40 : Shape := ⟨2, ![100000, 40]⟩
abbrev S10000x256 : Shape := ⟨2, ![10000, 256]⟩
abbrev S50000x10 : Shape := ⟨2, ![50000, 10]⟩
abbrev S100000x10 : Shape := ⟨2, ![100000, 10]⟩
abbrev S10000x2 : Shape := ⟨2, ![10000, 2]⟩
abbrev S256x40 : Shape := ⟨2, ![256, 40]⟩
abbrev S256x256 : Shape := ⟨2, ![256, 256]⟩
abbrev S256x291 : Shape := ⟨2, ![256, 291]⟩
abbrev S256 : Shape := ⟨1, ![256]⟩
abbrev S_ : Shape := ⟨0, ![]⟩

class Facts : Prop where
  bcast_S_S50000x35 : S_.BroadcastsInDim S50000x35 (![] : Fin 0 → Fin S50000x35.rank)
  reducesTo_S50000x35_S_d0_1 : S50000x35.ReducesTo [0, 1] S_
  h_S_ : 0 < S_.numel
  bcast_S_S100000x40 : S_.BroadcastsInDim S100000x40 (![] : Fin 0 → Fin S100000x40.rank)
  reducesTo_S100000x40_S_d0_1 : S100000x40.ReducesTo [0, 1] S_
  bcast_S_S10000x256 : S_.BroadcastsInDim S10000x256 (![] : Fin 0 → Fin S10000x256.rank)
  reducesTo_S10000x256_S_d0_1 : S10000x256.ReducesTo [0, 1] S_
  bcast_S_S256x40 : S_.BroadcastsInDim S256x40 (![] : Fin 0 → Fin S256x40.rank)
  reducesTo_S256x40_S_d0_1 : S256x40.ReducesTo [0, 1] S_
  bcast_S_S256x256 : S_.BroadcastsInDim S256x256 (![] : Fin 0 → Fin S256x256.rank)
  reducesTo_S256x256_S_d0_1 : S256x256.ReducesTo [0, 1] S_
  bcast_S_S256x291 : S_.BroadcastsInDim S256x291 (![] : Fin 0 → Fin S256x291.rank)
  reducesTo_S256x291_S_d0_1 : S256x291.ReducesTo [0, 1] S_
  bcast_S_S256 : S_.BroadcastsInDim S256 (![] : Fin 0 → Fin S256.rank)
  reducesTo_S256_S_d0 : S256.ReducesTo [0] S_
  bcast_S_S10000x2 : S_.BroadcastsInDim S10000x2 (![] : Fin 0 → Fin S10000x2.rank)
  reducesTo_S10000x2_S_d0_1 : S10000x2.ReducesTo [0, 1] S_

variable [Facts]

def fn_part2 {F : FTy → Type} [FloatOps F] (main_arg5 : IVec S10000x2 32) (main_v33 : IVec S_ 1) : IVec S_ 1 :=
  let main_c_12 : IVec S_ 32 := constantI S_ 32 0#32
  let main_v34 : IVec S10000x2 32 := broadcastInDim S10000x2 ![] bcast_S_S10000x2 main_c_12
  let main_v35 : IVec S10000x2 1 := cmpi .sge main_arg5 main_v34
  let main_c_13 : IVec S_ 32 := constantI S_ 32 100000#32
  let main_v36 : IVec S10000x2 32 := broadcastInDim S10000x2 ![] bcast_S_S10000x2 main_c_13
  let main_v37 : IVec S10000x2 1 := cmpi .slt main_arg5 main_v36
  let main_v38 : IVec S10000x2 1 := andi main_v35 main_v37
  let main_c_14 : IVec S_ 1 := constantI S_ 1 1#1
  let main_v39 : IVec S_ 1 := (fun x v => Host.reduce IntOp.andi x v reducesTo_S10000x2_S_d0_1 h_S_) main_v38 main_c_14
  let main_v40 : IVec S_ 1 := andi main_v33 main_v39
  main_v40

def fn_part1 {F : FTy → Type} [FloatOps F] (main_arg5 : IVec S10000x2 32) (main_arg7 : FVec F S256x256 .f32) (main_arg8 : FVec F S256x291 .f32) (main_arg9 : FVec F S256 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x291 .f32 := Host.absf main_arg8
  let main_cst_8 : FVec F S_ .f32 := constant S_ .f32 0x7F800000#32
  let main_v25 : FVec F S256x291 .f32 := broadcastInDim S256x291 ![] bcast_S_S256x291 main_cst_8
  let main_v26 : IVec S256x291 1 := cmpf .olt main_v24 main_v25
  let main_c_9 : IVec S_ 1 := constantI S_ 1 1#1
  let main_v27 : IVec S_ 1 := (fun x v => Host.reduce IntOp.andi x v reducesTo_S256x291_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg5 main_v33

def fn {F : FTy → Type} [FloatOps F] (main_arg0 : FVec F S50000x35 .f32) (main_arg1 : FVec F S100000x40 .f32) (main_arg2 : FVec F S10000x256 .f32) (main_arg3 : IVec S50000x10 32) (main_arg4 : IVec S100000x10 32) (main_arg5 : IVec S10000x2 32) (main_arg6 : FVec F S256x40 .f32) (main_arg7 : FVec F S256x256 .f32) (main_arg8 : FVec F S256x291 .f32) (main_arg9 : FVec F S256 .f32) : IVec S_ 1 :=
  let main_v0 : FVec F S50000x35 .f32 := Host.absf main_arg0
  let main_cst : FVec F S_ .f32 := constant S_ .f32 0x7F800000#32
  let main_v1 : FVec F S50000x35 .f32 := broadcastInDim S50000x35 ![] bcast_S_S50000x35 main_cst
  let main_v2 : IVec S50000x35 1 := cmpf .olt main_v0 main_v1
  let main_c : IVec S_ 1 := constantI S_ 1 1#1
  let main_v3 : IVec S_ 1 := (fun x v => Host.reduce IntOp.andi x v reducesTo_S50000x35_S_d0_1 h_S_) main_v2 main_c
  let main_v4 : FVec F S100000x40 .f32 := Host.absf main_arg1
  let main_cst_0 : FVec F S_ .f32 := constant S_ .f32 0x7F800000#32
  let main_v5 : FVec F S100000x40 .f32 := broadcastInDim S100000x40 ![] bcast_S_S100000x40 main_cst_0
  let main_v6 : IVec S100000x40 1 := cmpf .olt main_v4 main_v5
  let main_c_1 : IVec S_ 1 := constantI S_ 1 1#1
  let main_v7 : IVec S_ 1 := (fun x v => Host.reduce IntOp.andi x v reducesTo_S100000x40_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S256x40 .f32 := Host.absf main_arg6
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg5 main_arg7 main_arg8 main_arg9 main_v13 main_v16
-- ==== Kernel.lean ====
abbrev S50000x35 : Shape := ⟨2, ![50000, 35]⟩
abbrev S100000x40 : Shape := ⟨2, ![100000, 40]⟩
abbrev S10000x256 : Shape := ⟨2, ![10000, 256]⟩
abbrev S50000x10 : Shape := ⟨2, ![50000, 10]⟩
abbrev S100000x10 : Shape := ⟨2, ![100000, 10]⟩
abbrev S10000x2 : Shape := ⟨2, ![10000, 2]⟩
abbrev S256x40 : Shape := ⟨2, ![256, 40]⟩
abbrev S256x256 : Shape := ⟨2, ![256, 256]⟩
abbrev S256x291 : Shape := ⟨2, ![256, 291]⟩
abbrev S256 : Shape := ⟨1, ![256]⟩
abbrev S40x256 : Shape := ⟨2, ![40, 256]⟩
abbrev S256x35 : Shape := ⟨2, ![256, 35]⟩
abbrev S35x256 : Shape := ⟨2, ![35, 256]⟩
abbrev S100000x256 : Shape := ⟨2, ![100000, 256]⟩
abbrev S110000x256 : Shape := ⟨2, ![110000, 256]⟩
abbrev S_ : Shape := ⟨0, ![]⟩
abbrev S100000x1 : Shape := ⟨2, ![100000, 1]⟩
abbrev S100000 : Shape := ⟨1, ![100000]⟩
abbrev S10000x2x1 : Shape := ⟨3, ![10000, 2, 1]⟩
abbrev S10000x2x256 : Shape := ⟨3, ![10000, 2, 256]⟩
abbrev S50000x256 : Shape := ⟨2, ![50000, 256]⟩
abbrev S50000x1 : Shape := ⟨2, ![50000, 1]⟩
abbrev S50000 : Shape := ⟨1, ![50000]⟩
abbrev S1x256 : Shape := ⟨2, ![1, 256]⟩
abbrev S2000x25x256 : Shape := ⟨3, ![2000, 25, 256]⟩
abbrev S2000x256 : Shape := ⟨2, ![2000, 256]⟩
abbrev S5000x40 : Shape := ⟨2, ![5000, 40]⟩
abbrev S5000x256 : Shape := ⟨2, ![5000, 256]⟩
abbrev S5000x35 : Shape := ⟨2, ![5000, 35]⟩

abbrev nBuf : Space → Nat
  | .hbm => 535
  | .vmem => 37
  | .smem => 0
  | _ => 0

abbrev hbmTy0_0 (i : Nat) : BufTy := match i % 128 with
  | 0 => ⟨S50000x35, .f32⟩
  | 1 => ⟨S100000x40, .f32⟩
  | 2 => ⟨S10000x256, .f32⟩
  | 3 => ⟨S50000x10, .i32⟩
  | 4 => ⟨S100000x10, .i32⟩
  | 5 => ⟨S10000x2, .i32⟩
  | 6 => ⟨S256x40, .f32⟩
  | 7 => ⟨S256x256, .f32⟩
  | 8 => ⟨S256x291, .f32⟩
  | 9 => ⟨S256, .f32⟩
  | 10 => ⟨S40x256, .f32⟩
  | 11 => ⟨S256x256, .f32⟩
  | 12 => ⟨S256x35, .f32⟩
  | 13 => ⟨S35x256, .f32⟩
  | 14 => ⟨S256x256, .f32⟩
  | 15 => ⟨S256x256, .f32⟩
  | 16 => ⟨S100000x256, .f32⟩
  | 17 => ⟨S100000x256, .f32⟩
  | 18 => ⟨S110000x256, .f32⟩
  | 19 => ⟨S_, .f32⟩
  | 20 => ⟨S100000x256, .f32⟩
  | 21 => ⟨S100000x1, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x256, .f32⟩
  | 32 => ⟨S100000x256, .f32⟩
  | 33 => ⟨S100000x1, .i32⟩
  | 34 => ⟨S100000, .i32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x256, .f32⟩
  | 44 => ⟨S100000x256, .f32⟩
  | 45 => ⟨S100000x1, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x256, .f32⟩
  | 56 => ⟨S100000x256, .f32⟩
  | 57 => ⟨S100000x1, .i32⟩
  | 58 => ⟨S100000, .i32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x256, .f32⟩
  | 68 => ⟨S100000x256, .f32⟩
  | 69 => ⟨S100000x1, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x256, .f32⟩
  | 80 => ⟨S100000x256, .f32⟩
  | 81 => ⟨S100000x1, .i32⟩
  | 82 => ⟨S100000, .i32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x256, .f32⟩
  | 92 => ⟨S100000x256, .f32⟩
  | 93 => ⟨S100000x1, .i32⟩
  | 94 => ⟨S100000, .i32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x256, .f32⟩
  | 104 => ⟨S100000x256, .f32⟩
  | 105 => ⟨S100000x1, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x256, .f32⟩
  | 116 => ⟨S100000x256, .f32⟩
  | 117 => ⟨S100000x1, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x256, .f32⟩
  | _ => ⟨S50000x35, .f32⟩

abbrev hbmTy0_1 (i : Nat) : BufTy := match i % 128 with
  | 0 => ⟨S100000x256, .f32⟩
  | 1 => ⟨S100000x1, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x256, .f32⟩
  | 12 => ⟨S100000x256, .f32⟩
  | 13 => ⟨S110000x256, .f32⟩
  | 14 => ⟨S_, .f32⟩
  | 15 => ⟨S100000x256, .f32⟩
  | 16 => ⟨S100000x1, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S100000x256, .f32⟩
  | 28 => ⟨S100000x1, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x256, .f32⟩
  | 39 => ⟨S100000x256, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x256, .f32⟩
  | 51 => ⟨S100000x256, .f32⟩
  | 52 => ⟨S100000x1, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x256, .f32⟩
  | 63 => ⟨S100000x256, .f32⟩
  | 64 => ⟨S100000x1, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S100000x256, .f32⟩
  | 75 => ⟨S100000x256, .f32⟩
  | 76 => ⟨S100000x1, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x256, .f32⟩
  | 87 => ⟨S100000x256, .f32⟩
  | 88 => ⟨S100000x1, .i32⟩
  | 89 => ⟨S100000, .i32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x256, .f32⟩
  | 99 => ⟨S100000x256, .f32⟩
  | 100 => ⟨S100000x1, .i32⟩
  | 101 => ⟨S100000, .i32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x256, .f32⟩
  | 111 => ⟨S100000x256, .f32⟩
  | 112 => ⟨S100000x1, .i32⟩
  | 113 => ⟨S100000, .i32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x256, .f32⟩
  | 123 => ⟨S100000x256, .f32⟩
  | 124 => ⟨S100000x1, .i32⟩
  | 125 => ⟨S100000, .i32⟩
  | 126 => ⟨S_, .i32⟩
  | 127 => ⟨S100000, .i32⟩
  | _ => ⟨S50000x35, .f32⟩

abbrev hbmTy0_2 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x256, .f32⟩
  | 7 => ⟨S100000x256, .f32⟩
  | 8 => ⟨S110000x256, .f32⟩
  | 9 => ⟨S_, .f32⟩
  | 10 => ⟨S100000x256, .f32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x256, .f32⟩
  | 22 => ⟨S100000x256, .f32⟩
  | 23 => ⟨S100000x1, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x256, .f32⟩
  | 34 => ⟨S100000x256, .f32⟩
  | 35 => ⟨S100000x1, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x256, .f32⟩
  | 46 => ⟨S100000x256, .f32⟩
  | 47 => ⟨S100000x1, .i32⟩
  | 48 => ⟨S100000, .i32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x256, .f32⟩
  | 58 => ⟨S100000x256, .f32⟩
  | 59 => ⟨S100000x1, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x256, .f32⟩
  | 70 => ⟨S100000x256, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x256, .f32⟩
  | 82 => ⟨S100000x256, .f32⟩
  | 83 => ⟨S100000x1, .i32⟩
  | 84 => ⟨S100000, .i32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000x256, .f32⟩
  | 94 => ⟨S100000x256, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x256, .f32⟩
  | 106 => ⟨S100000x256, .f32⟩
  | 107 => ⟨S100000x1, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x256, .f32⟩
  | 118 => ⟨S100000x256, .f32⟩
  | 119 => ⟨S100000x1, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S50000x35, .f32⟩

abbrev hbmTy0_3 (i : Nat) : BufTy := match i % 128 with
  | 0 => ⟨S100000x1, .i32⟩
  | 1 => ⟨S100000x256, .f32⟩
  | 2 => ⟨S100000x256, .f32⟩
  | 3 => ⟨S110000x256, .f32⟩
  | 4 => ⟨S_, .i32⟩
  | 5 => ⟨S10000x2, .i32⟩
  | 6 => ⟨S10000x2, .i32⟩
  | 7 => ⟨S_, .i32⟩
  | 8 => ⟨S10000x2, .i32⟩
  | 9 => ⟨S10000x2, .i1⟩
  | 10 => ⟨S_, .i32⟩
  | 11 => ⟨S10000x2, .i32⟩
  | 12 => ⟨S10000x2, .i32⟩
  | 13 => ⟨S10000x2, .i32⟩
  | 14 => ⟨S10000x2x1, .i32⟩
  | 15 => ⟨S10000x2x256, .f32⟩
  | 16 => ⟨S_, .f32⟩
  | 17 => ⟨S10000x256, .f32⟩
  | 18 => ⟨S_, .f32⟩
  | 19 => ⟨S10000x256, .f32⟩
  | 20 => ⟨S10000x256, .f32⟩
  | 21 => ⟨S_, .f32⟩
  | 22 => ⟨S50000x256, .f32⟩
  | 23 => ⟨S50000x1, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x256, .f32⟩
  | 34 => ⟨S50000x256, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x256, .f32⟩
  | 46 => ⟨S50000x256, .f32⟩
  | 47 => ⟨S50000x1, .i32⟩
  | 48 => ⟨S50000, .i32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x256, .f32⟩
  | 58 => ⟨S50000x256, .f32⟩
  | 59 => ⟨S50000x1, .i32⟩
  | 60 => ⟨S50000, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x256, .f32⟩
  | 70 => ⟨S50000x256, .f32⟩
  | 71 => ⟨S50000x1, .i32⟩
  | 72 => ⟨S50000, .i32⟩
  | 73 => ⟨S_, .i32⟩
  | 74 => ⟨S50000, .i32⟩
  | 75 => ⟨S50000, .i1⟩
  | 76 => ⟨S_, .i32⟩
  | 77 => ⟨S50000, .i32⟩
  | 78 => ⟨S50000, .i32⟩
  | 79 => ⟨S50000, .i32⟩
  | 80 => ⟨S50000x1, .i32⟩
  | 81 => ⟨S50000x256, .f32⟩
  | 82 => ⟨S50000x256, .f32⟩
  | 83 => ⟨S50000x1, .i32⟩
  | 84 => ⟨S50000, .i32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x256, .f32⟩
  | 94 => ⟨S50000x256, .f32⟩
  | 95 => ⟨S50000x1, .i32⟩
  | 96 => ⟨S50000, .i32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x256, .f32⟩
  | 106 => ⟨S50000x256, .f32⟩
  | 107 => ⟨S50000x1, .i32⟩
  | 108 => ⟨S50000, .i32⟩
  | 109 => ⟨S_, .i32⟩
  | 110 => ⟨S50000, .i32⟩
  | 111 => ⟨S50000, .i1⟩
  | 112 => ⟨S_, .i32⟩
  | 113 => ⟨S50000, .i32⟩
  | 114 => ⟨S50000, .i32⟩
  | 115 => ⟨S50000, .i32⟩
  | 116 => ⟨S50000x1, .i32⟩
  | 117 => ⟨S50000x256, .f32⟩
  | 118 => ⟨S50000x256, .f32⟩
  | 119 => ⟨S50000x1, .i32⟩
  | 120 => ⟨S50000, .i32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000x35, .f32⟩

abbrev hbmTy0_4 (i : Nat) : BufTy := match i % 128 with
  | 0 => ⟨S50000x1, .i32⟩
  | 1 => ⟨S50000x256, .f32⟩
  | 2 => ⟨S50000x256, .f32⟩
  | 3 => ⟨S50000x1, .i32⟩
  | 4 => ⟨S50000, .i32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000x256, .f32⟩
  | 14 => ⟨S50000x256, .f32⟩
  | 15 => ⟨S1x256, .f32⟩
  | 16 => ⟨S50000x256, .f32⟩
  | 17 => ⟨S2000x25x256, .f32⟩
  | 18 => ⟨S_, .f32⟩
  | 19 => ⟨S2000x256, .f32⟩
  | 20 => ⟨S_, .f32⟩
  | 21 => ⟨S2000x256, .f32⟩
  | 22 => ⟨S2000x256, .f32⟩
  | _ => ⟨S50000x35, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x35, .f32⟩

abbrev bufTy : (tb : Table) → Fin (tcTables nBuf tb) → BufTy
  | .hbm, ⟨i, _⟩ => hbmTy i
  | .local _ .vmem, ⟨0, _⟩ => ⟨S5000x40, .f32⟩
  | .local _ .vmem, ⟨1, _⟩ => ⟨S5000x40, .f32⟩
  | .local _ .vmem, ⟨2, _⟩ => ⟨S40x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S256x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x35, .f32⟩
  | .local _ .vmem, ⟨29, _⟩ => ⟨S5000x35, .f32⟩
  | .local _ .vmem, ⟨30, _⟩ => ⟨S5000x256, .f32⟩
  | .local _ .vmem, ⟨31, _⟩ => ⟨S5000x256, .f32⟩
  | .local _ .vmem, ⟨32, _⟩ => ⟨S35x256, .f32⟩
  | .local _ .vmem, ⟨33, _⟩ => ⟨S256x256, .f32⟩
  | .local _ .vmem, ⟨34, _⟩ => ⟨S1x256, .f32⟩
  | .local _ .vmem, ⟨35, _⟩ => ⟨S5000x256, .f32⟩
  | .local _ .vmem, ⟨36, _⟩ => ⟨S5000x256, .f32⟩
  | _, _ => ⟨S50000x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6_0 : Ref sig .tc := ⟨.hbm, 16, rfl⟩
abbrev main_call0_v6_1 : Ref sig .tc := ⟨.hbm, 17, rfl⟩
abbrev main_call0_v7 : Ref sig .tc := ⟨.hbm, 18, rfl⟩
abbrev main_call0_cst : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c : Ref sig .tc := ⟨.hbm, 23, rfl⟩
abbrev main_call0_v11 : Ref sig .tc := ⟨.hbm, 24, rfl⟩
abbrev main_call0_v12 : Ref sig .tc := ⟨.hbm, 25, rfl⟩
abbrev main_call0_c_0 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_c_1 : Ref sig .tc := ⟨.hbm, 35, rfl⟩
abbrev main_call0_v21 : Ref sig .tc := ⟨.hbm, 36, rfl⟩
abbrev main_call0_v22 : Ref sig .tc := ⟨.hbm, 37, rfl⟩
abbrev main_call0_c_2 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_c_3 : Ref sig .tc := ⟨.hbm, 47, rfl⟩
abbrev main_call0_v31 : Ref sig .tc := ⟨.hbm, 48, rfl⟩
abbrev main_call0_v32 : Ref sig .tc := ⟨.hbm, 49, rfl⟩
abbrev main_call0_c_4 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_c_5 : Ref sig .tc := ⟨.hbm, 59, rfl⟩
abbrev main_call0_v41 : Ref sig .tc := ⟨.hbm, 60, rfl⟩
abbrev main_call0_v42 : Ref sig .tc := ⟨.hbm, 61, rfl⟩
abbrev main_call0_c_6 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_c_7 : Ref sig .tc := ⟨.hbm, 71, rfl⟩
abbrev main_call0_v51 : Ref sig .tc := ⟨.hbm, 72, rfl⟩
abbrev main_call0_v52 : Ref sig .tc := ⟨.hbm, 73, rfl⟩
abbrev main_call0_c_8 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_c_9 : Ref sig .tc := ⟨.hbm, 83, rfl⟩
abbrev main_call0_v61 : Ref sig .tc := ⟨.hbm, 84, rfl⟩
abbrev main_call0_v62 : Ref sig .tc := ⟨.hbm, 85, rfl⟩
abbrev main_call0_c_10 : Ref sig .tc := ⟨.hbm, 86, rfl⟩
abbrev main_call0_v63 : Ref sig .tc := ⟨.hbm, 87, rfl⟩
abbrev main_call0_v64 : Ref sig .tc := ⟨.hbm, 88, rfl⟩
abbrev main_call0_v65 : Ref sig .tc := ⟨.hbm, 89, rfl⟩
abbrev main_call0_v66 : Ref sig .tc := ⟨.hbm, 90, rfl⟩
abbrev main_call0_v67 : Ref sig .tc := ⟨.hbm, 91, rfl⟩
abbrev main_call0_v68 : Ref sig .tc := ⟨.hbm, 92, rfl⟩
abbrev main_call0_v69 : Ref sig .tc := ⟨.hbm, 93, rfl⟩
abbrev main_call0_v70 : Ref sig .tc := ⟨.hbm, 94, rfl⟩
abbrev main_call0_c_11 : Ref sig .tc := ⟨.hbm, 95, rfl⟩
abbrev main_call0_v71 : Ref sig .tc := ⟨.hbm, 96, rfl⟩
abbrev main_call0_v72 : Ref sig .tc := ⟨.hbm, 97, rfl⟩
abbrev main_call0_c_12 : Ref sig .tc := ⟨.hbm, 98, rfl⟩
abbrev main_call0_v73 : Ref sig .tc := ⟨.hbm, 99, rfl⟩
abbrev main_call0_v74 : Ref sig .tc := ⟨.hbm, 100, rfl⟩
abbrev main_call0_v75 : Ref sig .tc := ⟨.hbm, 101, rfl⟩
abbrev main_call0_v76 : Ref sig .tc := ⟨.hbm, 102, rfl⟩
abbrev main_call0_v77 : Ref sig .tc := ⟨.hbm, 103, rfl⟩
abbrev main_call0_v78 : Ref sig .tc := ⟨.hbm, 104, rfl⟩
abbrev main_call0_v79 : Ref sig .tc := ⟨.hbm, 105, rfl⟩
abbrev main_call0_v80 : Ref sig .tc := ⟨.hbm, 106, rfl⟩
abbrev main_call0_c_13 : Ref sig .tc := ⟨.hbm, 107, rfl⟩
abbrev main_call0_v81 : Ref sig .tc := ⟨.hbm, 108, rfl⟩
abbrev main_call0_v82 : Ref sig .tc := ⟨.hbm, 109, rfl⟩
abbrev main_call0_c_14 : Ref sig .tc := ⟨.hbm, 110, rfl⟩
abbrev main_call0_v83 : Ref sig .tc := ⟨.hbm, 111, rfl⟩
abbrev main_call0_v84 : Ref sig .tc := ⟨.hbm, 112, rfl⟩
abbrev main_call0_v85 : Ref sig .tc := ⟨.hbm, 113, rfl⟩
abbrev main_call0_v86 : Ref sig .tc := ⟨.hbm, 114, rfl⟩
abbrev main_call0_v87 : Ref sig .tc := ⟨.hbm, 115, rfl⟩
abbrev main_call0_v88 : Ref sig .tc := ⟨.hbm, 116, rfl⟩
abbrev main_call0_v89 : Ref sig .tc := ⟨.hbm, 117, rfl⟩
abbrev main_call0_v90 : Ref sig .tc := ⟨.hbm, 118, rfl⟩
abbrev main_call0_c_15 : Ref sig .tc := ⟨.hbm, 119, rfl⟩
abbrev main_call0_v91 : Ref sig .tc := ⟨.hbm, 120, rfl⟩
abbrev main_call0_v92 : Ref sig .tc := ⟨.hbm, 121, rfl⟩
abbrev main_call0_c_16 : Ref sig .tc := ⟨.hbm, 122, rfl⟩
abbrev main_call0_v93 : Ref sig .tc := ⟨.hbm, 123, rfl⟩
abbrev main_call0_v94 : Ref sig .tc := ⟨.hbm, 124, rfl⟩
abbrev main_call0_v95 : Ref sig .tc := ⟨.hbm, 125, rfl⟩
abbrev main_call0_v96 : Ref sig .tc := ⟨.hbm, 126, rfl⟩
abbrev main_call0_v97 : Ref sig .tc := ⟨.hbm, 127, rfl⟩
abbrev main_call0_v98 : Ref sig .tc := ⟨.hbm, 128, rfl⟩
abbrev main_call0_v99 : Ref sig .tc := ⟨.hbm, 129, rfl⟩
abbrev main_call0_v100 : Ref sig .tc := ⟨.hbm, 130, rfl⟩
abbrev main_call0_c_17 : Ref sig .tc := ⟨.hbm, 131, rfl⟩
abbrev main_call0_v101 : Ref sig .tc := ⟨.hbm, 132, rfl⟩
abbrev main_call0_v102 : Ref sig .tc := ⟨.hbm, 133, rfl⟩
abbrev main_call0_c_18 : Ref sig .tc := ⟨.hbm, 134, rfl⟩
abbrev main_call0_v103 : Ref sig .tc := ⟨.hbm, 135, rfl⟩
abbrev main_call0_v104 : Ref sig .tc := ⟨.hbm, 136, rfl⟩
abbrev main_call0_v105 : Ref sig .tc := ⟨.hbm, 137, rfl⟩
abbrev main_call0_v106 : Ref sig .tc := ⟨.hbm, 138, rfl⟩
abbrev main_call0_v107 : Ref sig .tc := ⟨.hbm, 139, rfl⟩
abbrev main_call0_v108 : Ref sig .tc := ⟨.hbm, 140, rfl⟩
abbrev main_call0_v109 : Ref sig .tc := ⟨.hbm, 141, rfl⟩
abbrev main_call0_cst_19 : Ref sig .tc := ⟨.hbm, 142, rfl⟩
abbrev main_call0_v110 : Ref sig .tc := ⟨.hbm, 143, rfl⟩
abbrev main_call0_v111 : Ref sig .tc := ⟨.hbm, 144, rfl⟩
abbrev main_call0_v112 : Ref sig .tc := ⟨.hbm, 145, rfl⟩
abbrev main_call0_c_20 : Ref sig .tc := ⟨.hbm, 146, rfl⟩
abbrev main_call0_v113 : Ref sig .tc := ⟨.hbm, 147, rfl⟩
abbrev main_call0_v114 : Ref sig .tc := ⟨.hbm, 148, rfl⟩
abbrev main_call0_c_21 : Ref sig .tc := ⟨.hbm, 149, rfl⟩
abbrev main_call0_v115 : Ref sig .tc := ⟨.hbm, 150, rfl⟩
abbrev main_call0_v116 : Ref sig .tc := ⟨.hbm, 151, rfl⟩
abbrev main_call0_v117 : Ref sig .tc := ⟨.hbm, 152, rfl⟩
abbrev main_call0_v118 : Ref sig .tc := ⟨.hbm, 153, rfl⟩
abbrev main_call0_v119 : Ref sig .tc := ⟨.hbm, 154, rfl⟩
abbrev main_call0_v120 : Ref sig .tc := ⟨.hbm, 155, rfl⟩
abbrev main_call0_v121 : Ref sig .tc := ⟨.hbm, 156, rfl⟩
abbrev main_call0_v122 : Ref sig .tc := ⟨.hbm, 157, rfl⟩
abbrev main_call0_c_22 : Ref sig .tc := ⟨.hbm, 158, rfl⟩
abbrev main_call0_v123 : Ref sig .tc := ⟨.hbm, 159, rfl⟩
abbrev main_call0_v124 : Ref sig .tc := ⟨.hbm, 160, rfl⟩
abbrev main_call0_c_23 : Ref sig .tc := ⟨.hbm, 161, rfl⟩
abbrev main_call0_v125 : Ref sig .tc := ⟨.hbm, 162, rfl⟩
abbrev main_call0_v126 : Ref sig .tc := ⟨.hbm, 163, rfl⟩
abbrev main_call0_v127 : Ref sig .tc := ⟨.hbm, 164, rfl⟩
abbrev main_call0_v128 : Ref sig .tc := ⟨.hbm, 165, rfl⟩
abbrev main_call0_v129 : Ref sig .tc := ⟨.hbm, 166, rfl⟩
abbrev main_call0_v130 : Ref sig .tc := ⟨.hbm, 167, rfl⟩
abbrev main_call0_v131 : Ref sig .tc := ⟨.hbm, 168, rfl⟩
abbrev main_call0_v132 : Ref sig .tc := ⟨.hbm, 169, rfl⟩
abbrev main_call0_c_24 : Ref sig .tc := ⟨.hbm, 170, rfl⟩
abbrev main_call0_v133 : Ref sig .tc := ⟨.hbm, 171, rfl⟩
abbrev main_call0_v134 : Ref sig .tc := ⟨.hbm, 172, rfl⟩
abbrev main_call0_c_25 : Ref sig .tc := ⟨.hbm, 173, rfl⟩
abbrev main_call0_v135 : Ref sig .tc := ⟨.hbm, 174, rfl⟩
abbrev main_call0_v136 : Ref sig .tc := ⟨.hbm, 175, rfl⟩
abbrev main_call0_v137 : Ref sig .tc := ⟨.hbm, 176, rfl⟩
abbrev main_call0_v138 : Ref sig .tc := ⟨.hbm, 177, rfl⟩
abbrev main_call0_v139 : Ref sig .tc := ⟨.hbm, 178, rfl⟩
abbrev main_call0_v140 : Ref sig .tc := ⟨.hbm, 179, rfl⟩
abbrev main_call0_v141 : Ref sig .tc := ⟨.hbm, 180, rfl⟩
abbrev main_call0_v142 : Ref sig .tc := ⟨.hbm, 181, rfl⟩
abbrev main_call0_c_26 : Ref sig .tc := ⟨.hbm, 182, rfl⟩
abbrev main_call0_v143 : Ref sig .tc := ⟨.hbm, 183, rfl⟩
abbrev main_call0_v144 : Ref sig .tc := ⟨.hbm, 184, rfl⟩
abbrev main_call0_c_27 : Ref sig .tc := ⟨.hbm, 185, rfl⟩
abbrev main_call0_v145 : Ref sig .tc := ⟨.hbm, 186, rfl⟩
abbrev main_call0_v146 : Ref sig .tc := ⟨.hbm, 187, rfl⟩
abbrev main_call0_v147 : Ref sig .tc := ⟨.hbm, 188, rfl⟩
abbrev main_call0_v148 : Ref sig .tc := ⟨.hbm, 189, rfl⟩
abbrev main_call0_v149 : Ref sig .tc := ⟨.hbm, 190, rfl⟩
abbrev main_call0_v150 : Ref sig .tc := ⟨.hbm, 191, rfl⟩
abbrev main_call0_v151 : Ref sig .tc := ⟨.hbm, 192, rfl⟩
abbrev main_call0_v152 : Ref sig .tc := ⟨.hbm, 193, rfl⟩
abbrev main_call0_c_28 : Ref sig .tc := ⟨.hbm, 194, rfl⟩
abbrev main_call0_v153 : Ref sig .tc := ⟨.hbm, 195, rfl⟩
abbrev main_call0_v154 : Ref sig .tc := ⟨.hbm, 196, rfl⟩
abbrev main_call0_c_29 : Ref sig .tc := ⟨.hbm, 197, rfl⟩
abbrev main_call0_v155 : Ref sig .tc := ⟨.hbm, 198, rfl⟩
abbrev main_call0_v156 : Ref sig .tc := ⟨.hbm, 199, rfl⟩
abbrev main_call0_v157 : Ref sig .tc := ⟨.hbm, 200, rfl⟩
abbrev main_call0_v158 : Ref sig .tc := ⟨.hbm, 201, rfl⟩
abbrev main_call0_v159 : Ref sig .tc := ⟨.hbm, 202, rfl⟩
abbrev main_call0_v160 : Ref sig .tc := ⟨.hbm, 203, rfl⟩
abbrev main_call0_v161 : Ref sig .tc := ⟨.hbm, 204, rfl⟩
abbrev main_call0_v162 : Ref sig .tc := ⟨.hbm, 205, rfl⟩
abbrev main_call0_c_30 : Ref sig .tc := ⟨.hbm, 206, rfl⟩
abbrev main_call0_v163 : Ref sig .tc := ⟨.hbm, 207, rfl⟩
abbrev main_call0_v164 : Ref sig .tc := ⟨.hbm, 208, rfl⟩
abbrev main_call0_c_31 : Ref sig .tc := ⟨.hbm, 209, rfl⟩
abbrev main_call0_v165 : Ref sig .tc := ⟨.hbm, 210, rfl⟩
abbrev main_call0_v166 : Ref sig .tc := ⟨.hbm, 211, rfl⟩
abbrev main_call0_v167 : Ref sig .tc := ⟨.hbm, 212, rfl⟩
abbrev main_call0_v168 : Ref sig .tc := ⟨.hbm, 213, rfl⟩
abbrev main_call0_v169 : Ref sig .tc := ⟨.hbm, 214, rfl⟩
abbrev main_call0_v170 : Ref sig .tc := ⟨.hbm, 215, rfl⟩
abbrev main_call0_v171 : Ref sig .tc := ⟨.hbm, 216, rfl⟩
abbrev main_call0_v172 : Ref sig .tc := ⟨.hbm, 217, rfl⟩
abbrev main_call0_c_32 : Ref sig .tc := ⟨.hbm, 218, rfl⟩
abbrev main_call0_v173 : Ref sig .tc := ⟨.hbm, 219, rfl⟩
abbrev main_call0_v174 : Ref sig .tc := ⟨.hbm, 220, rfl⟩
abbrev main_call0_c_33 : Ref sig .tc := ⟨.hbm, 221, rfl⟩
abbrev main_call0_v175 : Ref sig .tc := ⟨.hbm, 222, rfl⟩
abbrev main_call0_v176 : Ref sig .tc := ⟨.hbm, 223, rfl⟩
abbrev main_call0_v177 : Ref sig .tc := ⟨.hbm, 224, rfl⟩
abbrev main_call0_v178 : Ref sig .tc := ⟨.hbm, 225, rfl⟩
abbrev main_call0_v179 : Ref sig .tc := ⟨.hbm, 226, rfl⟩
abbrev main_call0_v180 : Ref sig .tc := ⟨.hbm, 227, rfl⟩
abbrev main_call0_v181 : Ref sig .tc := ⟨.hbm, 228, rfl⟩
abbrev main_call0_v182 : Ref sig .tc := ⟨.hbm, 229, rfl⟩
abbrev main_call0_c_34 : Ref sig .tc := ⟨.hbm, 230, rfl⟩
abbrev main_call0_v183 : Ref sig .tc := ⟨.hbm, 231, rfl⟩
abbrev main_call0_v184 : Ref sig .tc := ⟨.hbm, 232, rfl⟩
abbrev main_call0_c_35 : Ref sig .tc := ⟨.hbm, 233, rfl⟩
abbrev main_call0_v185 : Ref sig .tc := ⟨.hbm, 234, rfl⟩
abbrev main_call0_v186 : Ref sig .tc := ⟨.hbm, 235, rfl⟩
abbrev main_call0_v187 : Ref sig .tc := ⟨.hbm, 236, rfl⟩
abbrev main_call0_v188 : Ref sig .tc := ⟨.hbm, 237, rfl⟩
abbrev main_call0_v189 : Ref sig .tc := ⟨.hbm, 238, rfl⟩
abbrev main_call0_v190 : Ref sig .tc := ⟨.hbm, 239, rfl⟩
abbrev main_call0_v191 : Ref sig .tc := ⟨.hbm, 240, rfl⟩
abbrev main_call0_v192 : Ref sig .tc := ⟨.hbm, 241, rfl⟩
abbrev main_call0_c_36 : Ref sig .tc := ⟨.hbm, 242, rfl⟩
abbrev main_call0_v193 : Ref sig .tc := ⟨.hbm, 243, rfl⟩
abbrev main_call0_v194 : Ref sig .tc := ⟨.hbm, 244, rfl⟩
abbrev main_call0_c_37 : Ref sig .tc := ⟨.hbm, 245, rfl⟩
abbrev main_call0_v195 : Ref sig .tc := ⟨.hbm, 246, rfl⟩
abbrev main_call0_v196 : Ref sig .tc := ⟨.hbm, 247, rfl⟩
abbrev main_call0_v197 : Ref sig .tc := ⟨.hbm, 248, rfl⟩
abbrev main_call0_v198 : Ref sig .tc := ⟨.hbm, 249, rfl⟩
abbrev main_call0_v199 : Ref sig .tc := ⟨.hbm, 250, rfl⟩
abbrev main_call0_v200 : Ref sig .tc := ⟨.hbm, 251, rfl⟩
abbrev main_call0_v201 : Ref sig .tc := ⟨.hbm, 252, rfl⟩
abbrev main_call0_v202 : Ref sig .tc := ⟨.hbm, 253, rfl⟩
abbrev main_call0_c_38 : Ref sig .tc := ⟨.hbm, 254, rfl⟩
abbrev main_call0_v203 : Ref sig .tc := ⟨.hbm, 255, rfl⟩
abbrev main_call0_v204 : Ref sig .tc := ⟨.hbm, 256, rfl⟩
abbrev main_call0_c_39 : Ref sig .tc := ⟨.hbm, 257, rfl⟩
abbrev main_call0_v205 : Ref sig .tc := ⟨.hbm, 258, rfl⟩
abbrev main_call0_v206 : Ref sig .tc := ⟨.hbm, 259, rfl⟩
abbrev main_call0_v207 : Ref sig .tc := ⟨.hbm, 260, rfl⟩
abbrev main_call0_v208 : Ref sig .tc := ⟨.hbm, 261, rfl⟩
abbrev main_call0_v209 : Ref sig .tc := ⟨.hbm, 262, rfl⟩
abbrev main_call0_v210 : Ref sig .tc := ⟨.hbm, 263, rfl⟩
abbrev main_call0_v211 : Ref sig .tc := ⟨.hbm, 264, rfl⟩
abbrev main_call0_cst_40 : Ref sig .tc := ⟨.hbm, 265, rfl⟩
abbrev main_call0_v212 : Ref sig .tc := ⟨.hbm, 266, rfl⟩
abbrev main_call0_v213 : Ref sig .tc := ⟨.hbm, 267, rfl⟩
abbrev main_call0_v214 : Ref sig .tc := ⟨.hbm, 268, rfl⟩
abbrev main_call0_c_41 : Ref sig .tc := ⟨.hbm, 269, rfl⟩
abbrev main_call0_v215 : Ref sig .tc := ⟨.hbm, 270, rfl⟩
abbrev main_call0_v216 : Ref sig .tc := ⟨.hbm, 271, rfl⟩
abbrev main_call0_c_42 : Ref sig .tc := ⟨.hbm, 272, rfl⟩
abbrev main_call0_v217 : Ref sig .tc := ⟨.hbm, 273, rfl⟩
abbrev main_call0_v218 : Ref sig .tc := ⟨.hbm, 274, rfl⟩
abbrev main_call0_v219 : Ref sig .tc := ⟨.hbm, 275, rfl⟩
abbrev main_call0_v220 : Ref sig .tc := ⟨.hbm, 276, rfl⟩
abbrev main_call0_v221 : Ref sig .tc := ⟨.hbm, 277, rfl⟩
abbrev main_call0_v222 : Ref sig .tc := ⟨.hbm, 278, rfl⟩
abbrev main_call0_v223 : Ref sig .tc := ⟨.hbm, 279, rfl⟩
abbrev main_call0_v224 : Ref sig .tc := ⟨.hbm, 280, rfl⟩
abbrev main_call0_c_43 : Ref sig .tc := ⟨.hbm, 281, rfl⟩
abbrev main_call0_v225 : Ref sig .tc := ⟨.hbm, 282, rfl⟩
abbrev main_call0_v226 : Ref sig .tc := ⟨.hbm, 283, rfl⟩
abbrev main_call0_c_44 : Ref sig .tc := ⟨.hbm, 284, rfl⟩
abbrev main_call0_v227 : Ref sig .tc := ⟨.hbm, 285, rfl⟩
abbrev main_call0_v228 : Ref sig .tc := ⟨.hbm, 286, rfl⟩
abbrev main_call0_v229 : Ref sig .tc := ⟨.hbm, 287, rfl⟩
abbrev main_call0_v230 : Ref sig .tc := ⟨.hbm, 288, rfl⟩
abbrev main_call0_v231 : Ref sig .tc := ⟨.hbm, 289, rfl⟩
abbrev main_call0_v232 : Ref sig .tc := ⟨.hbm, 290, rfl⟩
abbrev main_call0_v233 : Ref sig .tc := ⟨.hbm, 291, rfl⟩
abbrev main_call0_v234 : Ref sig .tc := ⟨.hbm, 292, rfl⟩
abbrev main_call0_c_45 : Ref sig .tc := ⟨.hbm, 293, rfl⟩
abbrev main_call0_v235 : Ref sig .tc := ⟨.hbm, 294, rfl⟩
abbrev main_call0_v236 : Ref sig .tc := ⟨.hbm, 295, rfl⟩
abbrev main_call0_c_46 : Ref sig .tc := ⟨.hbm, 296, rfl⟩
abbrev main_call0_v237 : Ref sig .tc := ⟨.hbm, 297, rfl⟩
abbrev main_call0_v238 : Ref sig .tc := ⟨.hbm, 298, rfl⟩
abbrev main_call0_v239 : Ref sig .tc := ⟨.hbm, 299, rfl⟩
abbrev main_call0_v240 : Ref sig .tc := ⟨.hbm, 300, rfl⟩
abbrev main_call0_v241 : Ref sig .tc := ⟨.hbm, 301, rfl⟩
abbrev main_call0_v242 : Ref sig .tc := ⟨.hbm, 302, rfl⟩
abbrev main_call0_v243 : Ref sig .tc := ⟨.hbm, 303, rfl⟩
abbrev main_call0_v244 : Ref sig .tc := ⟨.hbm, 304, rfl⟩
abbrev main_call0_c_47 : Ref sig .tc := ⟨.hbm, 305, rfl⟩
abbrev main_call0_v245 : Ref sig .tc := ⟨.hbm, 306, rfl⟩
abbrev main_call0_v246 : Ref sig .tc := ⟨.hbm, 307, rfl⟩
abbrev main_call0_c_48 : Ref sig .tc := ⟨.hbm, 308, rfl⟩
abbrev main_call0_v247 : Ref sig .tc := ⟨.hbm, 309, rfl⟩
abbrev main_call0_v248 : Ref sig .tc := ⟨.hbm, 310, rfl⟩
abbrev main_call0_v249 : Ref sig .tc := ⟨.hbm, 311, rfl⟩
abbrev main_call0_v250 : Ref sig .tc := ⟨.hbm, 312, rfl⟩
abbrev main_call0_v251 : Ref sig .tc := ⟨.hbm, 313, rfl⟩
abbrev main_call0_v252 : Ref sig .tc := ⟨.hbm, 314, rfl⟩
abbrev main_call0_v253 : Ref sig .tc := ⟨.hbm, 315, rfl⟩
abbrev main_call0_v254 : Ref sig .tc := ⟨.hbm, 316, rfl⟩
abbrev main_call0_c_49 : Ref sig .tc := ⟨.hbm, 317, rfl⟩
abbrev main_call0_v255 : Ref sig .tc := ⟨.hbm, 318, rfl⟩
abbrev main_call0_v256 : Ref sig .tc := ⟨.hbm, 319, rfl⟩
abbrev main_call0_c_50 : Ref sig .tc := ⟨.hbm, 320, rfl⟩
abbrev main_call0_v257 : Ref sig .tc := ⟨.hbm, 321, rfl⟩
abbrev main_call0_v258 : Ref sig .tc := ⟨.hbm, 322, rfl⟩
abbrev main_call0_v259 : Ref sig .tc := ⟨.hbm, 323, rfl⟩
abbrev main_call0_v260 : Ref sig .tc := ⟨.hbm, 324, rfl⟩
abbrev main_call0_v261 : Ref sig .tc := ⟨.hbm, 325, rfl⟩
abbrev main_call0_v262 : Ref sig .tc := ⟨.hbm, 326, rfl⟩
abbrev main_call0_v263 : Ref sig .tc := ⟨.hbm, 327, rfl⟩
abbrev main_call0_v264 : Ref sig .tc := ⟨.hbm, 328, rfl⟩
abbrev main_call0_c_51 : Ref sig .tc := ⟨.hbm, 329, rfl⟩
abbrev main_call0_v265 : Ref sig .tc := ⟨.hbm, 330, rfl⟩
abbrev main_call0_v266 : Ref sig .tc := ⟨.hbm, 331, rfl⟩
abbrev main_call0_c_52 : Ref sig .tc := ⟨.hbm, 332, rfl⟩
abbrev main_call0_v267 : Ref sig .tc := ⟨.hbm, 333, rfl⟩
abbrev main_call0_v268 : Ref sig .tc := ⟨.hbm, 334, rfl⟩
abbrev main_call0_v269 : Ref sig .tc := ⟨.hbm, 335, rfl⟩
abbrev main_call0_v270 : Ref sig .tc := ⟨.hbm, 336, rfl⟩
abbrev main_call0_v271 : Ref sig .tc := ⟨.hbm, 337, rfl⟩
abbrev main_call0_v272 : Ref sig .tc := ⟨.hbm, 338, rfl⟩
abbrev main_call0_v273 : Ref sig .tc := ⟨.hbm, 339, rfl⟩
abbrev main_call0_v274 : Ref sig .tc := ⟨.hbm, 340, rfl⟩
abbrev main_call0_c_53 : Ref sig .tc := ⟨.hbm, 341, rfl⟩
abbrev main_call0_v275 : Ref sig .tc := ⟨.hbm, 342, rfl⟩
abbrev main_call0_v276 : Ref sig .tc := ⟨.hbm, 343, rfl⟩
abbrev main_call0_c_54 : Ref sig .tc := ⟨.hbm, 344, rfl⟩
abbrev main_call0_v277 : Ref sig .tc := ⟨.hbm, 345, rfl⟩
abbrev main_call0_v278 : Ref sig .tc := ⟨.hbm, 346, rfl⟩
abbrev main_call0_v279 : Ref sig .tc := ⟨.hbm, 347, rfl⟩
abbrev main_call0_v280 : Ref sig .tc := ⟨.hbm, 348, rfl⟩
abbrev main_call0_v281 : Ref sig .tc := ⟨.hbm, 349, rfl⟩
abbrev main_call0_v282 : Ref sig .tc := ⟨.hbm, 350, rfl⟩
abbrev main_call0_v283 : Ref sig .tc := ⟨.hbm, 351, rfl⟩
abbrev main_call0_v284 : Ref sig .tc := ⟨.hbm, 352, rfl⟩
abbrev main_call0_c_55 : Ref sig .tc := ⟨.hbm, 353, rfl⟩
abbrev main_call0_v285 : Ref sig .tc := ⟨.hbm, 354, rfl⟩
abbrev main_call0_v286 : Ref sig .tc := ⟨.hbm, 355, rfl⟩
abbrev main_call0_c_56 : Ref sig .tc := ⟨.hbm, 356, rfl⟩
abbrev main_call0_v287 : Ref sig .tc := ⟨.hbm, 357, rfl⟩
abbrev main_call0_v288 : Ref sig .tc := ⟨.hbm, 358, rfl⟩
abbrev main_call0_v289 : Ref sig .tc := ⟨.hbm, 359, rfl⟩
abbrev main_call0_v290 : Ref sig .tc := ⟨.hbm, 360, rfl⟩
abbrev main_call0_v291 : Ref sig .tc := ⟨.hbm, 361, rfl⟩
abbrev main_call0_v292 : Ref sig .tc := ⟨.hbm, 362, rfl⟩
abbrev main_call0_v293 : Ref sig .tc := ⟨.hbm, 363, rfl⟩
abbrev main_call0_v294 : Ref sig .tc := ⟨.hbm, 364, rfl⟩
abbrev main_call0_c_57 : Ref sig .tc := ⟨.hbm, 365, rfl⟩
abbrev main_call0_v295 : Ref sig .tc := ⟨.hbm, 366, rfl⟩
abbrev main_call0_v296 : Ref sig .tc := ⟨.hbm, 367, rfl⟩
abbrev main_call0_c_58 : Ref sig .tc := ⟨.hbm, 368, rfl⟩
abbrev main_call0_v297 : Ref sig .tc := ⟨.hbm, 369, rfl⟩
abbrev main_call0_v298 : Ref sig .tc := ⟨.hbm, 370, rfl⟩
abbrev main_call0_v299 : Ref sig .tc := ⟨.hbm, 371, rfl⟩
abbrev main_call0_v300 : Ref sig .tc := ⟨.hbm, 372, rfl⟩
abbrev main_call0_v301 : Ref sig .tc := ⟨.hbm, 373, rfl⟩
abbrev main_call0_v302 : Ref sig .tc := ⟨.hbm, 374, rfl⟩
abbrev main_call0_v303 : Ref sig .tc := ⟨.hbm, 375, rfl⟩
abbrev main_call0_v304 : Ref sig .tc := ⟨.hbm, 376, rfl⟩
abbrev main_call0_c_59 : Ref sig .tc := ⟨.hbm, 377, rfl⟩
abbrev main_call0_v305 : Ref sig .tc := ⟨.hbm, 378, rfl⟩
abbrev main_call0_v306 : Ref sig .tc := ⟨.hbm, 379, rfl⟩
abbrev main_call0_c_60 : Ref sig .tc := ⟨.hbm, 380, rfl⟩
abbrev main_call0_v307 : Ref sig .tc := ⟨.hbm, 381, rfl⟩
abbrev main_call0_v308 : Ref sig .tc := ⟨.hbm, 382, rfl⟩
abbrev main_call0_v309 : Ref sig .tc := ⟨.hbm, 383, rfl⟩
abbrev main_call0_v310 : Ref sig .tc := ⟨.hbm, 384, rfl⟩
abbrev main_call0_v311 : Ref sig .tc := ⟨.hbm, 385, rfl⟩
abbrev main_call0_v312 : Ref sig .tc := ⟨.hbm, 386, rfl⟩
abbrev main_call0_v313 : Ref sig .tc := ⟨.hbm, 387, rfl⟩
abbrev main_call0_c_61 : Ref sig .tc := ⟨.hbm, 388, rfl⟩
abbrev main_call0_v314 : Ref sig .tc := ⟨.hbm, 389, rfl⟩
abbrev main_call0_v315 : Ref sig .tc := ⟨.hbm, 390, rfl⟩
abbrev main_call0_c_62 : Ref sig .tc := ⟨.hbm, 391, rfl⟩
abbrev main_call0_v316 : Ref sig .tc := ⟨.hbm, 392, rfl⟩
abbrev main_call0_v317 : Ref sig .tc := ⟨.hbm, 393, rfl⟩
abbrev main_call0_c_63 : Ref sig .tc := ⟨.hbm, 394, rfl⟩
abbrev main_call0_v318 : Ref sig .tc := ⟨.hbm, 395, rfl⟩
abbrev main_call0_v319 : Ref sig .tc := ⟨.hbm, 396, rfl⟩
abbrev main_call0_v320 : Ref sig .tc := ⟨.hbm, 397, rfl⟩
abbrev main_call0_v321 : Ref sig .tc := ⟨.hbm, 398, rfl⟩
abbrev main_call0_v322 : Ref sig .tc := ⟨.hbm, 399, rfl⟩
abbrev main_call0_cst_64 : Ref sig .tc := ⟨.hbm, 400, rfl⟩
abbrev main_call0_v323 : Ref sig .tc := ⟨.hbm, 401, rfl⟩
abbrev main_call0_cst_65 : Ref sig .tc := ⟨.hbm, 402, rfl⟩
abbrev main_call0_v324 : Ref sig .tc := ⟨.hbm, 403, rfl⟩
abbrev main_v0_1 : Ref sig .tc := ⟨.hbm, 404, rfl⟩
abbrev main_call0_cst_66 : Ref sig .tc := ⟨.hbm, 405, rfl⟩
abbrev main_call0_v326 : Ref sig .tc := ⟨.hbm, 406, rfl⟩
abbrev main_call0_v327 : Ref sig .tc := ⟨.hbm, 407, rfl⟩
abbrev main_call0_v328 : Ref sig .tc := ⟨.hbm, 408, rfl⟩
abbrev main_call0_c_67 : Ref sig .tc := ⟨.hbm, 409, rfl⟩
abbrev main_call0_v329 : Ref sig .tc := ⟨.hbm, 410, rfl⟩
abbrev main_call0_v330 : Ref sig .tc := ⟨.hbm, 411, rfl⟩
abbrev main_call0_c_68 : Ref sig .tc := ⟨.hbm, 412, rfl⟩
abbrev main_call0_v331 : Ref sig .tc := ⟨.hbm, 413, rfl⟩
abbrev main_call0_v332 : Ref sig .tc := ⟨.hbm, 414, rfl⟩
abbrev main_call0_v333 : Ref sig .tc := ⟨.hbm, 415, rfl⟩
abbrev main_call0_v334 : Ref sig .tc := ⟨.hbm, 416, rfl⟩
abbrev main_call0_v335 : Ref sig .tc := ⟨.hbm, 417, rfl⟩
abbrev main_call0_v336 : Ref sig .tc := ⟨.hbm, 418, rfl⟩
abbrev main_call0_v337 : Ref sig .tc := ⟨.hbm, 419, rfl⟩
abbrev main_call0_v338 : Ref sig .tc := ⟨.hbm, 420, rfl⟩
abbrev main_call0_c_69 : Ref sig .tc := ⟨.hbm, 421, rfl⟩
abbrev main_call0_v339 : Ref sig .tc := ⟨.hbm, 422, rfl⟩
abbrev main_call0_v340 : Ref sig .tc := ⟨.hbm, 423, rfl⟩
abbrev main_call0_c_70 : Ref sig .tc := ⟨.hbm, 424, rfl⟩
abbrev main_call0_v341 : Ref sig .tc := ⟨.hbm, 425, rfl⟩
abbrev main_call0_v342 : Ref sig .tc := ⟨.hbm, 426, rfl⟩
abbrev main_call0_v343 : Ref sig .tc := ⟨.hbm, 427, rfl⟩
abbrev main_call0_v344 : Ref sig .tc := ⟨.hbm, 428, rfl⟩
abbrev main_call0_v345 : Ref sig .tc := ⟨.hbm, 429, rfl⟩
abbrev main_call0_v346 : Ref sig .tc := ⟨.hbm, 430, rfl⟩
abbrev main_call0_v347 : Ref sig .tc := ⟨.hbm, 431, rfl⟩
abbrev main_call0_v348 : Ref sig .tc := ⟨.hbm, 432, rfl⟩
abbrev main_call0_c_71 : Ref sig .tc := ⟨.hbm, 433, rfl⟩
abbrev main_call0_v349 : Ref sig .tc := ⟨.hbm, 434, rfl⟩
abbrev main_call0_v350 : Ref sig .tc := ⟨.hbm, 435, rfl⟩
abbrev main_call0_c_72 : Ref sig .tc := ⟨.hbm, 436, rfl⟩
abbrev main_call0_v351 : Ref sig .tc := ⟨.hbm, 437, rfl⟩
abbrev main_call0_v352 : Ref sig .tc := ⟨.hbm, 438, rfl⟩
abbrev main_call0_v353 : Ref sig .tc := ⟨.hbm, 439, rfl⟩
abbrev main_call0_v354 : Ref sig .tc := ⟨.hbm, 440, rfl⟩
abbrev main_call0_v355 : Ref sig .tc := ⟨.hbm, 441, rfl⟩
abbrev main_call0_v356 : Ref sig .tc := ⟨.hbm, 442, rfl⟩
abbrev main_call0_v357 : Ref sig .tc := ⟨.hbm, 443, rfl⟩
abbrev main_call0_v358 : Ref sig .tc := ⟨.hbm, 444, rfl⟩
abbrev main_call0_c_73 : Ref sig .tc := ⟨.hbm, 445, rfl⟩
abbrev main_call0_v359 : Ref sig .tc := ⟨.hbm, 446, rfl⟩
abbrev main_call0_v360 : Ref sig .tc := ⟨.hbm, 447, rfl⟩
abbrev main_call0_c_74 : Ref sig .tc := ⟨.hbm, 448, rfl⟩
abbrev main_call0_v361 : Ref sig .tc := ⟨.hbm, 449, rfl⟩
abbrev main_call0_v362 : Ref sig .tc := ⟨.hbm, 450, rfl⟩
abbrev main_call0_v363 : Ref sig .tc := ⟨.hbm, 451, rfl⟩
abbrev main_call0_v364 : Ref sig .tc := ⟨.hbm, 452, rfl⟩
abbrev main_call0_v365 : Ref sig .tc := ⟨.hbm, 453, rfl⟩
abbrev main_call0_v366 : Ref sig .tc := ⟨.hbm, 454, rfl⟩
abbrev main_call0_v367 : Ref sig .tc := ⟨.hbm, 455, rfl⟩
abbrev main_call0_v368 : Ref sig .tc := ⟨.hbm, 456, rfl⟩
abbrev main_call0_c_75 : Ref sig .tc := ⟨.hbm, 457, rfl⟩
abbrev main_call0_v369 : Ref sig .tc := ⟨.hbm, 458, rfl⟩
abbrev main_call0_v370 : Ref sig .tc := ⟨.hbm, 459, rfl⟩
abbrev main_call0_c_76 : Ref sig .tc := ⟨.hbm, 460, rfl⟩
abbrev main_call0_v371 : Ref sig .tc := ⟨.hbm, 461, rfl⟩
abbrev main_call0_v372 : Ref sig .tc := ⟨.hbm, 462, rfl⟩
abbrev main_call0_v373 : Ref sig .tc := ⟨.hbm, 463, rfl⟩
abbrev main_call0_v374 : Ref sig .tc := ⟨.hbm, 464, rfl⟩
abbrev main_call0_v375 : Ref sig .tc := ⟨.hbm, 465, rfl⟩
abbrev main_call0_v376 : Ref sig .tc := ⟨.hbm, 466, rfl⟩
abbrev main_call0_v377 : Ref sig .tc := ⟨.hbm, 467, rfl⟩
abbrev main_call0_v378 : Ref sig .tc := ⟨.hbm, 468, rfl⟩
abbrev main_call0_c_77 : Ref sig .tc := ⟨.hbm, 469, rfl⟩
abbrev main_call0_v379 : Ref sig .tc := ⟨.hbm, 470, rfl⟩
abbrev main_call0_v380 : Ref sig .tc := ⟨.hbm, 471, rfl⟩
abbrev main_call0_c_78 : Ref sig .tc := ⟨.hbm, 472, rfl⟩
abbrev main_call0_v381 : Ref sig .tc := ⟨.hbm, 473, rfl⟩
abbrev main_call0_v382 : Ref sig .tc := ⟨.hbm, 474, rfl⟩
abbrev main_call0_v383 : Ref sig .tc := ⟨.hbm, 475, rfl⟩
abbrev main_call0_v384 : Ref sig .tc := ⟨.hbm, 476, rfl⟩
abbrev main_call0_v385 : Ref sig .tc := ⟨.hbm, 477, rfl⟩
abbrev main_call0_v386 : Ref sig .tc := ⟨.hbm, 478, rfl⟩
abbrev main_call0_v387 : Ref sig .tc := ⟨.hbm, 479, rfl⟩
abbrev main_call0_v388 : Ref sig .tc := ⟨.hbm, 480, rfl⟩
abbrev main_call0_c_79 : Ref sig .tc := ⟨.hbm, 481, rfl⟩
abbrev main_call0_v389 : Ref sig .tc := ⟨.hbm, 482, rfl⟩
abbrev main_call0_v390 : Ref sig .tc := ⟨.hbm, 483, rfl⟩
abbrev main_call0_c_80 : Ref sig .tc := ⟨.hbm, 484, rfl⟩
abbrev main_call0_v391 : Ref sig .tc := ⟨.hbm, 485, rfl⟩
abbrev main_call0_v392 : Ref sig .tc := ⟨.hbm, 486, rfl⟩
abbrev main_call0_v393 : Ref sig .tc := ⟨.hbm, 487, rfl⟩
abbrev main_call0_v394 : Ref sig .tc := ⟨.hbm, 488, rfl⟩
abbrev main_call0_v395 : Ref sig .tc := ⟨.hbm, 489, rfl⟩
abbrev main_call0_v396 : Ref sig .tc := ⟨.hbm, 490, rfl⟩
abbrev main_call0_v397 : Ref sig .tc := ⟨.hbm, 491, rfl⟩
abbrev main_call0_v398 : Ref sig .tc := ⟨.hbm, 492, rfl⟩
abbrev main_call0_c_81 : Ref sig .tc := ⟨.hbm, 493, rfl⟩
abbrev main_call0_v399 : Ref sig .tc := ⟨.hbm, 494, rfl⟩
abbrev main_call0_v400 : Ref sig .tc := ⟨.hbm, 495, rfl⟩
abbrev main_call0_c_82 : Ref sig .tc := ⟨.hbm, 496, rfl⟩
abbrev main_call0_v401 : Ref sig .tc := ⟨.hbm, 497, rfl⟩
abbrev main_call0_v402 : Ref sig .tc := ⟨.hbm, 498, rfl⟩
abbrev main_call0_v403 : Ref sig .tc := ⟨.hbm, 499, rfl⟩
abbrev main_call0_v404 : Ref sig .tc := ⟨.hbm, 500, rfl⟩
abbrev main_call0_v405 : Ref sig .tc := ⟨.hbm, 501, rfl⟩
abbrev main_call0_v406 : Ref sig .tc := ⟨.hbm, 502, rfl⟩
abbrev main_call0_v407 : Ref sig .tc := ⟨.hbm, 503, rfl⟩
abbrev main_call0_v408 : Ref sig .tc := ⟨.hbm, 504, rfl⟩
abbrev main_call0_c_83 : Ref sig .tc := ⟨.hbm, 505, rfl⟩
abbrev main_call0_v409 : Ref sig .tc := ⟨.hbm, 506, rfl⟩
abbrev main_call0_v410 : Ref sig .tc := ⟨.hbm, 507, rfl⟩
abbrev main_call0_c_84 : Ref sig .tc := ⟨.hbm, 508, rfl⟩
abbrev main_call0_v411 : Ref sig .tc := ⟨.hbm, 509, rfl⟩
abbrev main_call0_v412 : Ref sig .tc := ⟨.hbm, 510, rfl⟩
abbrev main_call0_v413 : Ref sig .tc := ⟨.hbm, 511, rfl⟩
abbrev main_call0_v414 : Ref sig .tc := ⟨.hbm, 512, rfl⟩
abbrev main_call0_v415 : Ref sig .tc := ⟨.hbm, 513, rfl⟩
abbrev main_call0_v416 : Ref sig .tc := ⟨.hbm, 514, rfl⟩
abbrev main_call0_v417 : Ref sig .tc := ⟨.hbm, 515, rfl⟩
abbrev main_call0_v418 : Ref sig .tc := ⟨.hbm, 516, rfl⟩
abbrev main_call0_c_85 : Ref sig .tc := ⟨.hbm, 517, rfl⟩
abbrev main_call0_v419 : Ref sig .tc := ⟨.hbm, 518, rfl⟩
abbrev main_call0_v420 : Ref sig .tc := ⟨.hbm, 519, rfl⟩
abbrev main_call0_c_86 : Ref sig .tc := ⟨.hbm, 520, rfl⟩
abbrev main_call0_v421 : Ref sig .tc := ⟨.hbm, 521, rfl⟩
abbrev main_call0_v422 : Ref sig .tc := ⟨.hbm, 522, rfl⟩
abbrev main_call0_v423 : Ref sig .tc := ⟨.hbm, 523, rfl⟩
abbrev main_call0_v424 : Ref sig .tc := ⟨.hbm, 524, rfl⟩
abbrev main_call0_v425 : Ref sig .tc := ⟨.hbm, 525, rfl⟩
abbrev main_call0_v426 : Ref sig .tc := ⟨.hbm, 526, rfl⟩
abbrev main_call0_v427 : Ref sig .tc := ⟨.hbm, 527, rfl⟩
abbrev main_call0_v428 : Ref sig .tc := ⟨.hbm, 528, rfl⟩
abbrev main_call0_v429 : Ref sig .tc := ⟨.hbm, 529, rfl⟩
abbrev main_call0_cst_87 : Ref sig .tc := ⟨.hbm, 530, rfl⟩
abbrev main_call0_v430 : Ref sig .tc := ⟨.hbm, 531, rfl⟩
abbrev main_call0_cst_88 : Ref sig .tc := ⟨.hbm, 532, rfl⟩
abbrev main_call0_v431 : Ref sig .tc := ⟨.hbm, 533, rfl⟩
abbrev main_v0_0 : Ref sig .tc := ⟨.hbm, 534, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x35 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S35x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S256x40_S40x256_1_0 : S256x40.Transposes [1, 0] S40x256
  transposes_S256x256_S256x256_1_0 : S256x256.Transposes [1, 0] S256x256
  slices_S256x291_S256x35_0_0 : S256x291.Slices ![0, 0] S256x35
  transposes_S256x35_S35x256_1_0 : S256x35.Transposes [1, 0] S35x256
  slices_S256x291_S256x256_0_35 : S256x291.Slices ![0, 35] S256x256
  concatenates_S10000x256_S100000x256_S110000x256_d0 : Shape.Concatenates [S10000x256, S100000x256] S110000x256 0
  bcast_S_S100000x256 : S_.BroadcastsInDim S100000x256 (![] : Fin 0 → Fin S100000x256.rank)
  slices_S100000x10_S100000x1_0_0 : S100000x10.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x10_S100000x1_0_1 : S100000x10.Slices ![0, 1] S100000x1
  slices_S100000x10_S100000x1_0_2 : S100000x10.Slices ![0, 2] S100000x1
  slices_S100000x10_S100000x1_0_3 : S100000x10.Slices ![0, 3] S100000x1
  slices_S100000x10_S100000x1_0_4 : S100000x10.Slices ![0, 4] S100000x1
  slices_S100000x10_S100000x1_0_5 : S100000x10.Slices ![0, 5] S100000x1
  slices_S100000x10_S100000x1_0_6 : S100000x10.Slices ![0, 6] S100000x1
  slices_S100000x10_S100000x1_0_7 : S100000x10.Slices ![0, 7] S100000x1
  slices_S100000x10_S100000x1_0_8 : S100000x10.Slices ![0, 8] S100000x1
  slices_S100000x10_S100000x1_0_9 : S100000x10.Slices ![0, 9] S100000x1
  bcast_S_S10000x2 : S_.BroadcastsInDim S10000x2 (![] : Fin 0 → Fin S10000x2.rank)
  bcast_S10000x2_S10000x2x1_0_1 : S10000x2.BroadcastsInDim S10000x2x1 (![0, 1] : Fin 2 → Fin S10000x2x1.rank)
  reducesTo_S10000x2x256_S10000x256_d1 : S10000x2x256.ReducesTo [1] S10000x256
  h_S_ : 0 < S_.numel
  bcast_S_S10000x256 : S_.BroadcastsInDim S10000x256 (![] : Fin 0 → Fin S10000x256.rank)
  bcast_S_S50000x256 : S_.BroadcastsInDim S50000x256 (![] : Fin 0 → Fin S50000x256.rank)
  slices_S50000x10_S50000x1_0_0 : S50000x10.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x10_S50000x1_0_1 : S50000x10.Slices ![0, 1] S50000x1
  slices_S50000x10_S50000x1_0_2 : S50000x10.Slices ![0, 2] S50000x1
  slices_S50000x10_S50000x1_0_3 : S50000x10.Slices ![0, 3] S50000x1
  slices_S50000x10_S50000x1_0_4 : S50000x10.Slices ![0, 4] S50000x1
  slices_S50000x10_S50000x1_0_5 : S50000x10.Slices ![0, 5] S50000x1
  slices_S50000x10_S50000x1_0_6 : S50000x10.Slices ![0, 6] S50000x1
  slices_S50000x10_S50000x1_0_7 : S50000x10.Slices ![0, 7] S50000x1
  slices_S50000x10_S50000x1_0_8 : S50000x10.Slices ![0, 8] S50000x1
  slices_S50000x10_S50000x1_0_9 : S50000x10.Slices ![0, 9] S50000x1
  shapeCasts_S256_S1x256 : S256.ShapeCasts S1x256
  shapeCasts_S50000x256_S2000x25x256 : S50000x256.ShapeCasts S2000x25x256
  reducesTo_S2000x25x256_S2000x256_d1 : S2000x25x256.ReducesTo [1] S2000x256
  bcast_S_S2000x256 : S_.BroadcastsInDim S2000x256 (![] : Fin 0 → Fin S2000x256.rank)
  inb_S5000x40_S5000x40_0_0 : ∀ a, (![0, 0] : Fin 2 → Nat) a + S5000x40.size a ≤ S5000x40.size a
  h_S5000x40 : 0 < S5000x40.numel
  inb_S40x256_S40x256_0_0 : ∀ a, (![0, 0] : Fin 2 → Nat) a + S40x256.size a ≤ S40x256.size a
  h_S40x256 : 0 < S40x256.numel
  shapeCasts_S40x256_S40x256 : S40x256.ShapeCasts S40x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5000x35_S5000x35_0_0 : ∀ a, (![0, 0] : Fin 2 → Nat) a + S5000x35.size a ≤ S5000x35.size a
  h_S5000x35 : 0 < S5000x35.numel
  inb_S35x256_S35x256_0_0 : ∀ a, (![0, 0] : Fin 2 → Nat) a + S35x256.size a ≤ S35x256.size a
  h_S35x256 : 0 < S35x256.numel
  shapeCasts_S35x256_S35x256 : S35x256.ShapeCasts S35x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S110000x256_S100000x1_S100000x256_1_0_n_n_0_1_1256_wf : GatherDims.WF S110000x256 S100000x1 S100000x256 [1] [0] [] [0] [] 1 ![1, 256]
  gather_S110000x256_S10000x2x1_S10000x2x256_2_0_n_n_0_2_1256_wf : GatherDims.WF S110000x256 S10000x2x1 S10000x2x256 [2] [0] [] [0] [] 2 ![1, 256]
  gather_S110000x256_S50000x1_S50000x256_1_0_n_n_0_1_1256_wf : GatherDims.WF S110000x256 S50000x1 S50000x256 [1] [0] [] [0] [] 1 ![1, 256]
  dot_S5000x40_S40x256_S5000x256_1_0_0_1_n_n_wf : DotDims.WF S5000x40 S40x256 S5000x256 [1] [0] [0] [1] [] []
  dot_S5000x256_S256x256_S5000x256_1_0_0_1_n_n_wf : DotDims.WF S5000x256 S256x256 S5000x256 [1] [0] [0] [1] [] []
  dot_S5000x35_S35x256_S5000x256_1_0_0_1_n_n_wf : DotDims.WF S5000x35 S35x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x40.size a ≤ S100000x40.size a
  hwx0_0 : ∀ i : grid0.Coords, EltTy.bits .f32 = 32 ∨ (Rect.block (s := S100000x40) S5000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x256.size a ≤ S40x256.size a
  hwx0_1 : ∀ i : grid0.Coords, EltTy.bits .f32 = 32 ∨ (Rect.block (s := S40x256) S40x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S5000x256.size a ≤ S100000x256.size a
  hwx1_0 : ∀ i : grid1.Coords, EltTy.bits .f32 = 32 ∨ (Rect.block (s := S100000x256) S5000x256.size (cc1_transform_1 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S256x256.size a ≤ S256x256.size a
  hwx1_1 : ∀ i : grid1.Coords, EltTy.bits .f32 = 32 ∨ (Rect.block (s := S256x256) S256x256.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S5000x256.size a ≤ S100000x256.size a
  hwx1_2 : ∀ i : grid1.Coords, EltTy.bits .f32 = 32 ∨ (Rect.block (s := S100000x256) S5000x256.size (cc1_transform_3 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_4 i = cc1_transform_4 i'
  hinb1_3 : ∀ (i : grid1.Coords) a, (cc1_transform_4 i a + 1) * S5000x256.size a ≤ S110000x256.size a
  hwx1_3 : ∀ i : grid1.Coords, EltTy.bits .f32 = 32 ∨ (Rect.block (s := S110000x256) S5000x256.size (cc1_transform_4 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S5000x256.size a ≤ S100000x256.size a
  hwx2_0 : ∀ i : grid2.Coords, EltTy.bits .f32 = 32 ∨ (Rect.block (s := S100000x256) S5000x256.size (cc2_transform_1 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_2 i = cc2_transform_2 i'
  hinb2_1 : ∀ (i : grid2.Coords) a, (cc2_transform_2 i a + 1) * S256x256.size a ≤ S256x256.size a
  hwx2_1 : ∀ i : grid2.Coords, EltTy.bits .f32 = 32 ∨ (Rect.block (s := S256x256) S256x256.size (cc2_transform_2 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_3 i = cc2_transform_3 i'
  hinb2_2 : ∀ (i : grid2.Coords) a, (cc2_transform_3 i a + 1) * S5000x256.size a ≤ S100000x256.size a
  hwx2_2 : ∀ i : grid2.Coords, EltTy.bits .f32 = 32 ∨ (Rect.block (s := S100000x256) S5000x256.size (cc2_transform_3 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_4 i = cc2_transform_4 i'
  hinb2_3 : ∀ (i : grid2.Coords) a, (cc2_transform_4 i a + 1) * S5000x256.size a ≤ S110000x256.size a
  hwx2_3 : ∀ i : grid2.Coords, EltTy.bits .f32 = 32 ∨ (Rect.block (s := S110000x256) S5000x256.size (cc2_transform_4 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S5000x256.size a ≤ S100000x256.size a
  hwx3_0 : ∀ i : grid3.Coords, EltTy.bits .f32 = 32 ∨ (Rect.block (s := S100000x256) S5000x256.size (cc3_transform_1 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_2 i = cc3_transform_2 i'
  hinb3_1 : ∀ (i : grid3.Coords) a, (cc3_transform_2 i a + 1) * S256x256.size a ≤ S256x256.size a
  hwx3_1 : ∀ i : grid3.Coords, EltTy.bits .f32 = 32 ∨ (Rect.block (s := S256x256) S256x256.size (cc3_transform_2 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hinb3_2 : ∀ (i : grid3.Coords) a, (cc3_transform_3 i a + 1) * S5000x256.size a ≤ S100000x256.size a
  hwx3_2 : ∀ i : grid3.Coords, EltTy.bits .f32 = 32 ∨ (Rect.block (s := S100000x256) S5000x256.size (cc3_transform_3 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S5000x256.size a ≤ S110000x256.size a
  hwx3_3 : ∀ i : grid3.Coords, EltTy.bits .f32 = 32 ∨ (Rect.block (s := S110000x256) S5000x256.size (cc3_transform_4 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x35.size a ≤ S50000x35.size a
  hwx4_0 : ∀ i : grid4.Coords, EltTy.bits .f32 = 32 ∨ (Rect.block (s := S50000x35) S5000x35.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S35x256.size a ≤ S35x256.size a
  hwx4_2 : ∀ i : grid4.Coords, EltTy.bits .f32 = 32 ∨ (Rect.block (s := S35x256) S35x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x256.size a ≤ S50000x256.size a
  hwx4_5 : ∀ i : grid4.Coords, EltTy.bits .f32 = 32 ∨ (Rect.block (s := S50000x256) S5000x256.size (cc4_transform_5 i) (hinb4_5 i)).WholeWords (EltTy.packing .f32)

variable [Facts₀]

def gather_S110000x256_S100000x1_S100000x256_1_0_n_n_0_1_1256 : GatherDims S110000x256 S100000x1 S100000x256 where
  offsetDims := [1]
  collapsedSliceDims := [0]
  operandBatchingDims := []
  startIndicesBatchingDims := []
  startIndexMap := [0]
  indexVectorDim := 1
  sliceSizes := ![1, 256]
  wf := gather_S110000x256_S100000x1_S100000x256_1_0_n_n_0_1_1256_wf
def gather_S110000x256_S10000x2x1_S10000x2x256_2_0_n_n_0_2_1256 : GatherDims S110000x256 S10000x2x1 S10000x2x256 where
  offsetDims := [2]
  collapsedSliceDims := [0]
  operandBatchingDims := []
  startIndicesBatchingDims := []
  startIndexMap := [0]
  indexVectorDim := 2
  sliceSizes := ![1, 256]
  wf := gather_S110000x256_S10000x2x1_S10000x2x256_2_0_n_n_0_2_1256_wf
def gather_S110000x256_S50000x1_S50000x256_1_0_n_n_0_1_1256 : GatherDims S110000x256 S50000x1 S50000x256 where
  offsetDims := [1]
  collapsedSliceDims := [0]
  operandBatchingDims := []
  startIndicesBatchingDims := []
  startIndexMap := [0]
  indexVectorDim := 1
  sliceSizes := ![1, 256]
  wf := gather_S110000x256_S50000x1_S50000x256_1_0_n_n_0_1_1256_wf
def dot_S5000x40_S40x256_S5000x256_1_0_0_1_n_n : DotDims S5000x40 S40x256 S5000x256 where
  lhsContracting := [1]
  rhsContracting := [0]
  lhsNonContracting := [0]
  rhsNonContracting := [1]
  lhsBatch := []
  rhsBatch := []
  wf := dot_S5000x40_S40x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x35_S35x256_S5000x256_1_0_0_1_n_n : DotDims S5000x35 S35x256 S5000x256 where
  lhsContracting := [1]
  rhsContracting := [0]
  lhsNonContracting := [0]
  rhsNonContracting := [1]
  lhsBatch := []
  rhsBatch := []
  wf := dot_S5000x35_S35x256_S5000x256_1_0_0_1_n_n_wf

abbrev win0_0 : Pipeline.Window sig grid0 :=
  Pipeline.Window.ofSpec (Memref.whole main_arg1) S5000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S40x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6_0) S5000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6_1) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v108) S5000x256.size cc1_transform_1 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S256x256.size cc1_transform_2 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6_0) S5000x256.size cc1_transform_3 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v109) S5000x256.size cc1_transform_4 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v210) S5000x256.size cc2_transform_1 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S256x256.size cc2_transform_2 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6_0) S5000x256.size cc2_transform_3 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v211) S5000x256.size cc2_transform_4 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v312) S5000x256.size cc3_transform_1 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v1) S256x256.size cc3_transform_2 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6_0) S5000x256.size cc3_transform_3 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v313) S5000x256.size cc3_transform_4 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S5000x35.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v426) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v3) S35x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v5) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v427) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v428) S5000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x35 : Shape := ⟨2, ![50000, 35]⟩
abbrev S100000x40 : Shape := ⟨2, ![100000, 40]⟩
abbrev S10000x256 : Shape := ⟨2, ![10000, 256]⟩
abbrev S50000x10 : Shape := ⟨2, ![50000, 10]⟩
abbrev S100000x10 : Shape := ⟨2, ![100000, 10]⟩
abbrev S10000x2 : Shape := ⟨2, ![10000, 2]⟩
abbrev S256x40 : Shape := ⟨2, ![256, 40]⟩
abbrev S256x256 : Shape := ⟨2, ![256, 256]⟩
abbrev S256x291 : Shape := ⟨2, ![256, 291]⟩
abbrev S256 : Shape := ⟨1, ![256]⟩
abbrev S40x256 : Shape := ⟨2, ![40, 256]⟩
abbrev S100000x256 : Shape := ⟨2, ![100000, 256]⟩
abbrev S_ : Shape := ⟨0, ![]⟩
abbrev S110000x256 : Shape := ⟨2, ![110000, 256]⟩
abbrev S100000x10x1 : Shape := ⟨3, ![100000, 10, 1]⟩
abbrev S100000x10x256 : Shape := ⟨3, ![100000, 10, 256]⟩
abbrev S10000x2x1 : Shape := ⟨3, ![10000, 2, 1]⟩
abbrev S10000x2x256 : Shape := ⟨3, ![10000, 2, 256]⟩
abbrev S50000x10x1 : Shape := ⟨3, ![50000, 10, 1]⟩
abbrev S50000x10x256 : Shape := ⟨3, ![50000, 10, 256]⟩
abbrev S50000x256 : Shape := ⟨2, ![50000, 256]⟩
abbrev S50000x291 : Shape := ⟨2, ![50000, 291]⟩
abbrev S291x256 : Shape := ⟨2, ![291, 256]⟩
abbrev S1x256 : Shape := ⟨2, ![1, 256]⟩
abbrev S2000x25x256 : Shape := ⟨3, ![2000, 25, 256]⟩
abbrev S2000x256 : Shape := ⟨2, ![2000, 256]⟩

abbrev nBuf : Space → Nat
  | .hbm => 110
  | .vmem => 0
  | .smem => 0
  | _ => 0

abbrev bufTy : (tb : Table) → Fin (tcTables nBuf tb) → BufTy
  | .hbm, ⟨0, _⟩ => ⟨S50000x35, .f32⟩
  | .hbm, ⟨1, _⟩ => ⟨S100000x40, .f32⟩
  | .hbm, ⟨2, _⟩ => ⟨S10000x256, .f32⟩
  | .hbm, ⟨3, _⟩ => ⟨S50000x10, .i32⟩
  | .hbm, ⟨4, _⟩ => ⟨S100000x10, .i32⟩
  | .hbm, ⟨5, _⟩ => ⟨S10000x2, .i32⟩
  | .hbm, ⟨6, _⟩ => ⟨S256x40, .f32⟩
  | .hbm, ⟨7, _⟩ => ⟨S256x256, .f32⟩
  | .hbm, ⟨8, _⟩ => ⟨S256x291, .f32⟩
  | .hbm, ⟨9, _⟩ => ⟨S256, .f32⟩
  | .hbm, ⟨10, _⟩ => ⟨S40x256, .f32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S110000x256, .f32⟩
  | .hbm, ⟨16, _⟩ => ⟨S_, .i32⟩
  | .hbm, ⟨17, _⟩ => ⟨S100000x10, .i32⟩
  | .hbm, ⟨18, _⟩ => ⟨S100000x10, .i1⟩
  | .hbm, ⟨19, _⟩ => ⟨S_, .i32⟩
  | .hbm, ⟨20, _⟩ => ⟨S100000x10, .i32⟩
  | .hbm, ⟨21, _⟩ => ⟨S100000x10, .i32⟩
  | .hbm, ⟨22, _⟩ => ⟨S100000x10, .i32⟩
  | .hbm, ⟨23, _⟩ => ⟨S100000x10x1, .i32⟩
  | .hbm, ⟨24, _⟩ => ⟨S100000x10x256, .f32⟩
  | .hbm, ⟨25, _⟩ => ⟨S_, .f32⟩
  | .hbm, ⟨26, _⟩ => ⟨S100000x256, .f32⟩
  | .hbm, ⟨27, _⟩ => ⟨S256x256, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S110000x256, .f32⟩
  | .hbm, ⟨34, _⟩ => ⟨S_, .i32⟩
  | .hbm, ⟨35, _⟩ => ⟨S100000x10, .i32⟩
  | .hbm, ⟨36, _⟩ => ⟨S100000x10, .i1⟩
  | .hbm, ⟨37, _⟩ => ⟨S_, .i32⟩
  | .hbm, ⟨38, _⟩ => ⟨S100000x10, .i32⟩
  | .hbm, ⟨39, _⟩ => ⟨S100000x10, .i32⟩
  | .hbm, ⟨40, _⟩ => ⟨S100000x10, .i32⟩
  | .hbm, ⟨41, _⟩ => ⟨S100000x10x1, .i32⟩
  | .hbm, ⟨42, _⟩ => ⟨S100000x10x256, .f32⟩
  | .hbm, ⟨43, _⟩ => ⟨S_, .f32⟩
  | .hbm, ⟨44, _⟩ => ⟨S100000x256, .f32⟩
  | .hbm, ⟨45, _⟩ => ⟨S256x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S110000x256, .f32⟩
  | .hbm, ⟨52, _⟩ => ⟨S_, .i32⟩
  | .hbm, ⟨53, _⟩ => ⟨S100000x10, .i32⟩
  | .hbm, ⟨54, _⟩ => ⟨S100000x10, .i1⟩
  | .hbm, ⟨55, _⟩ => ⟨S_, .i32⟩
  | .hbm, ⟨56, _⟩ => ⟨S100000x10, .i32⟩
  | .hbm, ⟨57, _⟩ => ⟨S100000x10, .i32⟩
  | .hbm, ⟨58, _⟩ => ⟨S100000x10, .i32⟩
  | .hbm, ⟨59, _⟩ => ⟨S100000x10x1, .i32⟩
  | .hbm, ⟨60, _⟩ => ⟨S100000x10x256, .f32⟩
  | .hbm, ⟨61, _⟩ => ⟨S_, .f32⟩
  | .hbm, ⟨62, _⟩ => ⟨S100000x256, .f32⟩
  | .hbm, ⟨63, _⟩ => ⟨S256x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S_, .i32⟩
  | .hbm, ⟨70, _⟩ => ⟨S10000x2, .i32⟩
  | .hbm, ⟨71, _⟩ => ⟨S10000x2, .i1⟩
  | .hbm, ⟨72, _⟩ => ⟨S_, .i32⟩
  | .hbm, ⟨73, _⟩ => ⟨S10000x2, .i32⟩
  | .hbm, ⟨74, _⟩ => ⟨S10000x2, .i32⟩
  | .hbm, ⟨75, _⟩ => ⟨S10000x2, .i32⟩
  | .hbm, ⟨76, _⟩ => ⟨S10000x2x1, .i32⟩
  | .hbm, ⟨77, _⟩ => ⟨S10000x2x256, .f32⟩
  | .hbm, ⟨78, _⟩ => ⟨S_, .f32⟩
  | .hbm, ⟨79, _⟩ => ⟨S10000x256, .f32⟩
  | .hbm, ⟨80, _⟩ => ⟨S_, .f32⟩
  | .hbm, ⟨81, _⟩ => ⟨S10000x256, .f32⟩
  | .hbm, ⟨82, _⟩ => ⟨S10000x256, .f32⟩
  | .hbm, ⟨83, _⟩ => ⟨S110000x256, .f32⟩
  | .hbm, ⟨84, _⟩ => ⟨S_, .i32⟩
  | .hbm, ⟨85, _⟩ => ⟨S50000x10, .i32⟩
  | .hbm, ⟨86, _⟩ => ⟨S50000x10, .i1⟩
  | .hbm, ⟨87, _⟩ => ⟨S_, .i32⟩
  | .hbm, ⟨88, _⟩ => ⟨S50000x10, .i32⟩
  | .hbm, ⟨89, _⟩ => ⟨S50000x10, .i32⟩
  | .hbm, ⟨90, _⟩ => ⟨S50000x10, .i32⟩
  | .hbm, ⟨91, _⟩ => ⟨S50000x10x1, .i32⟩
  | .hbm, ⟨92, _⟩ => ⟨S50000x10x256, .f32⟩
  | .hbm, ⟨93, _⟩ => ⟨S_, .f32⟩
  | .hbm, ⟨94, _⟩ => ⟨S50000x256, .f32⟩
  | .hbm, ⟨95, _⟩ => ⟨S50000x291, .f32⟩
  | .hbm, ⟨96, _⟩ => ⟨S291x256, .f32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x256, .f32⟩
  | .hbm, ⟨101, _⟩ => ⟨S_, .f32⟩
  | .hbm, ⟨102, _⟩ => ⟨S50000x256, .f32⟩
  | .hbm, ⟨103, _⟩ => ⟨S50000x256, .f32⟩
  | .hbm, ⟨104, _⟩ => ⟨S2000x25x256, .f32⟩
  | .hbm, ⟨105, _⟩ => ⟨S_, .f32⟩
  | .hbm, ⟨106, _⟩ => ⟨S2000x256, .f32⟩
  | .hbm, ⟨107, _⟩ => ⟨S_, .f32⟩
  | .hbm, ⟨108, _⟩ => ⟨S2000x256, .f32⟩
  | .hbm, ⟨109, _⟩ => ⟨S2000x256, .f32⟩
  | _, _ => ⟨S50000x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_cst : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call3_cst : Ref sig .tc := ⟨.hbm, 66, rfl⟩
abbrev main_call3_v0 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call4_cst : Ref sig .tc := ⟨.hbm, 101, rfl⟩
abbrev main_call4_v0 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]

class Facts₀ : Prop where
  transposes_S256x40_S40x256_1_0 : S256x40.Transposes [1, 0] S40x256
  bcast_S_S100000x256 : S_.BroadcastsInDim S100000x256 (![] : Fin 0 → Fin S100000x256.rank)
  concatenates_S10000x256_S100000x256_S110000x256_d0 : Shape.Concatenates [S10000x256, S100000x256] S110000x256 0
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  reducesTo_S100000x10x256_S100000x256_d1 : S100000x10x256.ReducesTo [1] S100000x256
  h_S_ : 0 < S_.numel
  transposes_S256x256_S256x256_1_0 : S256x256.Transposes [1, 0] S256x256
  bcast_S_S10000x2 : S_.BroadcastsInDim S10000x2 (![] : Fin 0 → Fin S10000x2.rank)
  bcast_S10000x2_S10000x2x1_0_1 : S10000x2.BroadcastsInDim S10000x2x1 (![0, 1] : Fin 2 → Fin S10000x2x1.rank)
  reducesTo_S10000x2x256_S10000x256_d1 : S10000x2x256.ReducesTo [1] S10000x256
  bcast_S_S10000x256 : S_.BroadcastsInDim S10000x256 (![] : Fin 0 → Fin S10000x256.rank)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x256_S50000x256_d1 : S50000x10x256.ReducesTo [1] S50000x256
  concatenates_S50000x35_S50000x256_S50000x291_d1 : Shape.Concatenates [S50000x35, S50000x256] S50000x291 1
  transposes_S256x291_S291x256_1_0 : S256x291.Transposes [1, 0] S291x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  shapeCasts_S50000x256_S2000x25x256 : S50000x256.ShapeCasts S2000x25x256
  reducesTo_S2000x25x256_S2000x256_d1 : S2000x25x256.ReducesTo [1] S2000x256
  bcast_S_S2000x256 : S_.BroadcastsInDim S2000x256 (![] : Fin 0 → Fin S2000x256.rank)
  dot_S100000x40_S40x256_S100000x256_1_0_0_1_n_n_wf : DotDims.WF S100000x40 S40x256 S100000x256 [1] [0] [0] [1] [] []
  gather_S110000x256_S100000x10x1_S100000x10x256_2_0_n_n_0_2_1256_wf : GatherDims.WF S110000x256 S100000x10x1 S100000x10x256 [2] [0] [] [0] [] 2 ![1, 256]
  dot_S100000x256_S256x256_S100000x256_1_0_0_1_n_n_wf : DotDims.WF S100000x256 S256x256 S100000x256 [1] [0] [0] [1] [] []
  gather_S100000x256_S10000x2x1_S10000x2x256_2_0_n_n_0_2_1256_wf : GatherDims.WF S100000x256 S10000x2x1 S10000x2x256 [2] [0] [] [0] [] 2 ![1, 256]
  gather_S110000x256_S50000x10x1_S50000x10x256_2_0_n_n_0_2_1256_wf : GatherDims.WF S110000x256 S50000x10x1 S50000x10x256 [2] [0] [] [0] [] 2 ![1, 256]
  dot_S50000x291_S291x256_S50000x256_1_0_0_1_n_n_wf : DotDims.WF S50000x291 S291x256 S50000x256 [1] [0] [0] [1] [] []

variable [Facts₀]

def dot_S100000x40_S40x256_S100000x256_1_0_0_1_n_n : DotDims S100000x40 S40x256 S100000x256 where
  lhsContracting := [1]
  rhsContracting := [0]
  lhsNonContracting := [0]
  rhsNonContracting := [1]
  lhsBatch := []
  rhsBatch := []
  wf := dot_S100000x40_S40x256_S100000x256_1_0_0_1_n_n_wf
def gather_S110000x256_S100000x10x1_S100000x10x256_2_0_n_n_0_2_1256 : GatherDims S110000x256 S100000x10x1 S100000x10x256 where
  offsetDims := [2]
  collapsedSliceDims := [0]
  operandBatchingDims := []
  startIndicesBatchingDims := []
  startIndexMap := [0]
  indexVectorDim := 2
  sliceSizes := ![1, 256]
  wf := gather_S110000x256_S100000x10x1_S100000x10x256_2_0_n_n_0_2_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S10000x2x1_S10000x2x256_2_0_n_n_0_2_1256 : GatherDims S100000x256 S10000x2x1 S10000x2x256 where
  offsetDims := [2]
  collapsedSliceDims := [0]
  operandBatchingDims := []
  startIndicesBatchingDims := []
  startIndexMap := [0]
  indexVectorDim := 2
  sliceSizes := ![1, 256]
  wf := gather_S100000x256_S10000x2x1_S10000x2x256_2_0_n_n_0_2_1256_wf
def gather_S110000x256_S50000x10x1_S50000x10x256_2_0_n_n_0_2_1256 : GatherDims S110000x256 S50000x10x1 S50000x10x256 where
  offsetDims := [2]
  collapsedSliceDims := [0]
  operandBatchingDims := []
  startIndicesBatchingDims := []
  startIndexMap := [0]
  indexVectorDim := 2
  sliceSizes := ![1, 256]
  wf := gather_S110000x256_S50000x10x1_S50000x10x256_2_0_n_n_0_2_1256_wf
def dot_S50000x291_S291x256_S50000x256_1_0_0_1_n_n : DotDims S50000x291 S291x256 S50000x256 where
  lhsContracting := [1]
  rhsContracting := [0]
  lhsNonContracting := [0]
  rhsNonContracting := [1]
  lhsBatch := []
  rhsBatch := []
  wf := dot_S50000x291_S291x256_S50000x256_1_0_0_1_n_n_wf

class Facts : Prop extends Facts₀ where

variable [Facts]
-- ==== Proof.Passing.lean ====
/-
  The vocabulary of this certificate: the message-passing network written once, as whole-array terms.

  A bond table of 110000 rows holds the 10000 tree messages followed by the 100000 bond messages.  One
  round replaces every bond message by relu(bondInput + (sum of the ten table rows its neighbour list names) · W_hᵀ);
  neighbour indices are wrapped (a negative index counts from the table's end) and then clamped by the gather.
  After three rounds the pair means and the atom hidden states are read off the table.

  The first group of definitions spells each stage with the reference program's own operations; the second
  group spells the stages the kernel's host code computes differently (the neighbour sum as ten row gathers
  added one after the other, the pair gather through the table shifted by the 10000 tree rows).
-/
import proofs.«431449_j16389595201591_3_alg».proof.KernelIdeal
import proofs.«431449_j16389595201591_3_alg».proof.ReferenceIdeal
import proofs.«431449_j16389595201591_3_alg».proof.Proof.Gen.KernelIdeal
import proofs.«431449_j16389595201591_3_alg».proof.Proof.Gen.ReferenceIdeal
import Idealize.ShloMosaic.PureOps.Ideal

noncomputable section

open Idealize.ShloMosaic

namespace Cert.Passing

/-! ## The stages as the reference spells them -/
section Ref
open Cert.ReferenceIdeal Cert.ReferenceIdeal.Facts₀

/-- fbonds · W_iᵀ : the bond input, fixed through all rounds. -/
def bondInput (fb : FVec Ideal S100000x40 .f32) (wi : FVec Ideal S256x40 .f32) : FVec Ideal S100000x256 .f32 :=
  Host.dotGeneral dot_S100000x40_S40x256_S100000x256_1_0_0_1_n_n none fb (transpose S40x256 [1, 0] wi transposes_S256x40_S40x256_1_0)

/-- max(x, 0) on a bond-shaped array. -/
def reluBonds (x : FVec Ideal S100000x256 .f32) : FVec Ideal S100000x256 .f32 :=
  maximumf x (broadcastInDim S100000x256 ![] bcast_S_S100000x256 (constant S_ .f32 0x00000000#32))

/-- The table: tree messages on rows 0 … 9999, bond messages on rows 10000 … 109999. -/
def table (tree : FVec Ideal S10000x256 .f32) (g : FVec Ideal S100000x256 .f32) : FVec Ideal S110000x256 .f32 :=
  concatenate S110000x256 0 [⟨S10000x256, tree⟩, ⟨S100000x256, g⟩] concatenates_S10000x256_S100000x256_S110000x256_d0

/-- A bond's neighbour indices with the negative ones counted from the table's end. -/
def wrapBonds (idx : IVec S100000x10 32) : IVec S100000x10 32 :=
  select (cmpi .slt idx (broadcastInDim S100000x10 ![] bcast_S_S100000x10 (constantI S_ 32 0#32)))
    (addi idx (broadcastInDim S100000x10 ![] bcast_S_S100000x10 (constantI S_ 32 110000#32))) idx

/-- The sum over a bond's ten neighbours of the table rows they name. -/
def neighbourSumBonds (M : FVec Ideal S110000x256 .f32) (idx : IVec S100000x10 32) : FVec Ideal S100000x256 .f32 :=
  Host.reduceAdd (Host.gather gather_S110000x256_S100000x10x1_S100000x10x256_2_0_n_n_0_2_1256 M
      (broadcastInDim S100000x10x1 ![0, 1] bcast_S100000x10_S100000x10x1_0_1 (wrapBonds idx)))
    (constant S_ .f32 0x00000000#32) reducesTo_S100000x10x256_S100000x256_d1 h_S_

/-- One round from a neighbour sum already formed: relu(bondInput + nei · W_hᵀ). -/
def roundOf (binp : FVec Ideal S100000x256 .f32) (wh : FVec Ideal S256x256 .f32) (nei : FVec Ideal S100000x256 .f32) :
    FVec Ideal S100000x256 .f32 :=
  reluBonds (addf binp (Host.dotGeneral dot_S100000x256_S256x256_S100000x256_1_0_0_1_n_n none nei
    (transpose S256x256 [1, 0] wh transposes_S256x256_S256x256_1_0)))

/-- One round of message passing on the bond messages `g`. -/
def round (binp : FVec Ideal S100000x256 .f32) (wh : FVec Ideal S256x256 .f32) (tree : FVec Ideal S10000x256 .f32)
    (idx : IVec S100000x10 32) (g : FVec Ideal S100000x256 .f32) : FVec Ideal S100000x256 .f32 :=
  roundOf binp wh (neighbourSumBonds (table tree g) idx)

/-- The bond messages after the three rounds. -/
def bondMessages (fb : FVec Ideal S100000x40 .f32) (wi : FVec Ideal S256x40 .f32) (wh : FVec Ideal S256x256 .f32)
    (tree : FVec Ideal S10000x256 .f32) (idx : IVec S100000x10 32) : FVec Ideal S100000x256 .f32 :=
  round (bondInput fb wi) wh tree idx (round (bondInput fb wi) wh tree idx (round (bondInput fb wi) wh tree idx
    (reluBonds (bondInput fb wi))))

/-- Pair indices with the negative ones counted from the end of the 100000 bond rows. -/
def wrapPairs (p : IVec S10000x2 32) : IVec S10000x2 32 :=
  select (cmpi .slt p (broadcastInDim S10000x2 ![] bcast_S_S10000x2 (constantI S_ 32 0#32)))
    (addi p (broadcastInDim S10000x2 ![] bcast_S_S10000x2 (constantI S_ 32 100000#32))) p

/-- The two bond messages a pair names, gathered from the bond messages themselves. -/
def pairRows (g : FVec Ideal S100000x256 .f32) (p : IVec S10000x2 32) : FVec Ideal S10000x2x256 .f32 :=
  Host.gather gather_S100000x256_S10000x2x1_S10000x2x256_2_0_n_n_0_2_1256 g
    (broadcastInDim S10000x2x1 ![0, 1] bcast_S10000x2_S10000x2x1_0_1 (wrapPairs p))

/-- The mean of the two gathered rows. -/
def pairMeanOf (rows : FVec Ideal S10000x2x256 .f32) : FVec Ideal S10000x256 .f32 :=
  Host.divf (Host.reduceAdd rows (constant S_ .f32 0x00000000#32) reducesTo_S10000x2x256_S10000x256_d1 h_S_)
    (broadcastInDim S10000x256 ![] bcast_S_S10000x256 (constant S_ .f32 0x40000000#32))

/-- An atom's neighbour indices, wrapped like a bond's. -/
def wrapAtoms (idx : IVec S50000x10 32) : IVec S50000x10 32 :=
  select (cmpi .slt idx (broadcastInDim S50000x10 ![] bcast_S_S50000x10 (constantI S_ 32 0#32)))
    (addi idx (broadcastInDim S50000x10 ![] bcast_S_S50000x10 (constantI S_ 32 110000#32))) idx

/-- The sum over an atom's ten neighbours of the table rows they name. -/
def neighbourSumAtoms (M : FVec Ideal S110000x256 .f32) (idx : IVec S50000x10 32) : FVec Ideal S50000x256 .f32 :=
  Host.reduceAdd (Host.gather gather_S110000x256_S50000x10x1_S50000x10x256_2_0_n_n_0_2_1256 M
      (broadcastInDim S50000x10x1 ![0, 1] bcast_S50000x10_S50000x10x1_0_1 (wrapAtoms idx)))
    (constant S_ .f32 0x00000000#32) reducesTo_S50000x10x256_S50000x256_d1 h_S_

/-- relu([fatoms | nei] · W_oᵀ + b_o) : the atom hidden states. -/
def atomHidden (fa : FVec Ideal S50000x35 .f32) (nei : FVec Ideal S50000x256 .f32) (wo : FVec Ideal S256x291 .f32)
    (b : FVec Ideal S256 .f32) : FVec Ideal S50000x256 .f32 :=
  maximumf (addf (Host.dotGeneral dot_S50000x291_S291x256_S50000x256_1_0_0_1_n_n none
        (concatenate S50000x291 1 [⟨S50000x35, fa⟩, ⟨S50000x256, nei⟩] concatenates_S50000x35_S50000x256_S50000x291_d1)
        (transpose S291x256 [1, 0] wo transposes_S256x291_S291x256_1_0))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The mean of the 25 atom hidden states of each molecule. -/
def molMean (h : FVec Ideal S50000x256 .f32) : FVec Ideal S2000x256 .f32 :=
  Host.divf (Host.reduceAdd (shapeCast _ h shapeCasts_S50000x256_S2000x25x256) (constant S_ .f32 0x00000000#32)
      reducesTo_S2000x25x256_S2000x256_d1 h_S_)
    (broadcastInDim S2000x256 ![] bcast_S_S2000x256 (constant S_ .f32 0x41C80000#32))

end Ref

/-! ## The stages the kernel's host code spells differently -/
section Ker
open Cert.KernelIdeal Cert.KernelIdeal.Facts₀

/-- One neighbour column's contribution: the table rows named by column `col` (wrapped, then clamped by the gather). -/
def pickBonds (M : FVec Ideal S110000x256 .f32) (col : IVec S100000x1 32) : FVec Ideal S100000x256 .f32 :=
  Host.gather gather_S110000x256_S100000x1_S100000x256_1_0_n_n_0_1_1256 M
    (broadcastInDim S100000x1 ![0] bcast_S100000_S100000x1_0
      (select (cmpi .slt (shapeCast S100000 col shapeCasts_S100000x1_S100000) (broadcastInDim S100000 ![] bcast_S_S100000 (constantI S_ 32 0#32)))
        (addi (shapeCast S100000 col shapeCasts_S100000x1_S100000) (broadcastInDim S100000 ![] bcast_S_S100000 (constantI S_ 32 110000#32)))
        (shapeCast S100000 col shapeCasts_S100000x1_S100000)))

/-- The neighbour sum as the kernel's host code forms it: zero, then the ten columns' rows added in order. -/
def chainBonds (M : FVec Ideal S110000x256 .f32) (idx : IVec S100000x10 32) : FVec Ideal S100000x256 .f32 :=
  addf (addf (addf (addf (addf (addf (addf (addf (addf (addf
    (broadcastInDim S100000x256 ![] bcast_S_S100000x256 (constant S_ .f32 0x00000000#32))
    (pickBonds M (extractStridedSlice S100000x1 ![0, 0] idx slices_S100000x10_S100000x1_0_0)))
    (pickBonds M (extractStridedSlice S100000x1 ![0, 1] idx slices_S100000x10_S100000x1_0_1)))
    (pickBonds M (extractStridedSlice S100000x1 ![0, 2] idx slices_S100000x10_S100000x1_0_2)))
    (pickBonds M (extractStridedSlice S100000x1 ![0, 3] idx slices_S100000x10_S100000x1_0_3)))
    (pickBonds M (extractStridedSlice S100000x1 ![0, 4] idx slices_S100000x10_S100000x1_0_4)))
    (pickBonds M (extractStridedSlice S100000x1 ![0, 5] idx slices_S100000x10_S100000x1_0_5)))
    (pickBonds M (extractStridedSlice S100000x1 ![0, 6] idx slices_S100000x10_S100000x1_0_6)))
    (pickBonds M (extractStridedSlice S100000x1 ![0, 7] idx slices_S100000x10_S100000x1_0_7)))
    (pickBonds M (extractStridedSlice S100000x1 ![0, 8] idx slices_S100000x10_S100000x1_0_8)))
    (pickBonds M (extractStridedSlice S100000x1 ![0, 9] idx slices_S100000x10_S100000x1_0_9))

/-- One neighbour column's contribution for the atoms. -/
def pickAtoms (M : FVec Ideal S110000x256 .f32) (col : IVec S50000x1 32) : FVec Ideal S50000x256 .f32 :=
  Host.gather gather_S110000x256_S50000x1_S50000x256_1_0_n_n_0_1_1256 M
    (broadcastInDim S50000x1 ![0] bcast_S50000_S50000x1_0
      (select (cmpi .slt (shapeCast S50000 col shapeCasts_S50000x1_S50000) (broadcastInDim S50000 ![] bcast_S_S50000 (constantI S_ 32 0#32)))
        (addi (shapeCast S50000 col shapeCasts_S50000x1_S50000) (broadcastInDim S50000 ![] bcast_S_S50000 (constantI S_ 32 110000#32)))
        (shapeCast S50000 col shapeCasts_S50000x1_S50000)))

/-- The atoms' neighbour sum as the kernel's host code forms it. -/
def chainAtoms (M : FVec Ideal S110000x256 .f32) (idx : IVec S50000x10 32) : FVec Ideal S50000x256 .f32 :=
  addf (addf (addf (addf (addf (addf (addf (addf (addf (addf
    (broadcastInDim S50000x256 ![] bcast_S_S50000x256 (constant S_ .f32 0x00000000#32))
    (pickAtoms M (extractStridedSlice S50000x1 ![0, 0] idx slices_S50000x10_S50000x1_0_0)))
    (pickAtoms M (extractStridedSlice S50000x1 ![0, 1] idx slices_S50000x10_S50000x1_0_1)))
    (pickAtoms M (extractStridedSlice S50000x1 ![0, 2] idx slices_S50000x10_S50000x1_0_2)))
    (pickAtoms M (extractStridedSlice S50000x1 ![0, 3] idx slices_S50000x10_S50000x1_0_3)))
    (pickAtoms M (extractStridedSlice S50000x1 ![0, 4] idx slices_S50000x10_S50000x1_0_4)))
    (pickAtoms M (extractStridedSlice S50000x1 ![0, 5] idx slices_S50000x10_S50000x1_0_5)))
    (pickAtoms M (extractStridedSlice S50000x1 ![0, 6] idx slices_S50000x10_S50000x1_0_6)))
    (pickAtoms M (extractStridedSlice S50000x1 ![0, 7] idx slices_S50000x10_S50000x1_0_7)))
    (pickAtoms M (extractStridedSlice S50000x1 ![0, 8] idx slices_S50000x10_S50000x1_0_8)))
    (pickAtoms M (extractStridedSlice S50000x1 ![0, 9] idx slices_S50000x10_S50000x1_0_9))

/-- The two rows a pair names, gathered through the whole table: the pair index shifted past the 10000 tree rows,
    a negative shifted index counted from the table's end. -/
def pairRowsShifted (M : FVec Ideal S110000x256 .f32) (p : IVec S10000x2 32) : FVec Ideal S10000x2x256 .f32 :=
  Host.gather gather_S110000x256_S10000x2x1_S10000x2x256_2_0_n_n_0_2_1256 M
    (broadcastInDim S10000x2x1 ![0, 1] bcast_S10000x2_S10000x2x1_0_1
      (select (cmpi .slt (addi p (broadcastInDim S10000x2 ![] bcast_S_S10000x2 (constantI S_ 32 10000#32)))
          (broadcastInDim S10000x2 ![] bcast_S_S10000x2 (constantI S_ 32 0#32)))
        (addi (addi p (broadcastInDim S10000x2 ![] bcast_S_S10000x2 (constantI S_ 32 10000#32)))
          (broadcastInDim S10000x2 ![] bcast_S_S10000x2 (constantI S_ 32 110000#32)))
        (addi p (broadcastInDim S10000x2 ![] bcast_S_S10000x2 (constantI S_ 32 10000#32)))))

end Ker

end Cert.Passing

end
-- ==== Proof.GatherRows.lean ====
/-
  The neighbour sum, two spellings of one function.  Reading a row gather at an index gives the table row at the
  wrapped and clamped neighbour index; the ten-column chain of additions and the sum over the neighbour axis then
  add the same ten extended reals, and addition of extended reals is commutative and associative.
-/
import proofs.«431449_j16389595201591_3_alg».proof.Proof.Passing
import Idealize.ShloMosaic.Lib.ValueIdx
import Idealize.ShloMosaic.Lib.Pipeline.Value
import Idealize.ShloMosaic.PureOps.Ideal.Laws

noncomputable section

open Idealize.ShloMosaic

namespace Cert.Passing

namespace Gather

section Readings

open Idealize.ShloMosaic.ValueIdx
open scoped BigOperators

/-! ## A row gather read at an index

The operand is a table of `N` rows of `C` entries; axis 0 is collapsed and is the one axis the start index names, axis 1
is carried whole.  The element read is the table's entry in the row the start index names, read signed and clamped into
`[0, N - 1]`, at the result's last coordinate. -/

/-- A start index read signed and clamped into the table's rows `[0, N - 1]`. -/
def clampRow {w : Nat} (N : Nat) (hN : 0 < N) (v : BitVec w) : Fin N := ⟨min v.toInt.toNat (N - 1), by omega⟩

section RowGather
variable {α : Type}

/-- The dimension numbers of a row gather whose start indices are one column `[R, 1]` and whose result is `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- That gather at `(r, c)`: the table at the row the start index `idx[r, 0]` names, column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 (clampRow N hN (idx (ix2 r (⟨0, Nat.one_pos⟩ : Fin 1)))) c) := by
  unfold Host.gather
  congr 1
  funext a
  refine Fin.ext ?_
  match a with
  | ⟨0, _⟩ =>
    show (rowDims N R C wf).start (ix2 r c) idx (0 : Fin 2) + (rowDims N R C wf).batchCoord (ix2 r c) (0 : Fin 2)
        + (rowDims N R C wf).offCoord (ix2 r c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  | ⟨1, _⟩ =>
    show (rowDims N R C wf).start (ix2 r c) idx (1 : Fin 2) + (rowDims N R C wf).batchCoord (ix2 r c) (1 : Fin 2)
        + (rowDims N R C wf).offCoord (ix2 r c) (1 : Fin 2) = c.val
    rw [GatherDims.batchCoord_eq_zero _ _ _ List.not_mem_nil]
    have hs : (rowDims N R C wf).start (ix2 r c) idx (1 : Fin 2) = 0 := by
      unfold GatherDims.start
      rw [dif_neg (show (1 : Fin 2) ∉ (rowDims N R C wf).startIndexMap from
        fun hm => Nat.one_ne_zero (congrArg Fin.val (List.mem_singleton.mp hm)))]
    rw [hs]
    simp only [Nat.add_zero, Nat.zero_add]
    unfold GatherDims.offCoord
    rw [dif_pos (show (1 : Fin 2) ∈ (rowDims N R C wf).sKept from
      (GatherDims.mem_sKept _ _).mpr ⟨fun hm => Nat.one_ne_zero (congrArg Fin.val (List.mem_singleton.mp hm)), List.not_mem_nil⟩)]
    rfl

/-- The dimension numbers of a row gather whose start indices are `[R, K, 1]` and whose result is `[R, K, C]`. -/
abbrev nbrDims (N R K C : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- That gather at `(r, k, c)`: the table at the row the start index `idx[r, k, 0]` names, column `c`. -/
theorem gather_nbr_apply {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (nbrDims N R K C wf) x idx (ix3 r k c)
      = x (ix2 (clampRow N hN (idx (ix3 r k (⟨0, Nat.one_pos⟩ : Fin 1)))) c) := by
  unfold Host.gather
  congr 1
  funext a
  refine Fin.ext ?_
  match a with
  | ⟨0, _⟩ =>
    show (nbrDims N R K C wf).start (ix3 r k c) idx (0 : Fin 2) + (nbrDims N R K C wf).batchCoord (ix3 r k c) (0 : Fin 2)
        + (nbrDims N R K C wf).offCoord (ix3 r k c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (nbrDims N R K C wf).startIndexMap from List.mem_singleton.mpr rfl)]
    have hsi : (nbrDims N R K C wf).siIdx (ix3 r k c) ⟨List.idxOf (0 : Fin 2) (nbrDims N R K C wf).startIndexMap,
        List.idxOf_lt_length_iff.2 (List.mem_singleton.mpr rfl)⟩ = ix3 r k (⟨0, Nat.one_pos⟩ : Fin 1) := by
      funext b; refine Fin.ext ?_
      match b with
      | ⟨0, _⟩ => rfl
      | ⟨1, _⟩ => rfl
      | ⟨2, _⟩ => rfl
    rw [hsi]
    rfl
  | ⟨1, _⟩ =>
    show (nbrDims N R K C wf).start (ix3 r k c) idx (1 : Fin 2) + (nbrDims N R K C wf).batchCoord (ix3 r k c) (1 : Fin 2)
        + (nbrDims N R K C wf).offCoord (ix3 r k c) (1 : Fin 2) = c.val
    rw [GatherDims.batchCoord_eq_zero _ _ _ List.not_mem_nil]
    have hs : (nbrDims N R K C wf).start (ix3 r k c) idx (1 : Fin 2) = 0 := by
      unfold GatherDims.start
      rw [dif_neg (show (1 : Fin 2) ∉ (nbrDims N R K C wf).startIndexMap from
        fun hm => Nat.one_ne_zero (congrArg Fin.val (List.mem_singleton.mp hm)))]
    rw [hs]
    simp only [Nat.add_zero, Nat.zero_add]
    unfold GatherDims.offCoord
    rw [dif_pos (show (1 : Fin 2) ∈ (nbrDims N R K C wf).sKept from
      (GatherDims.mem_sKept _ _).mpr ⟨fun hm => Nat.one_ne_zero (congrArg Fin.val (List.mem_singleton.mp hm)), List.not_mem_nil⟩)]
    rfl

end RowGather

/-! ## Ten terms added one after the other are their sum -/

/-- A start value plus the sum of ten terms is the start value with the ten terms added in order. -/
theorem add_sum_fin_ten {M : Type*} [AddCommMonoid M] (z : M) (f : Fin 10 → M) :
    z + ∑ k : Fin 10, f k = z + f 0 + f 1 + f 2 + f 3 + f 4 + f 5 + f 6 + f 7 + f 8 + f 9 := by
  rw [Fin.sum_univ_castSucc, Fin.sum_univ_castSucc, Fin.sum_univ_eight]
  simp only [← add_assoc]
  rfl

/-! ## The wrapped neighbour index and the table entry it names -/

/-- A neighbour index, a negative one counted from the end of the table's 110000 rows. -/
def wrapWord (v : BitVec 32) : BitVec 32 :=
  Scalar.select (IntOp.cmpi .slt v 0#32) (IntOp.addi v 110000#32) v

/-- The table's entry in column `h` of the row the neighbour index `v` names: `v` wrapped, then clamped into the rows. -/
def nbrTerm (M : FVec Ideal ⟨2, ![110000, 256]⟩ .f32) (v : BitVec 32) (h : Fin 256) : EReal :=
  M (ix2 (clampRow 110000 (by norm_num) (wrapWord v)) h)

/-- Column `c` of the neighbour lists, sliced out as an `[R, 1]` array, holds at `(r, 0)` the list's entry `(r, c)`. -/
theorem slice_col_apply {R : Nat} (c : Fin 10) (idx : IVec ⟨2, ![R, 10]⟩ 32) (off : Fin 2 → Nat)
    (hoff : off = ![0, c.val]) (hs : (⟨2, ![R, 10]⟩ : Shape).Slices off ⟨2, ![R, 1]⟩) (r : Fin R) :
    extractStridedSlice ⟨2, ![R, 1]⟩ off idx hs (ix2 r (⟨0, Nat.one_pos⟩ : Fin 1)) = idx (ix2 r c) := by
  subst hoff
  exact extractStridedSlice_apply _ idx hs _ (ix2 r c) (fun a => match a with
    | ⟨0, _⟩ => by show r.val = 0 + r.val; omega
    | ⟨1, _⟩ => by show c.val = c.val + 0; omega)

/-- One neighbour column's contribution at `(r, h)`: the column reshaped to `[R]`, wrapped, broadcast back to `[R, 1]`
    and fed to the row gather reads the table entry the column's index at `r` names. -/
theorem pick_apply {R : Nat}
    (wf : GatherDims.WF ⟨2, ![110000, 256]⟩ ⟨2, ![R, 1]⟩ ⟨2, ![R, 256]⟩ [1] [0] [] [0] [] 1 ![1, 256])
    (hb : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1))
    (hc : (⟨2, ![R, 1]⟩ : Shape).ShapeCasts ⟨1, ![R]⟩)
    (M : FVec Ideal ⟨2, ![110000, 256]⟩ .f32) (col : IVec ⟨2, ![R, 1]⟩ 32) (r : Fin R) (h : Fin 256) :
    Host.gather (rowDims 110000 R 256 wf) M
        (broadcastInDim ⟨2, ![R, 1]⟩ ![0] hb
          (select (cmpi .slt (shapeCast ⟨1, ![R]⟩ col hc) (broadcastInDim ⟨1, ![R]⟩ ![] hz (constantI ⟨0, ![]⟩ 32 0#32)))
            (addi (shapeCast ⟨1, ![R]⟩ col hc) (broadcastInDim ⟨1, ![R]⟩ ![] hz (constantI ⟨0, ![]⟩ 32 110000#32)))
            (shapeCast ⟨1, ![R]⟩ col hc))) (ix2 r h)
      = nbrTerm M (col (ix2 r (⟨0, Nat.one_pos⟩ : Fin 1))) h := by
  refine (gather_rows_apply (by norm_num) wf M _ r h).trans ?_
  unfold nbrTerm
  refine congrArg (fun v => M (ix2 (clampRow 110000 (by norm_num) v) h)) ?_
  refine (broadcastInDim_apply _ hb _ (ix2 r (⟨0, Nat.one_pos⟩ : Fin 1)) (ix1 r) (fun a => match a with
    | ⟨0, _⟩ => by
      show r.val = if R = 1 then 0 else r.val
      split
      · have := r.isLt; omega
      · rfl)).trans ?_
  have hsc : shapeCast ⟨1, ![R]⟩ col hc (ix1 r) = col (ix2 r (⟨0, Nat.one_pos⟩ : Fin 1)) :=
    shapeCast_apply col hc (ix1 r) (ix2 r (⟨0, Nat.one_pos⟩ : Fin 1)) (by
      rw [Shape.rowMajor_val_two, Shape.rowMajor_val_one]
      show r.val * 1 + 0 = r.val
      omega)
  show Scalar.select (IntOp.cmpi .slt (shapeCast ⟨1, ![R]⟩ col hc (ix1 r)) 0#32)
      (IntOp.addi (shapeCast ⟨1, ![R]⟩ col hc (ix1 r)) 110000#32) (shapeCast ⟨1, ![R]⟩ col hc (ix1 r)) = _
  rw [hsc]
  rfl

/-- The reference's neighbour sum at `(r, h)`: the initial value plus the sum over the ten neighbours of the table
    entries their wrapped indices name. -/
theorem nbrSum_apply {R : Nat}
    (wf : GatherDims.WF ⟨2, ![110000, 256]⟩ ⟨3, ![R, 10, 1]⟩ ⟨3, ![R, 10, 256]⟩ [2] [0] [] [0] [] 2 ![1, 256])
    (hb : (⟨2, ![R, 10]⟩ : Shape).BroadcastsInDim ⟨3, ![R, 10, 1]⟩ (![0, 1] : Fin 2 → Fin 3))
    (hz : (⟨0, ![]⟩ : Shape).BroadcastsInDim ⟨2, ![R, 10]⟩ (![] : Fin 0 → Fin 2))
    (hr' : (⟨3, ![R, 10, 256]⟩ : Shape).ReducesTo [1] ⟨2, ![R, 256]⟩)
    (hr : (⟨3, ![R, 10, 256]⟩ : Shape).Reduces [1] ⟨2, ![R, 256]⟩)
    (hu : 0 < (⟨0, ![]⟩ : Shape).numel)
    (M : FVec Ideal ⟨2, ![110000, 256]⟩ .f32) (idx : IVec ⟨2, ![R, 10]⟩ 32) (r : Fin R) (h : Fin 256) :
    Host.reduceAdd (Host.gather (nbrDims 110000 R 10 256 wf) M
        (broadcastInDim ⟨3, ![R, 10, 1]⟩ ![0, 1] hb
          (select (cmpi .slt idx (broadcastInDim ⟨2, ![R, 10]⟩ ![] hz (constantI ⟨0, ![]⟩ 32 0#32)))
            (addi idx (broadcastInDim ⟨2, ![R, 10]⟩ ![] hz (constantI ⟨0, ![]⟩ 32 110000#32))) idx)))
      (constant (F := Ideal) ⟨0, ![]⟩ .f32 0x00000000#32) hr' hu (ix2 r h)
      = Ideal.ofBits .f32 0x00000000#32 + ∑ k : Fin 10, nbrTerm M (idx (ix2 r k)) h := by
  show Ideal.hostReduceAdd hr' _ _ (ix2 r h) = _
  refine (Ideal.hostReduceAdd_single hr' hr _ _ (ix2 r h)).trans ?_
  refine congrArg₂ (· + ·) rfl (Finset.sum_congr rfl fun (k : Fin 10) _ => ?_)
  have hl : hr.lift (ix2 r h) k = ix3 r k h := by
    funext a; refine Fin.ext ?_
    match a with
    | ⟨0, _⟩ => rfl
    | ⟨1, _⟩ => rfl
    | ⟨2, _⟩ => rfl
  rw [hl]
  refine (gather_nbr_apply (by norm_num) wf M _ r k h).trans ?_
  unfold nbrTerm
  refine congrArg (fun v => M (ix2 (clampRow 110000 (by norm_num) v) h)) ?_
  refine (broadcastInDim_apply _ hb _ (ix3 r k (⟨0, Nat.one_pos⟩ : Fin 1)) (ix2 r k) (fun a => match a with
    | ⟨0, _⟩ => by
      show r.val = if R = 1 then 0 else r.val
      split
      · have := r.isLt; omega
      · rfl
    | ⟨1, _⟩ => by
      show k.val = if (10 : Nat) = 1 then 0 else k.val
      split
      · omega
      · rfl)).trans ?_
  rfl

/-! ## The two neighbour sums -/

/-- The bonds' chain of ten picks at `(r, h)`: zero plus the sum of the ten named table entries. -/
theorem chainBonds_apply (M : FVec Ideal ⟨2, ![110000, 256]⟩ .f32) (idx : IVec ⟨2, ![100000, 10]⟩ 32)
    (r : Fin 100000) (h : Fin 256) :
    chainBonds M idx (ix2 r h) = Ideal.ofBits .f32 0x00000000#32 + ∑ k : Fin 10, nbrTerm M (idx (ix2 r k)) h := by
  have e : ∀ (c : Fin 10) (off : Fin 2 → Nat) (hoff : off = ![0, c.val])
      (hs : (⟨2, ![100000, 10]⟩ : Shape).Slices off ⟨2, ![100000, 1]⟩),
      pickBonds M (extractStridedSlice ⟨2, ![100000, 1]⟩ off idx hs) (ix2 r h) = nbrTerm M (idx (ix2 r c)) h := by
    intro c off hoff hs
    unfold pickBonds
    refine (pick_apply (R := 100000) _ _ _ _ M _ r h).trans ?_
    rw [slice_col_apply c idx off hoff hs r]
  rw [add_sum_fin_ten]
  unfold chainBonds
  simp only [addf_apply]
  rw [e 0 ![0, 0] rfl, e 1 ![0, 1] rfl, e 2 ![0, 2] rfl, e 3 ![0, 3] rfl, e 4 ![0, 4] rfl, e 5 ![0, 5] rfl,
    e 6 ![0, 6] rfl, e 7 ![0, 7] rfl, e 8 ![0, 8] rfl, e 9 ![0, 9] rfl]
  rfl

theorem chainBonds_eq_aux (M : FVec Ideal ⟨2, ![110000, 256]⟩ .f32) (idx : IVec ⟨2, ![100000, 10]⟩ 32) :
    chainBonds M idx = neighbourSumBonds M idx := by
  funext j
  obtain ⟨r, h, rfl⟩ : ∃ (r : Fin 100000) (h : Fin 256), j = ix2 r h := ⟨j 0, j 1, eq_ix2 j⟩
  refine (chainBonds_apply M idx r h).trans (Eq.symm ?_)
  unfold neighbourSumBonds wrapBonds
  exact nbrSum_apply (R := 100000) _ _ _ _ (by decide) _ M idx r h

/-- The atoms' chain of ten picks at `(r, h)`: zero plus the sum of the ten named table entries. -/
theorem chainAtoms_apply (M : FVec Ideal ⟨2, ![110000, 256]⟩ .f32) (idx : IVec ⟨2, ![50000, 10]⟩ 32)
    (r : Fin 50000) (h : Fin 256) :
    chainAtoms M idx (ix2 r h) = Ideal.ofBits .f32 0x00000000#32 + ∑ k : Fin 10, nbrTerm M (idx (ix2 r k)) h := by
  have e : ∀ (c : Fin 10) (off : Fin 2 → Nat) (hoff : off = ![0, c.val])
      (hs : (⟨2, ![50000, 10]⟩ : Shape).Slices off ⟨2, ![50000, 1]⟩),
      pickAtoms M (extractStridedSlice ⟨2, ![50000, 1]⟩ off idx hs) (ix2 r h) = nbrTerm M (idx (ix2 r c)) h := by
    intro c off hoff hs
    unfold pickAtoms
    refine (pick_apply (R := 50000) _ _ _ _ M _ r h).trans ?_
    rw [slice_col_apply c idx off hoff hs r]
  rw [add_sum_fin_ten]
  unfold chainAtoms
  simp only [addf_apply]
  rw [e 0 ![0, 0] rfl, e 1 ![0, 1] rfl, e 2 ![0, 2] rfl, e 3 ![0, 3] rfl, e 4 ![0, 4] rfl, e 5 ![0, 5] rfl,
    e 6 ![0, 6] rfl, e 7 ![0, 7] rfl, e 8 ![0, 8] rfl, e 9 ![0, 9] rfl]
  rfl

theorem chainAtoms_eq_aux (M : FVec Ideal ⟨2, ![110000, 256]⟩ .f32) (idx : IVec ⟨2, ![50000, 10]⟩ 32) :
    chainAtoms M idx = neighbourSumAtoms M idx := by
  funext j
  obtain ⟨r, h, rfl⟩ : ∃ (r : Fin 50000) (h : Fin 256), j = ix2 r h := ⟨j 0, j 1, eq_ix2 j⟩
  refine (chainAtoms_apply M idx r h).trans (Eq.symm ?_)
  unfold neighbourSumAtoms wrapAtoms
  exact nbrSum_apply (R := 50000) _ _ _ _ (by decide) _ M idx r h

end Readings

end Gather

/-- The kernel's ten row gathers added in order are the reference's gather over all neighbours summed over the neighbour axis. -/
theorem chainBonds_eq (M : FVec Ideal Cert.KernelIdeal.S110000x256 .f32) (idx : IVec Cert.KernelIdeal.S100000x10 32) :
    chainBonds M idx = neighbourSumBonds M idx := by
  exact Gather.chainBonds_eq_aux M idx

/-- The same for the atoms' neighbour lists. -/
theorem chainAtoms_eq (M : FVec Ideal Cert.KernelIdeal.S110000x256 .f32) (idx : IVec Cert.KernelIdeal.S50000x10 32) :
    chainAtoms M idx = neighbourSumAtoms M idx := by
  exact Gather.chainAtoms_eq_aux M idx

end Cert.Passing

end
-- ==== Proof.PairRows.lean ====
/-
  The pair gather.  For a pair index p with 0 ≤ p < 100000 the shifted index p + 10000 is non-negative and
  below 110000, so it is neither wrapped nor clamped and names table row 10000 + p, which is bond message p;
  the reference reads bond message p directly.
-/
import proofs.«431449_j16389595201591_3_alg».proof.Proof.Passing
import Idealize.ShloMosaic.Lib.ValueIdx
import Idealize.ShloMosaic.Lib.Pipeline.Value

noncomputable section

open Idealize.ShloMosaic
open Idealize.ShloMosaic.ValueIdx

namespace Cert.Passing

namespace Pairs

/-! ## A gather of whole rows, read at an index

An operand [N, C], start indices [R, K, 1], result [R, K, C]: axis 0 of the operand is collapsed and indexed by the
start index, axis 1 is an offset axis carried by the result's last axis.  Result element (a, k, h) is the operand's
element (r, h), where r is the start index idx[a, k, 0] read signed and clamped into [0, N − 1]. -/

section Rows
variable {α : Type}

/-- The dimension numbers of a gather of whole rows. -/
abbrev rowDims (N R K C : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- The row gather at (a, k, h): row idx[a, k, 0] (signed, clamped into [0, N − 1]), column h. -/
theorem gather_rows_apply {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (a : Fin R) (k : Fin K) (h : Fin C) :
    Host.gather (rowDims N R K C wf) x idx (ix3 a k h)
      = x (ix2 ⟨min (idx (ix3 a k ⟨0, Nat.one_pos⟩)).toInt.toNat (N - 1), by omega⟩ h) := by
  unfold Host.gather
  congr 1
  funext b
  refine Fin.ext ?_
  match b with
  | ⟨0, _⟩ =>
    show (rowDims N R K C wf).start (ix3 a k h) idx 0 + (rowDims N R K C wf).batchCoord (ix3 a k h) 0
      + (rowDims N R K C wf).offCoord (ix3 a k h) 0 = _
    rw [GatherDims.batchCoord_eq_zero _ _ _ List.not_mem_nil,
      GatherDims.offCoord_eq_zero _ _ _ (fun h' => ((GatherDims.mem_sKept _ _).mp h').1 (List.mem_singleton.mpr rfl))]
    simp only [Nat.add_zero]
    unfold GatherDims.start
    rw [dif_pos (show (0 : Fin 2) ∈ (rowDims N R K C wf).startIndexMap from List.mem_singleton.mpr rfl)]
    have hsi : (rowDims N R K C wf).siIdx (ix3 a k h) ⟨List.idxOf (0 : Fin 2) (rowDims N R K C wf).startIndexMap,
        List.idxOf_lt_length_iff.2 (List.mem_singleton.mpr rfl)⟩ = ix3 a k ⟨0, Nat.one_pos⟩ := by
      funext c; refine Fin.ext ?_
      match c with
      | ⟨0, _⟩ => rfl
      | ⟨1, _⟩ => rfl
      | ⟨2, _⟩ => rfl
    rw [hsi]
    rfl
  | ⟨1, _⟩ =>
    show (rowDims N R K C wf).start (ix3 a k h) idx 1 + (rowDims N R K C wf).batchCoord (ix3 a k h) 1
      + (rowDims N R K C wf).offCoord (ix3 a k h) 1 = h.val
    have hst : (rowDims N R K C wf).start (ix3 a k h) idx 1 = 0 := by
      unfold GatherDims.start
      exact dif_neg (fun h' => absurd (List.mem_singleton.mp h') (show (1 : Fin 2) ≠ 0 by decide))
    have hoff : (rowDims N R K C wf).offCoord (ix3 a k h) 1 = h.val := by
      unfold GatherDims.offCoord
      rw [dif_pos ((GatherDims.mem_sKept _ _).mpr
        ⟨fun h' => absurd (List.mem_singleton.mp h') (show (1 : Fin 2) ≠ 0 by decide), List.not_mem_nil⟩)]
      rfl
    rw [GatherDims.batchCoord_eq_zero _ _ _ List.not_mem_nil, hst, hoff]
    simp only [Nat.add_zero, Nat.zero_add]

end Rows

/-! ## The words -/

/-- Adding 10000 to a 32-bit word whose signed value is in 0 … 99999 does not wrap. -/
theorem toInt_add_shift (x : BitVec 32) (h0 : 0 ≤ x.toInt) (h1 : x.toInt < 100000) :
    (x + 10000#32).toInt = x.toInt + 10000 := by
  rw [BitVec.toInt_add]
  have e : (10000#32 : BitVec 32).toInt = 10000 := by decide
  rw [e]
  exact Int.bmod_eq_of_le (by omega) (by omega)

/-- The shifted index is not negative, so the wrap's select keeps it. -/
theorem pick_shifted (x : BitVec 32) (h0 : 0 ≤ x.toInt) (h1 : x.toInt < 100000) :
    Scalar.select (IntOp.cmpi .slt (IntOp.addi x 10000#32) 0#32)
      (IntOp.addi (IntOp.addi x 10000#32) 110000#32) (IntOp.addi x 10000#32) = x + 10000#32 := by
  have hs : (x + 10000#32).slt 0#32 = false := by
    rw [BitVec.slt_eq_decide, toInt_add_shift x h0 h1]
    have e : (0#32 : BitVec 32).toInt = 0 := by decide
    rw [e]
    exact decide_eq_false (by omega)
  show Scalar.select (BitVec.ofBool ((x + 10000#32).slt 0#32)) _ _ = _
  rw [hs]
  exact select_zero _ _

/-- A pair index that is not negative is kept by the wrap's select. -/
theorem pick_plain (x : BitVec 32) (h0 : 0 ≤ x.toInt) :
    Scalar.select (IntOp.cmpi .slt x 0#32) (IntOp.addi x 100000#32) x = x := by
  have hs : x.slt 0#32 = false := by
    rw [BitVec.slt_eq_decide]
    have e : (0#32 : BitVec 32).toInt = 0 := by decide
    rw [e]
    exact decide_eq_false (by omega)
  show Scalar.select (BitVec.ofBool (x.slt 0#32)) _ _ = _
  rw [hs]
  exact select_zero _ _

/-! ## The table past the tree rows -/

/-- Table row r' + 10000 is bond row r'. -/
theorem table_bond_row (tree : FVec Ideal Cert.KernelIdeal.S10000x256 .f32) (g : FVec Ideal Cert.KernelIdeal.S100000x256 .f32)
    (r : Fin 110000) (r' : Fin 100000) (h : Fin 256) (hr : r'.val + 10000 = r.val) :
    table tree g (ix2 r h) = g (ix2 r' h) := by
  unfold table
  refine concatenate_pair_apply_right (t := Cert.KernelIdeal.S110000x256) (s₁ := Cert.KernelIdeal.S10000x256)
    (s₂ := Cert.KernelIdeal.S100000x256) (0 : Fin 2) tree g _ (ix2 r h) rfl rfl (ix2 r' h) (fun b hb => ?_) hr
  match b with
  | ⟨0, _⟩ => exact absurd rfl hb
  | ⟨1, _⟩ => rfl

end Pairs

open Pairs in
/-- In-range pair indices read the same rows through the shifted table as through the bond messages. -/
theorem pairRowsShifted_eq (tree : FVec Ideal Cert.KernelIdeal.S10000x256 .f32) (g : FVec Ideal Cert.KernelIdeal.S100000x256 .f32)
    (p : IVec Cert.KernelIdeal.S10000x2 32) (hp : ∀ i, 0 ≤ (p i).toInt ∧ (p i).toInt < 100000) :
    pairRowsShifted (table tree g) p = pairRows g p := by
  funext j
  obtain ⟨a, k, h, rfl⟩ : ∃ (a : Fin 10000) (k : Fin 2) (h : Fin 256), j = ix3 a k h := ⟨j 0, j 1, j 2, eq_ix3 j⟩
  -- the index array [10000, 2, 1] read at (a, k, 0) is the pair array read at (a, k)
  have hk : ∀ b : Fin 2, ((ix2 a k : Cert.KernelIdeal.S10000x2.Idx) b).val
      = if Cert.KernelIdeal.S10000x2.size b = 1 then 0
        else ((ix3 a k (⟨0, Nat.one_pos⟩ : Fin 1) : Cert.KernelIdeal.S10000x2x1.Idx) ((![0, 1] : Fin 2 → Fin 3) b)).val := fun b => by
    match b with
    | ⟨0, _⟩ => rfl
    | ⟨1, _⟩ => rfl
  have eB : ∀ (hb : Cert.KernelIdeal.S10000x2.BroadcastsInDim Cert.KernelIdeal.S10000x2x1 ![0, 1])
      (X : IVec Cert.KernelIdeal.S10000x2 32),
      broadcastInDim Cert.KernelIdeal.S10000x2x1 ![0, 1] hb X (ix3 a k ⟨0, Nat.one_pos⟩) = X (ix2 a k) :=
    fun hb X => broadcastInDim_apply _ hb X _ (ix2 a k) hk
  unfold pairRowsShifted pairRows wrapPairs
  -- both gathers read a whole row: its number is the start index, read signed and clamped
  refine (gather_rows_apply (N := 110000) (R := 10000) (K := 2) (C := 256) (by decide) _ _ _ a k h).trans ?_
  refine Eq.trans ?_ (gather_rows_apply (N := 100000) (R := 10000) (K := 2) (C := 256) (by decide) _ _ _ a k h).symm
  -- a table row past the 10000 tree rows is a bond row
  refine table_bond_row tree g _ _ h ?_
  show min (BitVec.toInt _).toNat (100000 - 1) + 10000 = min (BitVec.toInt _).toNat (110000 - 1)
  rw [eB, eB]
  -- the words: neither index is negative, so neither is wrapped, and the shift by 10000 does not overflow
  show min (BitVec.toInt (Scalar.select (IntOp.cmpi .slt (p (ix2 a k)) 0#32) (IntOp.addi (p (ix2 a k)) 100000#32)
        (p (ix2 a k)))).toNat (100000 - 1) + 10000
    = min (BitVec.toInt (Scalar.select (IntOp.cmpi .slt (IntOp.addi (p (ix2 a k)) 10000#32) 0#32)
        (IntOp.addi (IntOp.addi (p (ix2 a k)) 10000#32) 110000#32) (IntOp.addi (p (ix2 a k)) 10000#32))).toNat (110000 - 1)
  rw [pick_plain _ (hp _).1, pick_shifted _ (hp _).1 (hp _).2, toInt_add_shift _ (hp _).1 (hp _).2]
  have h0 := (hp (ix2 a k)).1
  have h1 := (hp (ix2 a k)).2
  omega

end Cert.Passing

end
-- ==== Proof.RegionBond.lean ====
/-
  The first region: each grid point multiplies its 5000 rows of fbonds by W_iᵀ and stores the product and its relu.
  Row r of the product is the sum over k of fbonds[r, k] · W_iᵀ[k, ·], whichever block r lies in, so the twenty blocks
  tile the whole-array product.
-/
import proofs.«431449_j16389595201591_3_alg».proof.Proof.Passing
import proofs.«431449_j16389595201591_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Passing

open Cert.KernelIdeal Cert.KernelIdeal.Gen
open Idealize.ShloMosaic.ValueIdx
open Idealize.ShloMosaic.Pipeline (Dat)

namespace Bond

/-! ## The two products at an index -/

/-- The block product's left operand index on its row axis is the output's row. -/
theorem blockDot_lhs_0 (i : S5000x256.Idx) (q : dot_S5000x40_S40x256_S5000x256_1_0_0_1_n_n.contr.Idx) :
    (dot_S5000x40_S40x256_S5000x256_1_0_0_1_n_n.lhsIdx i q 0).val = (i 0).val := by
  unfold DotDims.lhsIdx
  rw [dif_neg (show ¬(0 : Fin S5000x40.rank) ∈ dot_S5000x40_S40x256_S5000x256_1_0_0_1_n_n.lhsBatch by decide), dif_pos (show (0 : Fin S5000x40.rank) ∈ dot_S5000x40_S40x256_S5000x256_1_0_0_1_n_n.lhsNonContracting by decide)]
  rfl
/-- On its contracted axis it is the contraction coordinate. -/
theorem blockDot_lhs_1 (i : S5000x256.Idx) (q : dot_S5000x40_S40x256_S5000x256_1_0_0_1_n_n.contr.Idx) :
    (dot_S5000x40_S40x256_S5000x256_1_0_0_1_n_n.lhsIdx i q 1).val = (q ⟨0, by decide⟩).val :=
  dot_S5000x40_S40x256_S5000x256_1_0_0_1_n_n.lhsIdx_val_of_single rfl i q
/-- The right operand index on its contracted axis is the contraction coordinate. -/
theorem blockDot_rhs_0 (i : S5000x256.Idx) (q : dot_S5000x40_S40x256_S5000x256_1_0_0_1_n_n.contr.Idx) :
    (dot_S5000x40_S40x256_S5000x256_1_0_0_1_n_n.rhsIdx i q 0).val = (q ⟨0, by decide⟩).val :=
  dot_S5000x40_S40x256_S5000x256_1_0_0_1_n_n.rhsIdx_val_of_single rfl i q
/-- On its column axis it is the output's column. -/
theorem blockDot_rhs_1 (i : S5000x256.Idx) (q : dot_S5000x40_S40x256_S5000x256_1_0_0_1_n_n.contr.Idx) :
    (dot_S5000x40_S40x256_S5000x256_1_0_0_1_n_n.rhsIdx i q 1).val = (i 1).val := by
  unfold DotDims.rhsIdx
  rw [dif_neg (show ¬(1 : Fin S40x256.rank) ∈ dot_S5000x40_S40x256_S5000x256_1_0_0_1_n_n.rhsBatch by decide), dif_pos (show (1 : Fin S40x256.rank) ∈ dot_S5000x40_S40x256_S5000x256_1_0_0_1_n_n.rhsNonContracting by decide)]
  rfl

/-- One grid point's product at row p, column q of its block: the sum over k of x0[p, k] · x1[k, q]. -/
theorem blockProduct_apply (x0 : Vec Ideal S5000x40 .f32) (x1 : Vec Ideal S40x256 .f32) (p : Fin 5000) (q : Fin 256) :
    (k0_pay1 (F := Ideal) x0 x1) (ix2 p q) = ∑ k : Fin 40, x0 (ix2 p k) * x1 (ix2 k q) := by
  unfold k0_pay1
  show FloatOps.matmul dot_S5000x40_S40x256_S5000x256_1_0_0_1_n_n none x0 (shapeCast S40x256 x1 shapeCasts_S40x256_S40x256)
      (constant (F := Ideal) S5000x256 .f32 0x00000000#32) (ix2 p q) = _
  rw [shapeCast_self]
  refine (Ideal.matmul_constant_zero_apply dot_S5000x40_S40x256_S5000x256_1_0_0_1_n_n none x0 x1 (ix2 p q)).trans ?_
  rw [← Equiv.sum_comp (contrEquiv1 dot_S5000x40_S40x256_S5000x256_1_0_0_1_n_n 40 rfl rfl).symm]
  refine Finset.sum_congr rfl fun k _ => ?_
  have hk := contrEquiv1_symm_val dot_S5000x40_S40x256_S5000x256_1_0_0_1_n_n 40 rfl rfl k
  have el : dot_S5000x40_S40x256_S5000x256_1_0_0_1_n_n.lhsIdx (ix2 p q) ((contrEquiv1 dot_S5000x40_S40x256_S5000x256_1_0_0_1_n_n 40 rfl rfl).symm k) = ix2 p k := funext fun a => Fin.ext (by
    match a with
    | ⟨0, _⟩ => exact blockDot_lhs_0 _ _
    | ⟨1, _⟩ => exact (blockDot_lhs_1 _ _).trans hk)
  have er : dot_S5000x40_S40x256_S5000x256_1_0_0_1_n_n.rhsIdx (ix2 p q) ((contrEquiv1 dot_S5000x40_S40x256_S5000x256_1_0_0_1_n_n 40 rfl rfl).symm k) = ix2 k q := funext fun a => Fin.ext (by
    match a with
    | ⟨0, _⟩ => exact (blockDot_rhs_0 _ _).trans hk
    | ⟨1, _⟩ => exact blockDot_rhs_1 _ _)
  rw [el, er]

/-- The whole product's left operand index on its row axis is the output's row. -/
theorem wholeDot_lhs_0 (i : S100000x256.Idx) (q : Cert.ReferenceIdeal.dot_S100000x40_S40x256_S100000x256_1_0_0_1_n_n.contr.Idx) :
    (Cert.ReferenceIdeal.dot_S100000x40_S40x256_S100000x256_1_0_0_1_n_n.lhsIdx i q 0).val = (i 0).val := by
  unfold DotDims.lhsIdx
  rw [dif_neg (show ¬(0 : Fin S100000x40.rank) ∈ Cert.ReferenceIdeal.dot_S100000x40_S40x256_S100000x256_1_0_0_1_n_n.lhsBatch by decide), dif_pos (show (0 : Fin S100000x40.rank) ∈ Cert.ReferenceIdeal.dot_S100000x40_S40x256_S100000x256_1_0_0_1_n_n.lhsNonContracting by decide)]
  rfl
/-- On its contracted axis it is the contraction coordinate. -/
theorem wholeDot_lhs_1 (i : S100000x256.Idx) (q : Cert.ReferenceIdeal.dot_S100000x40_S40x256_S100000x256_1_0_0_1_n_n.contr.Idx) :
    (Cert.ReferenceIdeal.dot_S100000x40_S40x256_S100000x256_1_0_0_1_n_n.lhsIdx i q 1).val = (q ⟨0, by decide⟩).val :=
  Cert.ReferenceIdeal.dot_S100000x40_S40x256_S100000x256_1_0_0_1_n_n.lhsIdx_val_of_single rfl i q
/-- The right operand index on its contracted axis is the contraction coordinate. -/
theorem wholeDot_rhs_0 (i : S100000x256.Idx) (q : Cert.ReferenceIdeal.dot_S100000x40_S40x256_S100000x256_1_0_0_1_n_n.contr.Idx) :
    (Cert.ReferenceIdeal.dot_S100000x40_S40x256_S100000x256_1_0_0_1_n_n.rhsIdx i q 0).val = (q ⟨0, by decide⟩).val :=
  Cert.ReferenceIdeal.dot_S100000x40_S40x256_S100000x256_1_0_0_1_n_n.rhsIdx_val_of_single rfl i q
/-- On its column axis it is the output's column. -/
theorem wholeDot_rhs_1 (i : S100000x256.Idx) (q : Cert.ReferenceIdeal.dot_S100000x40_S40x256_S100000x256_1_0_0_1_n_n.contr.Idx) :
    (Cert.ReferenceIdeal.dot_S100000x40_S40x256_S100000x256_1_0_0_1_n_n.rhsIdx i q 1).val = (i 1).val := by
  unfold DotDims.rhsIdx
  rw [dif_neg (show ¬(1 : Fin S40x256.rank) ∈ Cert.ReferenceIdeal.dot_S100000x40_S40x256_S100000x256_1_0_0_1_n_n.rhsBatch by decide), dif_pos (show (1 : Fin S40x256.rank) ∈ Cert.ReferenceIdeal.dot_S100000x40_S40x256_S100000x256_1_0_0_1_n_n.rhsNonContracting by decide)]
  rfl

/-- The whole-array product at row r, column q: the sum over k of A[r, k] · B[k, q]. -/
theorem wholeProduct_apply (A : FVec Ideal S100000x40 .f32) (B : FVec Ideal S40x256 .f32) (r : Fin 100000) (q : Fin 256) :
    @Eq EReal (Host.dotGeneral (F := Ideal) (φ₁ := .f32) (φ₂ := .f32) Cert.ReferenceIdeal.dot_S100000x40_S40x256_S100000x256_1_0_0_1_n_n none A B (ix2 r q))
      (∑ k : Fin 40, A (ix2 r k) * B (ix2 k q)) := by
  simp only [Host.dotGeneral]
  rw [Ideal.dotGeneral_apply, ← Equiv.sum_comp (contrEquiv1 Cert.ReferenceIdeal.dot_S100000x40_S40x256_S100000x256_1_0_0_1_n_n 40 rfl rfl).symm]
  refine Finset.sum_congr rfl fun k _ => ?_
  have hk := contrEquiv1_symm_val Cert.ReferenceIdeal.dot_S100000x40_S40x256_S100000x256_1_0_0_1_n_n 40 rfl rfl k
  have el : Cert.ReferenceIdeal.dot_S100000x40_S40x256_S100000x256_1_0_0_1_n_n.lhsIdx (ix2 r q) ((contrEquiv1 Cert.ReferenceIdeal.dot_S100000x40_S40x256_S100000x256_1_0_0_1_n_n 40 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S100000x40_S40x256_S100000x256_1_0_0_1_n_n.rhsIdx (ix2 r q) ((contrEquiv1 Cert.ReferenceIdeal.dot_S100000x40_S40x256_S100000x256_1_0_0_1_n_n 40 rfl rfl).symm k) = ix2 k q := funext fun a => Fin.ext (by
    match a with
    | ⟨0, _⟩ => exact (wholeDot_rhs_0 _ _).trans hk
    | ⟨1, _⟩ => exact wholeDot_rhs_1 _ _)
  rw [el, er]

/-! ## The grid's blocks -/

theorem bond_hz : (![0, 0] : Fin 2 → Nat) = fun _ => 0 := funext fun a => by fin_cases a <;> rfl

/-- The printed index maps over the twenty points: the fbonds block and both output blocks sit at block row t, column 0;
    the weight block is the whole weight array at every point. -/
theorem bond_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole-array product of the two input arrays as the region finds them. -/
abbrev rawBonds (V : (c : Dev nD) → (b : Ref sig .tc) → Buf (Elt Ideal) ((c : Thread nD τ).loc b)) (c : Dev nD) :
    FVec Ideal S100000x256 .f32 :=
  Host.dotGeneral (F := Ideal) (φ₁ := .f32) (φ₂ := .f32) Cert.ReferenceIdeal.dot_S100000x40_S40x256_S100000x256_1_0_0_1_n_n none
    (V c (Pipeline.arrRef spec0 0) : FVec Ideal S100000x40 .f32) (V c (Pipeline.arrRef spec0 1) : FVec Ideal S40x256 .f32)

/-- Row p, column k of the fbonds block at point t is row 5000 t + p, column k of fbonds. -/
theorem fbondsBlock_apply (V : (c : Dev nD) → (b : Ref sig .tc) → Buf (Elt Ideal) ((c : Thread nD τ).loc b)) (c : Dev nD)
    (t : Fin cfg0.N) (p : Fin 5000) (k : Fin 40) (r : Fin 100000) (hr : r.val = t.val * 5000 + p.val) :
    (iblk0 (F := Ideal) V c 0 t : Vec Ideal S5000x40 .f32) (ix2 p k)
      = (V c (Pipeline.arrRef spec0 0) : FVec Ideal S100000x40 .f32) (ix2 r k) := by
  obtain ⟨e0, e1, -⟩ := bond_index_facts t
  show (V c (Pipeline.arrRef spec0 0) : FVec Ideal S100000x40 .f32) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 40 + 1 * k.val = k.val; rw [e1]; omega

/-- The weight block at every point is the weight array. -/
theorem weightBlock_apply (V : (c : Dev nD) → (b : Ref sig .tc) → Buf (Elt Ideal) ((c : Thread nD τ).loc b)) (c : Dev nD)
    (t : Fin cfg0.N) (k : Fin 40) (q : Fin 256) :
    (iblk0 (F := Ideal) V c 1 t : Vec Ideal S40x256 .f32) (ix2 k q)
      = (V c (Pipeline.arrRef spec0 1) : FVec Ideal S40x256 .f32) (ix2 k q) := by
  obtain ⟨-, -, e0, e1, -⟩ := bond_index_facts t
  show (V c (Pipeline.arrRef spec0 1) : FVec Ideal S40x256 .f32) (((cfg0.win 1).blk t).view.emb (ix2 k q)) = _
  refine congrArg _ (funext fun a => Fin.ext ?_)
  match a with
  | ⟨0, _⟩ => show win0_1.index t (0 : Fin 2) * 40 + 1 * k.val = k.val; rw [e0]; omega
  | ⟨1, _⟩ => show win0_1.index t (1 : Fin 2) * 256 + 1 * q.val = q.val; rw [e1]; omega

/-- Row p, column q of an output block at point t is row 5000 t + p, column q of the output array. -/
theorem rawBlock_emb (t : Fin cfg0.N) (p : Fin 5000) (q : Fin 256) (r : Fin 100000) (hr : r.val = t.val * 5000 + p.val) :
    ((cfg0.win 2).blk t).view.emb (ix2 p q) = (ix2 r q : S100000x256.Idx) := by
  obtain ⟨-, -, -, -, e0, e1, -⟩ := bond_index_facts t
  refine funext fun a => Fin.ext ?_
  match a with
  | ⟨0, _⟩ => show win0_2.index t (0 : Fin 2) * 5000 + 1 * p.val = r.val; rw [e0, hr]; omega
  | ⟨1, _⟩ => show win0_2.index t (1 : Fin 2) * 256 + 1 * q.val = q.val; rw [e1]; omega

theorem reluBlock_emb (t : Fin cfg0.N) (p : Fin 5000) (q : Fin 256) (r : Fin 100000) (hr : r.val = t.val * 5000 + p.val) :
    ((cfg0.win 3).blk t).view.emb (ix2 p q) = (ix2 r q : S100000x256.Idx) := by
  obtain ⟨-, -, -, -, -, -, e0, e1⟩ := bond_index_facts t
  refine funext fun a => Fin.ext ?_
  match a with
  | ⟨0, _⟩ => show win0_3.index t (0 : Fin 2) * 5000 + 1 * p.val = r.val; rw [e0, hr]; omega
  | ⟨1, _⟩ => show win0_3.index t (1 : Fin 2) * 256 + 1 * q.val = q.val; rw [e1]; omega

/-- One point's product of its blocks is the whole-array product at the rows the block covers: both are the sum
    over k of fbonds[5000 t + p, k] · W_iᵀ[k, q]. -/
theorem blockProduct_eq_whole (V : (c : Dev nD) → (b : Ref sig .tc) → Buf (Elt Ideal) ((c : Thread nD τ).loc b)) (c : Dev nD)
    (t : Fin cfg0.N) (p : Fin 5000) (q : Fin 256) (r : Fin 100000) (hr : r.val = t.val * 5000 + p.val) :
    (k0_pay1 (F := Ideal) (iblk0 (F := Ideal) V c 0 t) (iblk0 (F := Ideal) V c 1 t)) (ix2 p q) = rawBonds V c (ix2 r q) := by
  refine (blockProduct_apply (iblk0 (F := Ideal) V c 0 t) (iblk0 (F := Ideal) V c 1 t) p q).trans ?_
  refine Eq.trans ?_ (wholeProduct_apply (V c (Pipeline.arrRef spec0 0)) (V c (Pipeline.arrRef spec0 1)) r q).symm
  refine Finset.sum_congr rfl fun k _ => ?_
  rw [fbondsBlock_apply V c t p k r hr, weightBlock_apply V c t k q]

/-- A row below 100000 split as block row and row inside the block. -/
theorem bond_row (t : Fin cfg0.N) (p : Fin 5000) : t.val * 5000 + p.val < 100000 := by
  have ht : t.val < 20 := lt_of_lt_of_eq t.isLt N_0
  have hp := p.isLt
  omega

/-- What point t writes back to the raw output is block t of the whole-array product. -/
theorem rawFlushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (rawBonds V c) := by
  show (cfg0.win 2).cut (grid0.coords t) ((dat0 (F := Ideal) V c).after 2 t) = _
  rw [after0_2]
  unfold out0_2
  rw [View.canon_unit_zero bond_hz]
  simp only [View.ld_unit_zero (S := S5000x40) bond_hz, View.ld_unit_zero (S := S40x256) bond_hz]
  funext j
  obtain ⟨p, q, rfl⟩ : ∃ (p : Fin 5000) (q : Fin 256), j = ix2 p q := ⟨j 0, j 1, eq_ix2 j⟩
  show (k0_pay1 (F := Ideal) (iblk0 (F := Ideal) V c 0 t) (iblk0 (F := Ideal) V c 1 t)) (ix2 p q)
      = rawBonds V c (((cfg0.win 2).blk t).view.emb (ix2 p q))
  rw [rawBlock_emb t p q ⟨t.val * 5000 + p.val, bond_row t p⟩ rfl]
  exact blockProduct_eq_whole V c t p q ⟨t.val * 5000 + p.val, bond_row t p⟩ rfl

/-! ## The relu at an index -/

/-- One point's second payload is the maximum of its product and zero. -/
theorem blockRelu_apply (x0 : Vec Ideal S5000x40 .f32) (x1 : Vec Ideal S40x256 .f32) (p : Fin 5000) (q : Fin 256) :
    (k0_pay2 (F := Ideal) x0 x1) (ix2 p q)
      = max ((k0_pay1 (F := Ideal) x0 x1) (ix2 p q)) (Ideal.ofBits .f32 0x00000000#32) := rfl

/-- The whole-array relu at an index is the maximum of the entry and zero. -/
theorem reluBonds_apply (x : FVec Ideal S100000x256 .f32) (r : Fin 100000) (q : Fin 256) :
    reluBonds x (ix2 r q) = max (x (ix2 r q)) (Ideal.ofBits .f32 0x00000000#32) := rfl

/-- What point t writes back to the relu output is block t of the relu of the whole-array product. -/
theorem reluFlushed_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (reluBonds (rawBonds V c)) := by
  show (cfg0.win 3).cut (grid0.coords t) ((dat0 (F := Ideal) V c).after 3 t) = _
  rw [after0_3]
  unfold out0_3
  rw [View.canon_unit_zero bond_hz]
  simp only [View.ld_unit_zero (S := S5000x40) bond_hz, View.ld_unit_zero (S := S40x256) bond_hz]
  funext j
  obtain ⟨p, q, rfl⟩ : ∃ (p : Fin 5000) (q : Fin 256), j = ix2 p q := ⟨j 0, j 1, eq_ix2 j⟩
  show (k0_pay2 (F := Ideal) (iblk0 (F := Ideal) V c 0 t) (iblk0 (F := Ideal) V c 1 t)) (ix2 p q)
      = reluBonds (rawBonds V c) (((cfg0.win 3).blk t).view.emb (ix2 p q))
  rw [reluBlock_emb t p q ⟨t.val * 5000 + p.val, bond_row t p⟩ rfl]
  refine (blockRelu_apply (iblk0 (F := Ideal) V c 0 t) (iblk0 (F := Ideal) V c 1 t) p q).trans ?_
  refine Eq.trans ?_ (reluBonds_apply (rawBonds V c) ⟨t.val * 5000 + p.val, bond_row t p⟩ q).symm
  exact congrArg (fun z : EReal => max z (Ideal.ofBits .f32 0x00000000#32))
    (blockProduct_eq_whole V c t p q ⟨t.val * 5000 + p.val, bond_row t p⟩ rfl)

/-! ## The twenty blocks tile the output arrays -/

/-- An index of the raw output lies in point t's block iff each coordinate lies in the block's range on its axis. -/
theorem rawBlock_mem (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_call0_v6_0).slice (win0_2.rect t)).set ↔ _
  rw [View.set_slice_whole, Rect.mem_set_unit]
  exact Iff.rfl

theorem reluBlock_mem (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_call0_v6_1).slice (win0_3.rect t)).set ↔ _
  rw [View.set_slice_whole, Rect.mem_set_unit]
  exact Iff.rfl

/-- The point whose block holds row r is r / 5000. -/
theorem bond_point (r : Nat) (hr : r < 100000) : ∃ t : Fin cfg0.N, t.val = r / 5000 :=
  ⟨⟨r / 5000, lt_of_lt_of_eq (by omega) N_0.symm⟩, rfl⟩

/-- Every index of the raw output lies in the block of the point its row names. -/
theorem rawCover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := bond_point (i 0).val hi0
  obtain ⟨-, -, -, -, e0, e1, -⟩ := bond_index_facts t
  refine ⟨t, flush0_2 t, ?_⟩
  rw [rawBlock_mem]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 256 ≤ (i 1).val ∧ (i 1).val < win0_2.index t (1 : Fin 2) * 256 + 256; rw [e1]; omega

/-- Every index of the relu output lies in the block of the point its row names. -/
theorem reluCover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := bond_point (i 0).val hi0
  obtain ⟨-, -, -, -, -, -, e0, e1⟩ := bond_index_facts t
  refine ⟨t, flush0_3 t, ?_⟩
  rw [reluBlock_mem]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 256 ≤ (i 1).val ∧ (i 1).val < win0_3.index t (1 : Fin 2) * 256 + 256; rw [e1]; omega

end Bond

/-! ## The two output arrays -/

/-- The raw output array of the first region is the whole product of its two input arrays. -/
theorem region0_raw (V : (c : Dev nD) → (b : Ref sig .tc) → Buf (Elt Ideal) ((c : Thread nD τ).loc b)) (c : Dev nD) :
    @Eq (FVec Ideal S100000x256 .f32) ((dat0 (F := Ideal) V c).arrAt 2 cfg0.N)
      (Host.dotGeneral (F := Ideal) (φ₁ := .f32) (φ₂ := .f32) Cert.ReferenceIdeal.dot_S100000x40_S40x256_S100000x256_1_0_0_1_n_n none
          (V c (Pipeline.arrRef spec0 0) : FVec Ideal S100000x40 .f32) (V c (Pipeline.arrRef spec0 1) : FVec Ideal S40x256 .f32)) := by
  exact (dat0 (F := Ideal) V c).arrAt_eq_of_cover 2 (Bond.rawBonds V c) (fun t _ => Bond.rawFlushed_eq V c t) Bond.rawCover

/-- The second output array is its relu. -/
theorem region0_relu (V : (c : Dev nD) → (b : Ref sig .tc) → Buf (Elt Ideal) ((c : Thread nD τ).loc b)) (c : Dev nD) :
    @Eq (FVec Ideal S100000x256 .f32) ((dat0 (F := Ideal) V c).arrAt 3 cfg0.N)
      (reluBonds (Host.dotGeneral (F := Ideal) (φ₁ := .f32) (φ₂ := .f32) Cert.ReferenceIdeal.dot_S100000x40_S40x256_S100000x256_1_0_0_1_n_n none
          (V c (Pipeline.arrRef spec0 0) : FVec Ideal S100000x40 .f32) (V c (Pipeline.arrRef spec0 1) : FVec Ideal S40x256 .f32))) := by
  exact (dat0 (F := Ideal) V c).arrAt_eq_of_cover 3 (reluBonds (Bond.rawBonds V c)) (fun t _ => Bond.reluFlushed_eq V c t) Bond.reluCover

end Cert.Passing

end
-- ==== Proof.RegionRound1.lean ====
/-
  Round region 1: grid point i overwrites table rows 10000 + 5000 i … 10000 + 5000 i + 4999 with
  relu(nei · W + bias) of its blocks; rows 0 … 9999 are visited by no point and keep what the buffer held.
  If the buffer entered holding the tree messages above some bond messages, it leaves holding the tree
  messages above the new bond messages.
-/
import proofs.«431449_j16389595201591_3_alg».proof.Proof.Passing
import proofs.«431449_j16389595201591_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Passing

open Cert.KernelIdeal Cert.KernelIdeal.Gen
open Idealize.ShloMosaic.ValueIdx

namespace RoundOne

/-- The zero offsets of a whole-buffer access. -/
theorem hzero : (![0, 0] : Fin 2 → Nat) = fun _ => 0 := funext fun a => by fin_cases a <;> rfl

/-! ## What one grid point leaves in the output's staging buffer -/

section Piece
variable {F : FTy → Type} [FloatOps F]

/-- The run's one covering store holds the payload of the three loaded blocks. -/
theorem piece (c : Dev nD) (i : grid1.Coords) (mn : Memref sig .tc .vmem S5000x256 .f32) (hmn : mn.IsWhole)
    (mw : Memref sig .tc .vmem S256x256 .f32) (hmw : mw.IsWhole) (mb : Memref sig .tc .vmem S5000x256 .f32) (hmb : mb.IsWhole)
    (mo : Memref sig .tc .vmem S5000x256 .f32) (hmo : mo.IsWhole)
    (xn : Vec F S5000x256 .f32) (xw : Vec F S256x256 .f32) (xb : Vec F S5000x256 .f32) :
    out1_A_3 c i mn hmn mw hmw mb hmb mo hmo xn xw xb = k1_pay1 xn xw xb := by
  unfold out1_A_3
  rw [View.read_writes_eq_canon _ _ _ (cover1_A_3 c i mn hmn mw hmw mb hmb mo hmo xn xw xb)]
  unfold kernelRun1_A
  dsimp only
  rw [View.canon_unit_zero hzero]
  simp only [View.readAt_eq_ld, hmn.read_unread, hmw.read_unread, hmb.read_unread,
    View.ld_unit_zero (S := S5000x256) hzero, View.ld_unit_zero (S := S256x256) hzero]

/-- The payload is relu(xn · xw + xb): its shape casts are to the same shapes. -/
theorem pay_eq (xn : Vec F S5000x256 .f32) (xw : Vec F S256x256 .f32) (xb : Vec F S5000x256 .f32) :
    k1_pay1 xn xw xb = maximumf (addf (matmul dot_S5000x256_S256x256_S5000x256_1_0_0_1_n_n none xn xw (constant S5000x256 .f32 0x00000000#32)) xb)
      (broadcast S5000x256 (Scalar.ofBits .f32 0x00000000#32)) := by
  unfold k1_pay1
  simp only [shapeCast_self]

end Piece

/-! ## The two products at an index: the sum over the contracted coordinate -/

theorem klhs_row (j : S5000x256.Idx) (k : dot_S5000x256_S256x256_S5000x256_1_0_0_1_n_n.contr.Idx) :
    (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem klhs_col (j : S5000x256.Idx) (k : dot_S5000x256_S256x256_S5000x256_1_0_0_1_n_n.contr.Idx) :
    (dot_S5000x256_S256x256_S5000x256_1_0_0_1_n_n.lhsIdx j k 1).val = (k ⟨0, by decide⟩).val :=
  dot_S5000x256_S256x256_S5000x256_1_0_0_1_n_n.lhsIdx_val_of_single rfl j k
theorem krhs_row (j : S5000x256.Idx) (k : dot_S5000x256_S256x256_S5000x256_1_0_0_1_n_n.contr.Idx) :
    (dot_S5000x256_S256x256_S5000x256_1_0_0_1_n_n.rhsIdx j k 0).val = (k ⟨0, by decide⟩).val :=
  dot_S5000x256_S256x256_S5000x256_1_0_0_1_n_n.rhsIdx_val_of_single rfl j k
theorem krhs_col (j : S5000x256.Idx) (k : dot_S5000x256_S256x256_S5000x256_1_0_0_1_n_n.contr.Idx) :
    (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The payload at block row p, column q: relu((Σ_k xn[p,k] · xw[k,q]) + xb[p,q]). -/
theorem pay_apply (xn : Vec Ideal S5000x256 .f32) (xw : Vec Ideal S256x256 .f32) (xb : Vec Ideal S5000x256 .f32)
    (p : Fin 5000) (q : Fin 256) :
    k1_pay1 (F := Ideal) xn xw xb (ix2 p q) = max ((∑ k : Fin 256, xn (ix2 p k) * xw (ix2 k q)) + xb (ix2 p q)) 0 := by
  have hm : FloatOps.matmul (F := Ideal) (φ₁ := .f32) (φ₂ := .f32) dot_S5000x256_S256x256_S5000x256_1_0_0_1_n_n none xn xw (constant (F := Ideal) S5000x256 .f32 0x00000000#32) (ix2 p q)
      = ∑ k : Fin 256, xn (ix2 p k) * xw (ix2 k q) := by
    rw [Ideal.matmul_constant_zero_apply, ← Equiv.sum_comp (contrEquiv1 dot_S5000x256_S256x256_S5000x256_1_0_0_1_n_n 256 rfl rfl).symm]
    refine Finset.sum_congr rfl fun k _ => ?_
    have hk := contrEquiv1_symm_val dot_S5000x256_S256x256_S5000x256_1_0_0_1_n_n 256 rfl rfl k
    have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
      match a with
      | ⟨0, _⟩ => exact klhs_row _ _
      | ⟨1, _⟩ => exact (klhs_col _ _).trans hk)
    have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
      match a with
      | ⟨0, _⟩ => exact (krhs_row _ _).trans hk
      | ⟨1, _⟩ => exact krhs_col _ _)
    rw [el, er]
  rw [pay_eq]
  show max (FloatOps.matmul (F := Ideal) (φ₁ := .f32) (φ₂ := .f32) dot_S5000x256_S256x256_S5000x256_1_0_0_1_n_n none xn xw (constant (F := Ideal) S5000x256 .f32 0x00000000#32) (ix2 p q) + xb (ix2 p q))
    (Ideal.ofBits .f32 0x00000000#32) = _
  rw [hm, Ideal.ofBits_zero_f32]

theorem rlhs_row (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 0).val = (j 0).val := by
  unfold DotDims.lhsIdx
  rw [dif_neg (show ¬(0 : Fin S100000x256.rank) ∈ Cert.ReferenceIdeal.dot_S100000x256_S256x256_S100000x256_1_0_0_1_n_n.lhsBatch by decide), dif_pos (show (0 : Fin S100000x256.rank) ∈ Cert.ReferenceIdeal.dot_S100000x256_S256x256_S100000x256_1_0_0_1_n_n.lhsNonContracting by decide)]
  rfl
theorem rlhs_col (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 1).val = (k ⟨0, by decide⟩).val :=
  Cert.ReferenceIdeal.dot_S100000x256_S256x256_S100000x256_1_0_0_1_n_n.lhsIdx_val_of_single rfl j k
theorem rrhs_row (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 0).val = (k ⟨0, by decide⟩).val :=
  Cert.ReferenceIdeal.dot_S100000x256_S256x256_S100000x256_1_0_0_1_n_n.rhsIdx_val_of_single rfl j k
theorem rrhs_col (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 1).val = (j 1).val := by
  unfold DotDims.rhsIdx
  rw [dif_neg (show ¬(1 : Fin S256x256.rank) ∈ Cert.ReferenceIdeal.dot_S100000x256_S256x256_S100000x256_1_0_0_1_n_n.rhsBatch by decide), dif_pos (show (1 : Fin S256x256.rank) ∈ Cert.ReferenceIdeal.dot_S100000x256_S256x256_S100000x256_1_0_0_1_n_n.rhsNonContracting by decide)]
  rfl

/-- The new bond message at row r, column q: relu(bias[r,q] + Σ_k nei[r,k] · W[k,q]). -/
theorem ref_apply (bias nei : FVec Ideal S100000x256 .f32) (W : FVec Ideal S256x256 .f32) (r : Fin 100000) (q : Fin 256) :
    reluBonds (addf bias (Host.dotGeneral (F := Ideal) (φ₁ := .f32) (φ₂ := .f32) Cert.ReferenceIdeal.dot_S100000x256_S256x256_S100000x256_1_0_0_1_n_n none nei W)) (ix2 r q)
      = max (bias (ix2 r q) + ∑ k : Fin 256, nei (ix2 r k) * W (ix2 k q)) 0 := by
  have hd : FloatOps.dotGeneral (F := Ideal) (φ₁ := .f32) (φ₂ := .f32) Cert.ReferenceIdeal.dot_S100000x256_S256x256_S100000x256_1_0_0_1_n_n none .single nei W (ix2 r q)
      = ∑ k : Fin 256, nei (ix2 r k) * W (ix2 k q) := by
    rw [Ideal.dotGeneral_apply, ← Equiv.sum_comp (contrEquiv1 Cert.ReferenceIdeal.dot_S100000x256_S256x256_S100000x256_1_0_0_1_n_n 256 rfl rfl).symm]
    refine Finset.sum_congr rfl fun k _ => ?_
    have hk := contrEquiv1_symm_val Cert.ReferenceIdeal.dot_S100000x256_S256x256_S100000x256_1_0_0_1_n_n 256 rfl rfl k
    have el : Cert.ReferenceIdeal.dot_S100000x256_S256x256_S100000x256_1_0_0_1_n_n.lhsIdx (ix2 r q) ((contrEquiv1 Cert.ReferenceIdeal.dot_S100000x256_S256x256_S100000x256_1_0_0_1_n_n 256 rfl rfl).symm k) = ix2 r k := funext fun a => Fin.ext (by
      match a with
      | ⟨0, _⟩ => exact rlhs_row _ _
      | ⟨1, _⟩ => exact (rlhs_col _ _).trans hk)
    have er : Cert.ReferenceIdeal.dot_S100000x256_S256x256_S100000x256_1_0_0_1_n_n.rhsIdx (ix2 r q) ((contrEquiv1 Cert.ReferenceIdeal.dot_S100000x256_S256x256_S100000x256_1_0_0_1_n_n 256 rfl rfl).symm k) = ix2 k q := funext fun a => Fin.ext (by
      match a with
      | ⟨0, _⟩ => exact (rrhs_row _ _).trans hk
      | ⟨1, _⟩ => exact rrhs_col _ _)
    rw [el, er]
  have hb : broadcastInDim Cert.ReferenceIdeal.S100000x256 ![] Cert.ReferenceIdeal.Facts₀.bcast_S_S100000x256
      (constant (F := Ideal) Cert.ReferenceIdeal.S_ .f32 0x00000000#32) (ix2 r q) = 0 := by
    rw [broadcastInDim_apply ![] Cert.ReferenceIdeal.Facts₀.bcast_S_S100000x256 _ (ix2 r q) ix0 (fun a => a.elim0)]
    show Ideal.ofBits .f32 0x00000000#32 = 0
    exact Ideal.ofBits_zero_f32
  unfold reluBonds
  show max (bias (ix2 r q) + FloatOps.dotGeneral (F := Ideal) (φ₁ := .f32) (φ₂ := .f32) Cert.ReferenceIdeal.dot_S100000x256_S256x256_S100000x256_1_0_0_1_n_n none .single nei W (ix2 r q))
    (broadcastInDim Cert.ReferenceIdeal.S100000x256 ![] Cert.ReferenceIdeal.Facts₀.bcast_S_S100000x256
      (constant (F := Ideal) Cert.ReferenceIdeal.S_ .f32 0x00000000#32) (ix2 r q)) = _
  rw [hd, hb]

/-! ## The table at an index: tree rows first, bond rows after -/

/-- Below row 10000 the table reads the tree messages. -/
theorem table_left (tree : FVec Ideal S10000x256 .f32) (g : FVec Ideal S100000x256 .f32) (j : S110000x256.Idx)
    (r : Fin 10000) (q : Fin 256) (hr : (j 0).val = r.val) (hq : (j 1).val = q.val) :
    table tree g j = tree (ix2 r q) := by
  unfold table
  exact concatenate_pair_apply_left (0 : Fin 2) tree g _ j rfl (ix2 r q) (fun b => match b with
    | ⟨0, _⟩ => hr.symm
    | ⟨1, _⟩ => hq.symm)

/-- From row 10000 on it reads the bond messages, 10000 rows up. -/
theorem table_right (tree : FVec Ideal S10000x256 .f32) (g : FVec Ideal S100000x256 .f32) (j : S110000x256.Idx)
    (r : Fin 100000) (q : Fin 256) (hr : (j 0).val = 10000 + r.val) (hq : (j 1).val = q.val) :
    table tree g j = g (ix2 r q) := by
  unfold table
  exact concatenate_pair_apply_right (0 : Fin 2) tree g _ j rfl rfl (ix2 r q) (fun b hb => match b, hb with
    | ⟨0, _⟩, hb => absurd rfl hb
    | ⟨1, _⟩, _ => hq.symm) (by show r.val + 10000 = (j 0).val; omega)

/-! ## The windows' blocks in their arrays -/

/-- The printed index maps over the grid: point t reads block row t of the neighbour sums and of the bias, the whole
    weight matrix, and writes block row t + 2 of the table. -/
theorem idx_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val + 2 ∧ win1_3.index t (1 : Fin 2) = 0 :=
  (by decide +kernel : ∀ t : Fin grid1.N, _)

/-- The bond row that point t's block row p is. -/
abbrev bondRow (t : Fin cfg1.N) (p : Fin 5000) : Fin 100000 :=
  ⟨5000 * t.val + p.val, by have ht := t.isLt; have hN : cfg1.N = 20 := N_1; have hp := p.isLt; omega⟩

section Blocks
variable (V : (c : Dev nD) → (b : Ref sig .tc) → Buf (Elt Ideal) ((c : Thread nD τ).loc b)) (c : Dev nD)

/-- The three input arrays as the region finds them, and their blocks at point t, at their literal types. -/
abbrev neiArr : FVec Ideal S100000x256 .f32 := V c (Pipeline.arrRef spec1 0)
abbrev wArr : FVec Ideal S256x256 .f32 := V c (Pipeline.arrRef spec1 1)
abbrev biasArr : FVec Ideal S100000x256 .f32 := V c (Pipeline.arrRef spec1 2)
abbrev neiBlk (t : Fin cfg1.N) : Vec Ideal S5000x256 .f32 := iblk1 (F := Ideal) V c 0 t
abbrev wBlk (t : Fin cfg1.N) : Vec Ideal S256x256 .f32 := iblk1 (F := Ideal) V c 1 t
abbrev biasBlk (t : Fin cfg1.N) : Vec Ideal S5000x256 .f32 := iblk1 (F := Ideal) V c 2 t

/-- Point t's block of the neighbour sums at row p, column k is the array at bond row 5000 t + p. -/
theorem neiBlk_apply (t : Fin cfg1.N) (p : Fin 5000) (k : Fin 256) :
    neiBlk V c t (ix2 p k) = neiArr V c (ix2 (bondRow t p) k) := by
  obtain ⟨erow, ecol, -⟩ := idx_maps t
  show neiArr V c (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 256 + 1 * k.val = k.val; omega

/-- Every point's block of the weights is the whole matrix. -/
theorem wBlk_apply (t : Fin cfg1.N) (k : Fin 256) (q : Fin 256) :
    wBlk V c t (ix2 k q) = wArr V c (ix2 k q) := by
  obtain ⟨-, -, erow, ecol, -⟩ := idx_maps t
  show wArr V c (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 256 + 1 * q.val = q.val; omega

/-- Point t's block of the bias at row p, column q is the array at bond row 5000 t + p. -/
theorem biasBlk_apply (t : Fin cfg1.N) (p : Fin 5000) (q : Fin 256) :
    biasBlk V c t (ix2 p q) = biasArr V c (ix2 (bondRow t p) q) := by
  obtain ⟨-, -, -, -, erow, ecol, -⟩ := idx_maps t
  show biasArr V c (((cfg1.win 2).blk t).view.emb (ix2 p q)) = _
  refine congrArg _ (funext fun a => Fin.ext ?_)
  match a with
  | ⟨0, _⟩ => show win1_2.index t (0 : Fin 2) * 5000 + 1 * p.val = 5000 * t.val + p.val; omega
  | ⟨1, _⟩ => show win1_2.index t (1 : Fin 2) * 256 + 1 * q.val = q.val; omega

/-- The new bond messages: relu(bias + nei · W) of the arrays as the region finds them. -/
abbrev newBonds : FVec Ideal S100000x256 .f32 :=
  reluBonds (addf (biasArr V c) (Host.dotGeneral (F := Ideal) (φ₁ := .f32) (φ₂ := .f32) Cert.ReferenceIdeal.dot_S100000x256_S256x256_S100000x256_1_0_0_1_n_n none
    (neiArr V c) (wArr V c)))

/-- What point t writes back is its block of the table that holds the new bond messages (over any tree rows: the
    block lies past them). -/
theorem flushed_eq (tree : FVec Ideal S10000x256 .f32) (t : Fin cfg1.N) :
    (dat1 (F := Ideal) V c).flushed 3 t = ((cfg1.win 3).blk t).view.read (Elt Ideal) (table tree (newBonds V c)) := by
  show (cfg1.win 3).cut (grid1.coords t) ((dat1 (F := Ideal) V c).after 3 t) = _
  rw [after1_3]
  unfold outsAt1
  rw [piece (F := Ideal) c (grid1.coords t) (ms1_0 t) (hs1_0 t) (ms1_1 t) (hs1_1 t) (ms1_2 t) (hs1_2 t) (ms1_3 t) (hs1_3 t)
    (iblk1 V c 0 t) (iblk1 V c 1 t) (iblk1 V c 2 t)]
  funext y
  obtain ⟨-, -, -, -, -, -, erow, ecol⟩ := idx_maps t
  have hp : (y 0).val < 5000 := (y 0).isLt
  have hq : (y 1).val < 256 := (y 1).isLt
  have hx : (cfg1.win 3).xinj (grid1.coords t) y = ix2 ⟨(y 0).val, hp⟩ ⟨(y 1).val, hq⟩ :=
    funext fun a => match a with
      | ⟨0, _⟩ => rfl
      | ⟨1, _⟩ => rfl
  have hrow : ((((cfg1.win 3).blk t).view.emb y) 0).val = 10000 + (bondRow t ⟨(y 0).val, hp⟩).val := by
    show win1_3.index t (0 : Fin 2) * 5000 + 1 * (y 0).val = 10000 + (5000 * t.val + (y 0).val); omega
  have hcol : ((((cfg1.win 3).blk t).view.emb y) 1).val = (y 1).val := by
    show win1_3.index t (1 : Fin 2) * 256 + 1 * (y 1).val = (y 1).val; omega
  have hsum : (∑ k : Fin 256, neiBlk V c t (ix2 ⟨(y 0).val, hp⟩ k) * wBlk V c t (ix2 k ⟨(y 1).val, hq⟩))
      = ∑ k : Fin 256, neiArr V c (ix2 (bondRow t ⟨(y 0).val, hp⟩) k) * wArr V c (ix2 k ⟨(y 1).val, hq⟩) :=
    Finset.sum_congr rfl fun k _ => by rw [neiBlk_apply V c t, wBlk_apply V c t]
  show k1_pay1 (F := Ideal) (neiBlk V c t) (wBlk V c t) (biasBlk V c t) ((cfg1.win 3).xinj (grid1.coords t) y)
    = table tree (newBonds V c) (((cfg1.win 3).blk t).view.emb y)
  rw [hx]
  refine (pay_apply (neiBlk V c t) (wBlk V c t) (biasBlk V c t) ⟨(y 0).val, hp⟩ ⟨(y 1).val, hq⟩).trans ?_
  refine Eq.trans ?_ (table_right tree (newBonds V c) (((cfg1.win 3).blk t).view.emb y)
    (bondRow t ⟨(y 0).val, hp⟩) ⟨(y 1).val, hq⟩ hrow hcol).symm
  refine Eq.trans ?_ (ref_apply (biasArr V c) (neiArr V c) (wArr V c) (bondRow t ⟨(y 0).val, hp⟩) ⟨(y 1).val, hq⟩).symm
  rw [hsum, biasBlk_apply V c t]
  exact congrArg (fun s => max s 0) (add_comm _ _)

end Blocks

/-- An index of the table is in point t's block iff each coordinate is in the block's range on its axis. -/
theorem mem_blk (t : Fin cfg1.N) (i : S110000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole (Pipeline.arrRef spec1 3)).slice (win1_3.rect t)).set ↔ _
  rw [View.set_slice_whole, Rect.mem_set_unit]
  exact Iff.rfl

/-- The rows some point's block covers: all from row 10000 on (row r lies in the block of point (r - 10000) / 5000). -/
theorem covered_iff (i : S110000x256.Idx) :
    (∃ t : Fin cfg1.N, (cfg1.win 3).flush t = true ∧ i ∈ ((cfg1.win 3).blk t).view.set) ↔ 10000 ≤ (i 0).val := by
  have hN : cfg1.N = 20 := N_1
  constructor
  · rintro ⟨t, -, hi⟩
    rw [mem_blk] at hi
    have hb : win1_3.index t (0 : Fin 2) * 5000 ≤ (i 0).val ∧ (i 0).val < win1_3.index t (0 : Fin 2) * 5000 + 5000 := hi 0
    obtain ⟨-, -, -, -, -, -, erow, ecol⟩ := idx_maps t
    omega
  · intro h
    have hrowlt : (i 0).val < 110000 := (i 0).isLt
    have hcollt : (i 1).val < 256 := (i 1).isLt
    obtain ⟨n, hn⟩ : ∃ n, n = ((i 0).val - 10000) / 5000 := ⟨_, rfl⟩
    have hlt : n < cfg1.N := by rw [hN]; omega
    have erow : win1_3.index ⟨n, hlt⟩ (0 : Fin 2) = n + 2 := (idx_maps ⟨n, hlt⟩).2.2.2.2.2.2.1
    have ecol : win1_3.index ⟨n, hlt⟩ (1 : Fin 2) = 0 := (idx_maps ⟨n, hlt⟩).2.2.2.2.2.2.2
    refine ⟨⟨n, hlt⟩, flush1_3 _, ?_⟩
    rw [mem_blk]
    intro a
    match a with
    | ⟨0, _⟩ => show win1_3.index ⟨n, hlt⟩ (0 : Fin 2) * 5000 ≤ (i 0).val ∧ (i 0).val < win1_3.index ⟨n, hlt⟩ (0 : Fin 2) * 5000 + 5000; omega
    | ⟨1, _⟩ => show win1_3.index ⟨n, hlt⟩ (1 : Fin 2) * 256 ≤ (i 1).val ∧ (i 1).val < win1_3.index ⟨n, hlt⟩ (1 : Fin 2) * 256 + 256; omega

end RoundOne

/-- The table after round region 1. -/
theorem region1_out (V : (c : Dev nD) → (b : Ref sig .tc) → Buf (Elt Ideal) ((c : Thread nD τ).loc b)) (c : Dev nD)
    (tree : FVec Ideal S10000x256 .f32) (g : FVec Ideal S100000x256 .f32)
    (hbuf : V c (Pipeline.arrRef spec1 3) = table tree g) :
    @Eq (FVec Ideal S110000x256 .f32) ((dat1 (F := Ideal) V c).arrAt 3 cfg1.N)
      (table tree (reluBonds (addf (V c (Pipeline.arrRef spec1 2) : FVec Ideal S100000x256 .f32)
          (Host.dotGeneral (F := Ideal) (φ₁ := .f32) (φ₂ := .f32) Cert.ReferenceIdeal.dot_S100000x256_S256x256_S100000x256_1_0_0_1_n_n none
            (V c (Pipeline.arrRef spec1 0) : FVec Ideal S100000x256 .f32) (V c (Pipeline.arrRef spec1 1) : FVec Ideal S256x256 .f32))))) := by
  funext i
  rw [(dat1 (F := Ideal) V c).arrAt_eq_piecewise 3 (table tree (RoundOne.newBonds V c)) (fun t _ => RoundOne.flushed_eq V c tree t) i, A_eq1, hbuf]
  have hq : (i 1).val < 256 := (i 1).isLt
  by_cases h : 10000 ≤ (i 0).val
  · exact if_pos ((RoundOne.covered_iff i).mpr h)
  · have hr : (i 0).val < 10000 := Nat.lt_of_not_le h
    rw [if_neg (mt (RoundOne.covered_iff i).mp h), RoundOne.table_left tree g i ⟨(i 0).val, hr⟩ ⟨(i 1).val, hq⟩ rfl rfl]
    exact (RoundOne.table_left tree _ i ⟨(i 0).val, hr⟩ ⟨(i 1).val, hq⟩ rfl rfl).symm

end Cert.Passing

end
-- ==== Proof.RegionRound2.lean ====
/-
  Round region 2: grid point i overwrites table rows 10000 + 5000 i … 10000 + 5000 i + 4999 with
  relu(nei · W + bias) of its blocks; rows 0 … 9999 are visited by no point and keep what the buffer held.
  If the buffer entered holding the tree messages above some bond messages, it leaves holding the tree
  messages above the new bond messages.
-/
import proofs.«431449_j16389595201591_3_alg».proof.Proof.Passing
import proofs.«431449_j16389595201591_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Passing

open Cert.KernelIdeal Cert.KernelIdeal.Gen
open Idealize.ShloMosaic.ValueIdx

namespace RoundTwo

/-- The zero offsets of a whole-buffer access. -/
theorem hzero : (![0, 0] : Fin 2 → Nat) = fun _ => 0 := funext fun a => by fin_cases a <;> rfl

/-! ## What one grid point leaves in the output's staging buffer -/

section Piece
variable {F : FTy → Type} [FloatOps F]

/-- The run's one covering store holds the payload of the three loaded blocks. -/
theorem piece (c : Dev nD) (i : grid2.Coords) (mn : Memref sig .tc .vmem S5000x256 .f32) (hmn : mn.IsWhole)
    (mw : Memref sig .tc .vmem S256x256 .f32) (hmw : mw.IsWhole) (mb : Memref sig .tc .vmem S5000x256 .f32) (hmb : mb.IsWhole)
    (mo : Memref sig .tc .vmem S5000x256 .f32) (hmo : mo.IsWhole)
    (xn : Vec F S5000x256 .f32) (xw : Vec F S256x256 .f32) (xb : Vec F S5000x256 .f32) :
    out2_A_3 c i mn hmn mw hmw mb hmb mo hmo xn xw xb = k2_pay1 xn xw xb := by
  unfold out2_A_3
  rw [View.read_writes_eq_canon _ _ _ (cover2_A_3 c i mn hmn mw hmw mb hmb mo hmo xn xw xb)]
  unfold kernelRun2_A
  dsimp only
  rw [View.canon_unit_zero hzero]
  simp only [View.readAt_eq_ld, hmn.read_unread, hmw.read_unread, hmb.read_unread,
    View.ld_unit_zero (S := S5000x256) hzero, View.ld_unit_zero (S := S256x256) hzero]

/-- The payload is relu(xn · xw + xb): its shape casts are to the same shapes. -/
theorem pay_eq (xn : Vec F S5000x256 .f32) (xw : Vec F S256x256 .f32) (xb : Vec F S5000x256 .f32) :
    k2_pay1 xn xw xb = maximumf (addf (matmul dot_S5000x256_S256x256_S5000x256_1_0_0_1_n_n none xn xw (constant S5000x256 .f32 0x00000000#32)) xb)
      (broadcast S5000x256 (Scalar.ofBits .f32 0x00000000#32)) := by
  unfold k2_pay1
  simp only [shapeCast_self]

end Piece

/-! ## The two products at an index: the sum over the contracted coordinate -/

theorem klhs_row (j : S5000x256.Idx) (k : dot_S5000x256_S256x256_S5000x256_1_0_0_1_n_n.contr.Idx) :
    (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem klhs_col (j : S5000x256.Idx) (k : dot_S5000x256_S256x256_S5000x256_1_0_0_1_n_n.contr.Idx) :
    (dot_S5000x256_S256x256_S5000x256_1_0_0_1_n_n.lhsIdx j k 1).val = (k ⟨0, by decide⟩).val :=
  dot_S5000x256_S256x256_S5000x256_1_0_0_1_n_n.lhsIdx_val_of_single rfl j k
theorem krhs_row (j : S5000x256.Idx) (k : dot_S5000x256_S256x256_S5000x256_1_0_0_1_n_n.contr.Idx) :
    (dot_S5000x256_S256x256_S5000x256_1_0_0_1_n_n.rhsIdx j k 0).val = (k ⟨0, by decide⟩).val :=
  dot_S5000x256_S256x256_S5000x256_1_0_0_1_n_n.rhsIdx_val_of_single rfl j k
theorem krhs_col (j : S5000x256.Idx) (k : dot_S5000x256_S256x256_S5000x256_1_0_0_1_n_n.contr.Idx) :
    (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The payload at block row p, column q: relu((Σ_k xn[p,k] · xw[k,q]) + xb[p,q]). -/
theorem pay_apply (xn : Vec Ideal S5000x256 .f32) (xw : Vec Ideal S256x256 .f32) (xb : Vec Ideal S5000x256 .f32)
    (p : Fin 5000) (q : Fin 256) :
    k2_pay1 (F := Ideal) xn xw xb (ix2 p q) = max ((∑ k : Fin 256, xn (ix2 p k) * xw (ix2 k q)) + xb (ix2 p q)) 0 := by
  have hm : FloatOps.matmul (F := Ideal) (φ₁ := .f32) (φ₂ := .f32) dot_S5000x256_S256x256_S5000x256_1_0_0_1_n_n none xn xw (constant (F := Ideal) S5000x256 .f32 0x00000000#32) (ix2 p q)
      = ∑ k : Fin 256, xn (ix2 p k) * xw (ix2 k q) := by
    rw [Ideal.matmul_constant_zero_apply, ← Equiv.sum_comp (contrEquiv1 dot_S5000x256_S256x256_S5000x256_1_0_0_1_n_n 256 rfl rfl).symm]
    refine Finset.sum_congr rfl fun k _ => ?_
    have hk := contrEquiv1_symm_val dot_S5000x256_S256x256_S5000x256_1_0_0_1_n_n 256 rfl rfl k
    have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
      match a with
      | ⟨0, _⟩ => exact klhs_row _ _
      | ⟨1, _⟩ => exact (klhs_col _ _).trans hk)
    have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
      match a with
      | ⟨0, _⟩ => exact (krhs_row _ _).trans hk
      | ⟨1, _⟩ => exact krhs_col _ _)
    rw [el, er]
  rw [pay_eq]
  show max (FloatOps.matmul (F := Ideal) (φ₁ := .f32) (φ₂ := .f32) dot_S5000x256_S256x256_S5000x256_1_0_0_1_n_n none xn xw (constant (F := Ideal) S5000x256 .f32 0x00000000#32) (ix2 p q) + xb (ix2 p q))
    (Ideal.ofBits .f32 0x00000000#32) = _
  rw [hm, Ideal.ofBits_zero_f32]

theorem rlhs_row (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 0).val = (j 0).val := by
  unfold DotDims.lhsIdx
  rw [dif_neg (show ¬(0 : Fin S100000x256.rank) ∈ Cert.ReferenceIdeal.dot_S100000x256_S256x256_S100000x256_1_0_0_1_n_n.lhsBatch by decide), dif_pos (show (0 : Fin S100000x256.rank) ∈ Cert.ReferenceIdeal.dot_S100000x256_S256x256_S100000x256_1_0_0_1_n_n.lhsNonContracting by decide)]
  rfl
theorem rlhs_col (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 1).val = (k ⟨0, by decide⟩).val :=
  Cert.ReferenceIdeal.dot_S100000x256_S256x256_S100000x256_1_0_0_1_n_n.lhsIdx_val_of_single rfl j k
theorem rrhs_row (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 0).val = (k ⟨0, by decide⟩).val :=
  Cert.ReferenceIdeal.dot_S100000x256_S256x256_S100000x256_1_0_0_1_n_n.rhsIdx_val_of_single rfl j k
theorem rrhs_col (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 1).val = (j 1).val := by
  unfold DotDims.rhsIdx
  rw [dif_neg (show ¬(1 : Fin S256x256.rank) ∈ Cert.ReferenceIdeal.dot_S100000x256_S256x256_S100000x256_1_0_0_1_n_n.rhsBatch by decide), dif_pos (show (1 : Fin S256x256.rank) ∈ Cert.ReferenceIdeal.dot_S100000x256_S256x256_S100000x256_1_0_0_1_n_n.rhsNonContracting by decide)]
  rfl

/-- The new bond message at row r, column q: relu(bias[r,q] + Σ_k nei[r,k] · W[k,q]). -/
theorem ref_apply (bias nei : FVec Ideal S100000x256 .f32) (W : FVec Ideal S256x256 .f32) (r : Fin 100000) (q : Fin 256) :
    reluBonds (addf bias (Host.dotGeneral (F := Ideal) (φ₁ := .f32) (φ₂ := .f32) Cert.ReferenceIdeal.dot_S100000x256_S256x256_S100000x256_1_0_0_1_n_n none nei W)) (ix2 r q)
      = max (bias (ix2 r q) + ∑ k : Fin 256, nei (ix2 r k) * W (ix2 k q)) 0 := by
  have hd : FloatOps.dotGeneral (F := Ideal) (φ₁ := .f32) (φ₂ := .f32) Cert.ReferenceIdeal.dot_S100000x256_S256x256_S100000x256_1_0_0_1_n_n none .single nei W (ix2 r q)
      = ∑ k : Fin 256, nei (ix2 r k) * W (ix2 k q) := by
    rw [Ideal.dotGeneral_apply, ← Equiv.sum_comp (contrEquiv1 Cert.ReferenceIdeal.dot_S100000x256_S256x256_S100000x256_1_0_0_1_n_n 256 rfl rfl).symm]
    refine Finset.sum_congr rfl fun k _ => ?_
    have hk := contrEquiv1_symm_val Cert.ReferenceIdeal.dot_S100000x256_S256x256_S100000x256_1_0_0_1_n_n 256 rfl rfl k
    have el : Cert.ReferenceIdeal.dot_S100000x256_S256x256_S100000x256_1_0_0_1_n_n.lhsIdx (ix2 r q) ((contrEquiv1 Cert.ReferenceIdeal.dot_S100000x256_S256x256_S100000x256_1_0_0_1_n_n 256 rfl rfl).symm k) = ix2 r k := funext fun a => Fin.ext (by
      match a with
      | ⟨0, _⟩ => exact rlhs_row _ _
      | ⟨1, _⟩ => exact (rlhs_col _ _).trans hk)
    have er : Cert.ReferenceIdeal.dot_S100000x256_S256x256_S100000x256_1_0_0_1_n_n.rhsIdx (ix2 r q) ((contrEquiv1 Cert.ReferenceIdeal.dot_S100000x256_S256x256_S100000x256_1_0_0_1_n_n 256 rfl rfl).symm k) = ix2 k q := funext fun a => Fin.ext (by
      match a with
      | ⟨0, _⟩ => exact (rrhs_row _ _).trans hk
      | ⟨1, _⟩ => exact rrhs_col _ _)
    rw [el, er]
  have hb : broadcastInDim Cert.ReferenceIdeal.S100000x256 ![] Cert.ReferenceIdeal.Facts₀.bcast_S_S100000x256
      (constant (F := Ideal) Cert.ReferenceIdeal.S_ .f32 0x00000000#32) (ix2 r q) = 0 := by
    rw [broadcastInDim_apply ![] Cert.ReferenceIdeal.Facts₀.bcast_S_S100000x256 _ (ix2 r q) ix0 (fun a => a.elim0)]
    show Ideal.ofBits .f32 0x00000000#32 = 0
    exact Ideal.ofBits_zero_f32
  unfold reluBonds
  show max (bias (ix2 r q) + FloatOps.dotGeneral (F := Ideal) (φ₁ := .f32) (φ₂ := .f32) Cert.ReferenceIdeal.dot_S100000x256_S256x256_S100000x256_1_0_0_1_n_n none .single nei W (ix2 r q))
    (broadcastInDim Cert.ReferenceIdeal.S100000x256 ![] Cert.ReferenceIdeal.Facts₀.bcast_S_S100000x256
      (constant (F := Ideal) Cert.ReferenceIdeal.S_ .f32 0x00000000#32) (ix2 r q)) = _
  rw [hd, hb]

/-! ## The table at an index: tree rows first, bond rows after -/

/-- Below row 10000 the table reads the tree messages. -/
theorem table_left (tree : FVec Ideal S10000x256 .f32) (g : FVec Ideal S100000x256 .f32) (j : S110000x256.Idx)
    (r : Fin 10000) (q : Fin 256) (hr : (j 0).val = r.val) (hq : (j 1).val = q.val) :
    table tree g j = tree (ix2 r q) := by
  unfold table
  exact concatenate_pair_apply_left (0 : Fin 2) tree g _ j rfl (ix2 r q) (fun b => match b with
    | ⟨0, _⟩ => hr.symm
    | ⟨1, _⟩ => hq.symm)

/-- From row 10000 on it reads the bond messages, 10000 rows up. -/
theorem table_right (tree : FVec Ideal S10000x256 .f32) (g : FVec Ideal S100000x256 .f32) (j : S110000x256.Idx)
    (r : Fin 100000) (q : Fin 256) (hr : (j 0).val = 10000 + r.val) (hq : (j 1).val = q.val) :
    table tree g j = g (ix2 r q) := by
  unfold table
  exact concatenate_pair_apply_right (0 : Fin 2) tree g _ j rfl rfl (ix2 r q) (fun b hb => match b, hb with
    | ⟨0, _⟩, hb => absurd rfl hb
    | ⟨1, _⟩, _ => hq.symm) (by show r.val + 10000 = (j 0).val; omega)

/-! ## The windows' blocks in their arrays -/

/-- The printed index maps over the grid: point t reads block row t of the neighbour sums and of the bias, the whole
    weight matrix, and writes block row t + 2 of the table. -/
theorem idx_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val + 2 ∧ win2_3.index t (1 : Fin 2) = 0 :=
  (by decide +kernel : ∀ t : Fin grid2.N, _)

/-- The bond row that point t's block row p is. -/
abbrev bondRow (t : Fin cfg2.N) (p : Fin 5000) : Fin 100000 :=
  ⟨5000 * t.val + p.val, by have ht := t.isLt; have hN : cfg2.N = 20 := N_2; have hp := p.isLt; omega⟩

section Blocks
variable (V : (c : Dev nD) → (b : Ref sig .tc) → Buf (Elt Ideal) ((c : Thread nD τ).loc b)) (c : Dev nD)

/-- The three input arrays as the region finds them, and their blocks at point t, at their literal types. -/
abbrev neiArr : FVec Ideal S100000x256 .f32 := V c (Pipeline.arrRef spec2 0)
abbrev wArr : FVec Ideal S256x256 .f32 := V c (Pipeline.arrRef spec2 1)
abbrev biasArr : FVec Ideal S100000x256 .f32 := V c (Pipeline.arrRef spec2 2)
abbrev neiBlk (t : Fin cfg2.N) : Vec Ideal S5000x256 .f32 := iblk2 (F := Ideal) V c 0 t
abbrev wBlk (t : Fin cfg2.N) : Vec Ideal S256x256 .f32 := iblk2 (F := Ideal) V c 1 t
abbrev biasBlk (t : Fin cfg2.N) : Vec Ideal S5000x256 .f32 := iblk2 (F := Ideal) V c 2 t

/-- Point t's block of the neighbour sums at row p, column k is the array at bond row 5000 t + p. -/
theorem neiBlk_apply (t : Fin cfg2.N) (p : Fin 5000) (k : Fin 256) :
    neiBlk V c t (ix2 p k) = neiArr V c (ix2 (bondRow t p) k) := by
  obtain ⟨erow, ecol, -⟩ := idx_maps t
  show neiArr V c (((cfg2.win 0).blk t).view.emb (ix2 p k)) = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 256 + 1 * k.val = k.val; omega

/-- Every point's block of the weights is the whole matrix. -/
theorem wBlk_apply (t : Fin cfg2.N) (k : Fin 256) (q : Fin 256) :
    wBlk V c t (ix2 k q) = wArr V c (ix2 k q) := by
  obtain ⟨-, -, erow, ecol, -⟩ := idx_maps t
  show wArr V c (((cfg2.win 1).blk t).view.emb (ix2 k q)) = _
  refine congrArg _ (funext fun a => Fin.ext ?_)
  match a with
  | ⟨0, _⟩ => show win2_1.index t (0 : Fin 2) * 256 + 1 * k.val = k.val; omega
  | ⟨1, _⟩ => show win2_1.index t (1 : Fin 2) * 256 + 1 * q.val = q.val; omega

/-- Point t's block of the bias at row p, column q is the array at bond row 5000 t + p. -/
theorem biasBlk_apply (t : Fin cfg2.N) (p : Fin 5000) (q : Fin 256) :
    biasBlk V c t (ix2 p q) = biasArr V c (ix2 (bondRow t p) q) := by
  obtain ⟨-, -, -, -, erow, ecol, -⟩ := idx_maps t
  show biasArr V c (((cfg2.win 2).blk t).view.emb (ix2 p q)) = _
  refine congrArg _ (funext fun a => Fin.ext ?_)
  match a with
  | ⟨0, _⟩ => show win2_2.index t (0 : Fin 2) * 5000 + 1 * p.val = 5000 * t.val + p.val; omega
  | ⟨1, _⟩ => show win2_2.index t (1 : Fin 2) * 256 + 1 * q.val = q.val; omega

/-- The new bond messages: relu(bias + nei · W) of the arrays as the region finds them. -/
abbrev newBonds : FVec Ideal S100000x256 .f32 :=
  reluBonds (addf (biasArr V c) (Host.dotGeneral (F := Ideal) (φ₁ := .f32) (φ₂ := .f32) Cert.ReferenceIdeal.dot_S100000x256_S256x256_S100000x256_1_0_0_1_n_n none
    (neiArr V c) (wArr V c)))

/-- What point t writes back is its block of the table that holds the new bond messages (over any tree rows: the
    block lies past them). -/
theorem flushed_eq (tree : FVec Ideal S10000x256 .f32) (t : Fin cfg2.N) :
    (dat2 (F := Ideal) V c).flushed 3 t = ((cfg2.win 3).blk t).view.read (Elt Ideal) (table tree (newBonds V c)) := by
  show (cfg2.win 3).cut (grid2.coords t) ((dat2 (F := Ideal) V c).after 3 t) = _
  rw [after2_3]
  unfold outsAt2
  rw [piece (F := Ideal) c (grid2.coords t) (ms2_0 t) (hs2_0 t) (ms2_1 t) (hs2_1 t) (ms2_2 t) (hs2_2 t) (ms2_3 t) (hs2_3 t)
    (iblk2 V c 0 t) (iblk2 V c 1 t) (iblk2 V c 2 t)]
  funext y
  obtain ⟨-, -, -, -, -, -, erow, ecol⟩ := idx_maps t
  have hp : (y 0).val < 5000 := (y 0).isLt
  have hq : (y 1).val < 256 := (y 1).isLt
  have hx : (cfg2.win 3).xinj (grid2.coords t) y = ix2 ⟨(y 0).val, hp⟩ ⟨(y 1).val, hq⟩ :=
    funext fun a => match a with
      | ⟨0, _⟩ => rfl
      | ⟨1, _⟩ => rfl
  have hrow : ((((cfg2.win 3).blk t).view.emb y) 0).val = 10000 + (bondRow t ⟨(y 0).val, hp⟩).val := by
    show win2_3.index t (0 : Fin 2) * 5000 + 1 * (y 0).val = 10000 + (5000 * t.val + (y 0).val); omega
  have hcol : ((((cfg2.win 3).blk t).view.emb y) 1).val = (y 1).val := by
    show win2_3.index t (1 : Fin 2) * 256 + 1 * (y 1).val = (y 1).val; omega
  have hsum : (∑ k : Fin 256, neiBlk V c t (ix2 ⟨(y 0).val, hp⟩ k) * wBlk V c t (ix2 k ⟨(y 1).val, hq⟩))
      = ∑ k : Fin 256, neiArr V c (ix2 (bondRow t ⟨(y 0).val, hp⟩) k) * wArr V c (ix2 k ⟨(y 1).val, hq⟩) :=
    Finset.sum_congr rfl fun k _ => by rw [neiBlk_apply V c t, wBlk_apply V c t]
  show k2_pay1 (F := Ideal) (neiBlk V c t) (wBlk V c t) (biasBlk V c t) ((cfg2.win 3).xinj (grid2.coords t) y)
    = table tree (newBonds V c) (((cfg2.win 3).blk t).view.emb y)
  rw [hx]
  refine (pay_apply (neiBlk V c t) (wBlk V c t) (biasBlk V c t) ⟨(y 0).val, hp⟩ ⟨(y 1).val, hq⟩).trans ?_
  refine Eq.trans ?_ (table_right tree (newBonds V c) (((cfg2.win 3).blk t).view.emb y)
    (bondRow t ⟨(y 0).val, hp⟩) ⟨(y 1).val, hq⟩ hrow hcol).symm
  refine Eq.trans ?_ (ref_apply (biasArr V c) (neiArr V c) (wArr V c) (bondRow t ⟨(y 0).val, hp⟩) ⟨(y 1).val, hq⟩).symm
  rw [hsum, biasBlk_apply V c t]
  exact congrArg (fun s => max s 0) (add_comm _ _)

end Blocks

/-- An index of the table is in point t's block iff each coordinate is in the block's range on its axis. -/
theorem mem_blk (t : Fin cfg2.N) (i : S110000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole (Pipeline.arrRef spec2 3)).slice (win2_3.rect t)).set ↔ _
  rw [View.set_slice_whole, Rect.mem_set_unit]
  exact Iff.rfl

/-- The rows some point's block covers: all from row 10000 on (row r lies in the block of point (r - 10000) / 5000). -/
theorem covered_iff (i : S110000x256.Idx) :
    (∃ t : Fin cfg2.N, (cfg2.win 3).flush t = true ∧ i ∈ ((cfg2.win 3).blk t).view.set) ↔ 10000 ≤ (i 0).val := by
  have hN : cfg2.N = 20 := N_2
  constructor
  · rintro ⟨t, -, hi⟩
    rw [mem_blk] at hi
    have hb : win2_3.index t (0 : Fin 2) * 5000 ≤ (i 0).val ∧ (i 0).val < win2_3.index t (0 : Fin 2) * 5000 + 5000 := hi 0
    obtain ⟨-, -, -, -, -, -, erow, ecol⟩ := idx_maps t
    omega
  · intro h
    have hrowlt : (i 0).val < 110000 := (i 0).isLt
    have hcollt : (i 1).val < 256 := (i 1).isLt
    obtain ⟨n, hn⟩ : ∃ n, n = ((i 0).val - 10000) / 5000 := ⟨_, rfl⟩
    have hlt : n < cfg2.N := by rw [hN]; omega
    have erow : win2_3.index ⟨n, hlt⟩ (0 : Fin 2) = n + 2 := (idx_maps ⟨n, hlt⟩).2.2.2.2.2.2.1
    have ecol : win2_3.index ⟨n, hlt⟩ (1 : Fin 2) = 0 := (idx_maps ⟨n, hlt⟩).2.2.2.2.2.2.2
    refine ⟨⟨n, hlt⟩, flush2_3 _, ?_⟩
    rw [mem_blk]
    intro a
    match a with
    | ⟨0, _⟩ => show win2_3.index ⟨n, hlt⟩ (0 : Fin 2) * 5000 ≤ (i 0).val ∧ (i 0).val < win2_3.index ⟨n, hlt⟩ (0 : Fin 2) * 5000 + 5000; omega
    | ⟨1, _⟩ => show win2_3.index ⟨n, hlt⟩ (1 : Fin 2) * 256 ≤ (i 1).val ∧ (i 1).val < win2_3.index ⟨n, hlt⟩ (1 : Fin 2) * 256 + 256; omega

end RoundTwo

/-- The table after round region 2. -/
theorem region2_out (V : (c : Dev nD) → (b : Ref sig .tc) → Buf (Elt Ideal) ((c : Thread nD τ).loc b)) (c : Dev nD)
    (tree : FVec Ideal S10000x256 .f32) (g : FVec Ideal S100000x256 .f32)
    (hbuf : V c (Pipeline.arrRef spec2 3) = table tree g) :
    @Eq (FVec Ideal S110000x256 .f32) ((dat2 (F := Ideal) V c).arrAt 3 cfg2.N)
      (table tree (reluBonds (addf (V c (Pipeline.arrRef spec2 2) : FVec Ideal S100000x256 .f32)
          (Host.dotGeneral (F := Ideal) (φ₁ := .f32) (φ₂ := .f32) Cert.ReferenceIdeal.dot_S100000x256_S256x256_S100000x256_1_0_0_1_n_n none
            (V c (Pipeline.arrRef spec2 0) : FVec Ideal S100000x256 .f32) (V c (Pipeline.arrRef spec2 1) : FVec Ideal S256x256 .f32))))) := by
  funext i
  rw [(dat2 (F := Ideal) V c).arrAt_eq_piecewise 3 (table tree (RoundTwo.newBonds V c)) (fun t _ => RoundTwo.flushed_eq V c tree t) i, A_eq2, hbuf]
  have hq : (i 1).val < 256 := (i 1).isLt
  by_cases h : 10000 ≤ (i 0).val
  · exact if_pos ((RoundTwo.covered_iff i).mpr h)
  · have hr : (i 0).val < 10000 := Nat.lt_of_not_le h
    rw [if_neg (mt (RoundTwo.covered_iff i).mp h), RoundTwo.table_left tree g i ⟨(i 0).val, hr⟩ ⟨(i 1).val, hq⟩ rfl rfl]
    exact (RoundTwo.table_left tree _ i ⟨(i 0).val, hr⟩ ⟨(i 1).val, hq⟩ rfl rfl).symm

end Cert.Passing

end
-- ==== Proof.RegionRound3.lean ====
/-
  Round region 3: grid point i overwrites table rows 10000 + 5000 i … 10000 + 5000 i + 4999 with
  relu(nei · W + bias) of its blocks; rows 0 … 9999 are visited by no point and keep what the buffer held.
  If the buffer entered holding the tree messages above some bond messages, it leaves holding the tree
  messages above the new bond messages.
-/
import proofs.«431449_j16389595201591_3_alg».proof.Proof.Passing
import proofs.«431449_j16389595201591_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Passing

open Cert.KernelIdeal Cert.KernelIdeal.Gen
open Idealize.ShloMosaic.ValueIdx

namespace RoundThree

/-- The zero offsets of a whole-buffer access. -/
theorem hzero : (![0, 0] : Fin 2 → Nat) = fun _ => 0 := funext fun a => by fin_cases a <;> rfl

/-! ## What one grid point leaves in the output's staging buffer -/

section Piece
variable {F : FTy → Type} [FloatOps F]

/-- The run's one covering store holds the payload of the three loaded blocks. -/
theorem piece (c : Dev nD) (i : grid3.Coords) (mn : Memref sig .tc .vmem S5000x256 .f32) (hmn : mn.IsWhole)
    (mw : Memref sig .tc .vmem S256x256 .f32) (hmw : mw.IsWhole) (mb : Memref sig .tc .vmem S5000x256 .f32) (hmb : mb.IsWhole)
    (mo : Memref sig .tc .vmem S5000x256 .f32) (hmo : mo.IsWhole)
    (xn : Vec F S5000x256 .f32) (xw : Vec F S256x256 .f32) (xb : Vec F S5000x256 .f32) :
    out3_A_3 c i mn hmn mw hmw mb hmb mo hmo xn xw xb = k3_pay1 xn xw xb := by
  unfold out3_A_3
  rw [View.read_writes_eq_canon _ _ _ (cover3_A_3 c i mn hmn mw hmw mb hmb mo hmo xn xw xb)]
  unfold kernelRun3_A
  dsimp only
  rw [View.canon_unit_zero hzero]
  simp only [View.readAt_eq_ld, hmn.read_unread, hmw.read_unread, hmb.read_unread,
    View.ld_unit_zero (S := S5000x256) hzero, View.ld_unit_zero (S := S256x256) hzero]

/-- The payload is relu(xn · xw + xb): its shape casts are to the same shapes. -/
theorem pay_eq (xn : Vec F S5000x256 .f32) (xw : Vec F S256x256 .f32) (xb : Vec F S5000x256 .f32) :
    k3_pay1 xn xw xb = maximumf (addf (matmul dot_S5000x256_S256x256_S5000x256_1_0_0_1_n_n none xn xw (constant S5000x256 .f32 0x00000000#32)) xb)
      (broadcast S5000x256 (Scalar.ofBits .f32 0x00000000#32)) := by
  unfold k3_pay1
  simp only [shapeCast_self]

end Piece

/-! ## The two products at an index: the sum over the contracted coordinate -/

theorem klhs_row (j : S5000x256.Idx) (k : dot_S5000x256_S256x256_S5000x256_1_0_0_1_n_n.contr.Idx) :
    (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem klhs_col (j : S5000x256.Idx) (k : dot_S5000x256_S256x256_S5000x256_1_0_0_1_n_n.contr.Idx) :
    (dot_S5000x256_S256x256_S5000x256_1_0_0_1_n_n.lhsIdx j k 1).val = (k ⟨0, by decide⟩).val :=
  dot_S5000x256_S256x256_S5000x256_1_0_0_1_n_n.lhsIdx_val_of_single rfl j k
theorem krhs_row (j : S5000x256.Idx) (k : dot_S5000x256_S256x256_S5000x256_1_0_0_1_n_n.contr.Idx) :
    (dot_S5000x256_S256x256_S5000x256_1_0_0_1_n_n.rhsIdx j k 0).val = (k ⟨0, by decide⟩).val :=
  dot_S5000x256_S256x256_S5000x256_1_0_0_1_n_n.rhsIdx_val_of_single rfl j k
theorem krhs_col (j : S5000x256.Idx) (k : dot_S5000x256_S256x256_S5000x256_1_0_0_1_n_n.contr.Idx) :
    (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The payload at block row p, column q: relu((Σ_k xn[p,k] · xw[k,q]) + xb[p,q]). -/
theorem pay_apply (xn : Vec Ideal S5000x256 .f32) (xw : Vec Ideal S256x256 .f32) (xb : Vec Ideal S5000x256 .f32)
    (p : Fin 5000) (q : Fin 256) :
    k3_pay1 (F := Ideal) xn xw xb (ix2 p q) = max ((∑ k : Fin 256, xn (ix2 p k) * xw (ix2 k q)) + xb (ix2 p q)) 0 := by
  have hm : FloatOps.matmul (F := Ideal) (φ₁ := .f32) (φ₂ := .f32) dot_S5000x256_S256x256_S5000x256_1_0_0_1_n_n none xn xw (constant (F := Ideal) S5000x256 .f32 0x00000000#32) (ix2 p q)
      = ∑ k : Fin 256, xn (ix2 p k) * xw (ix2 k q) := by
    rw [Ideal.matmul_constant_zero_apply, ← Equiv.sum_comp (contrEquiv1 dot_S5000x256_S256x256_S5000x256_1_0_0_1_n_n 256 rfl rfl).symm]
    refine Finset.sum_congr rfl fun k _ => ?_
    have hk := contrEquiv1_symm_val dot_S5000x256_S256x256_S5000x256_1_0_0_1_n_n 256 rfl rfl k
    have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
      match a with
      | ⟨0, _⟩ => exact klhs_row _ _
      | ⟨1, _⟩ => exact (klhs_col _ _).trans hk)
    have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
      match a with
      | ⟨0, _⟩ => exact (krhs_row _ _).trans hk
      | ⟨1, _⟩ => exact krhs_col _ _)
    rw [el, er]
  rw [pay_eq]
  show max (FloatOps.matmul (F := Ideal) (φ₁ := .f32) (φ₂ := .f32) dot_S5000x256_S256x256_S5000x256_1_0_0_1_n_n none xn xw (constant (F := Ideal) S5000x256 .f32 0x00000000#32) (ix2 p q) + xb (ix2 p q))
    (Ideal.ofBits .f32 0x00000000#32) = _
  rw [hm, Ideal.ofBits_zero_f32]

theorem rlhs_row (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 0).val = (j 0).val := by
  unfold DotDims.lhsIdx
  rw [dif_neg (show ¬(0 : Fin S100000x256.rank) ∈ Cert.ReferenceIdeal.dot_S100000x256_S256x256_S100000x256_1_0_0_1_n_n.lhsBatch by decide), dif_pos (show (0 : Fin S100000x256.rank) ∈ Cert.ReferenceIdeal.dot_S100000x256_S256x256_S100000x256_1_0_0_1_n_n.lhsNonContracting by decide)]
  rfl
theorem rlhs_col (j : S100000x256.Idx) (k : Cert.ReferenceIdeal.dot_S100000x256_S256x256_S100000x256_1_0_0_1_n_n.contr.Idx) :
    (Cert.ReferenceIdeal.dot_S100000x256_S256x256_S100000x256_1_0_0_1_n_n.lhsIdx j k 1).val = (k ⟨0, by decide⟩).val :=
  Cert.ReferenceIdeal.dot_S100000x256_S256x256_S100000x256_1_0_0_1_n_n.lhsIdx_val_of_single rfl j k
theorem rrhs_row (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 0).val = (k ⟨0, by decide⟩).val :=
  Cert.ReferenceIdeal.dot_S100000x256_S256x256_S100000x256_1_0_0_1_n_n.rhsIdx_val_of_single rfl j k
theorem rrhs_col (j : S100000x256.Idx) (k : Cert.ReferenceIdeal.dot_S100000x256_S256x256_S100000x256_1_0_0_1_n_n.contr.Idx) :
    (Cert.ReferenceIdeal.dot_S100000x256_S256x256_S100000x256_1_0_0_1_n_n.rhsIdx j k 1).val = (j 1).val := by
  unfold DotDims.rhsIdx
  rw [dif_neg (show ¬(1 : Fin S256x256.rank) ∈ Cert.ReferenceIdeal.dot_S100000x256_S256x256_S100000x256_1_0_0_1_n_n.rhsBatch by decide), dif_pos (show (1 : Fin S256x256.rank) ∈ Cert.ReferenceIdeal.dot_S100000x256_S256x256_S100000x256_1_0_0_1_n_n.rhsNonContracting by decide)]
  rfl

/-- The new bond message at row r, column q: relu(bias[r,q] + Σ_k nei[r,k] · W[k,q]). -/
theorem ref_apply (bias nei : FVec Ideal S100000x256 .f32) (W : FVec Ideal S256x256 .f32) (r : Fin 100000) (q : Fin 256) :
    reluBonds (addf bias (Host.dotGeneral (F := Ideal) (φ₁ := .f32) (φ₂ := .f32) Cert.ReferenceIdeal.dot_S100000x256_S256x256_S100000x256_1_0_0_1_n_n none nei W)) (ix2 r q)
      = max (bias (ix2 r q) + ∑ k : Fin 256, nei (ix2 r k) * W (ix2 k q)) 0 := by
  have hd : FloatOps.dotGeneral (F := Ideal) (φ₁ := .f32) (φ₂ := .f32) Cert.ReferenceIdeal.dot_S100000x256_S256x256_S100000x256_1_0_0_1_n_n none .single nei W (ix2 r q)
      = ∑ k : Fin 256, nei (ix2 r k) * W (ix2 k q) := by
    rw [Ideal.dotGeneral_apply, ← Equiv.sum_comp (contrEquiv1 Cert.ReferenceIdeal.dot_S100000x256_S256x256_S100000x256_1_0_0_1_n_n 256 rfl rfl).symm]
    refine Finset.sum_congr rfl fun k _ => ?_
    have hk := contrEquiv1_symm_val Cert.ReferenceIdeal.dot_S100000x256_S256x256_S100000x256_1_0_0_1_n_n 256 rfl rfl k
    have el : Cert.ReferenceIdeal.dot_S100000x256_S256x256_S100000x256_1_0_0_1_n_n.lhsIdx (ix2 r q) ((contrEquiv1 Cert.ReferenceIdeal.dot_S100000x256_S256x256_S100000x256_1_0_0_1_n_n 256 rfl rfl).symm k) = ix2 r k := funext fun a => Fin.ext (by
      match a with
      | ⟨0, _⟩ => exact rlhs_row _ _
      | ⟨1, _⟩ => exact (rlhs_col _ _).trans hk)
    have er : Cert.ReferenceIdeal.dot_S100000x256_S256x256_S100000x256_1_0_0_1_n_n.rhsIdx (ix2 r q) ((contrEquiv1 Cert.ReferenceIdeal.dot_S100000x256_S256x256_S100000x256_1_0_0_1_n_n 256 rfl rfl).symm k) = ix2 k q := funext fun a => Fin.ext (by
      match a with
      | ⟨0, _⟩ => exact (rrhs_row _ _).trans hk
      | ⟨1, _⟩ => exact rrhs_col _ _)
    rw [el, er]
  have hb : broadcastInDim Cert.ReferenceIdeal.S100000x256 ![] Cert.ReferenceIdeal.Facts₀.bcast_S_S100000x256
      (constant (F := Ideal) Cert.ReferenceIdeal.S_ .f32 0x00000000#32) (ix2 r q) = 0 := by
    rw [broadcastInDim_apply ![] Cert.ReferenceIdeal.Facts₀.bcast_S_S100000x256 _ (ix2 r q) ix0 (fun a => a.elim0)]
    show Ideal.ofBits .f32 0x00000000#32 = 0
    exact Ideal.ofBits_zero_f32
  unfold reluBonds
  show max (bias (ix2 r q) + FloatOps.dotGeneral (F := Ideal) (φ₁ := .f32) (φ₂ := .f32) Cert.ReferenceIdeal.dot_S100000x256_S256x256_S100000x256_1_0_0_1_n_n none .single nei W (ix2 r q))
    (broadcastInDim Cert.ReferenceIdeal.S100000x256 ![] Cert.ReferenceIdeal.Facts₀.bcast_S_S100000x256
      (constant (F := Ideal) Cert.ReferenceIdeal.S_ .f32 0x00000000#32) (ix2 r q)) = _
  rw [hd, hb]

/-! ## The table at an index: tree rows first, bond rows after -/

/-- Below row 10000 the table reads the tree messages. -/
theorem table_left (tree : FVec Ideal S10000x256 .f32) (g : FVec Ideal S100000x256 .f32) (j : S110000x256.Idx)
    (r : Fin 10000) (q : Fin 256) (hr : (j 0).val = r.val) (hq : (j 1).val = q.val) :
    table tree g j = tree (ix2 r q) := by
  unfold table
  exact concatenate_pair_apply_left (0 : Fin 2) tree g _ j rfl (ix2 r q) (fun b => match b with
    | ⟨0, _⟩ => hr.symm
    | ⟨1, _⟩ => hq.symm)

/-- From row 10000 on it reads the bond messages, 10000 rows up. -/
theorem table_right (tree : FVec Ideal S10000x256 .f32) (g : FVec Ideal S100000x256 .f32) (j : S110000x256.Idx)
    (r : Fin 100000) (q : Fin 256) (hr : (j 0).val = 10000 + r.val) (hq : (j 1).val = q.val) :
    table tree g j = g (ix2 r q) := by
  unfold table
  exact concatenate_pair_apply_right (0 : Fin 2) tree g _ j rfl rfl (ix2 r q) (fun b hb => match b, hb with
    | ⟨0, _⟩, hb => absurd rfl hb
    | ⟨1, _⟩, _ => hq.symm) (by show r.val + 10000 = (j 0).val; omega)

/-! ## The windows' blocks in their arrays -/

/-- The printed index maps over the grid: point t reads block row t of the neighbour sums and of the bias, the whole
    weight matrix, and writes block row t + 2 of the table. -/
theorem idx_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val + 2 ∧ win3_3.index t (1 : Fin 2) = 0 :=
  (by decide +kernel : ∀ t : Fin grid3.N, _)

/-- The bond row that point t's block row p is. -/
abbrev bondRow (t : Fin cfg3.N) (p : Fin 5000) : Fin 100000 :=
  ⟨5000 * t.val + p.val, by have ht := t.isLt; have hN : cfg3.N = 20 := N_3; have hp := p.isLt; omega⟩

section Blocks
variable (V : (c : Dev nD) → (b : Ref sig .tc) → Buf (Elt Ideal) ((c : Thread nD τ).loc b)) (c : Dev nD)

/-- The three input arrays as the region finds them, and their blocks at point t, at their literal types. -/
abbrev neiArr : FVec Ideal S100000x256 .f32 := V c (Pipeline.arrRef spec3 0)
abbrev wArr : FVec Ideal S256x256 .f32 := V c (Pipeline.arrRef spec3 1)
abbrev biasArr : FVec Ideal S100000x256 .f32 := V c (Pipeline.arrRef spec3 2)
abbrev neiBlk (t : Fin cfg3.N) : Vec Ideal S5000x256 .f32 := iblk3 (F := Ideal) V c 0 t
abbrev wBlk (t : Fin cfg3.N) : Vec Ideal S256x256 .f32 := iblk3 (F := Ideal) V c 1 t
abbrev biasBlk (t : Fin cfg3.N) : Vec Ideal S5000x256 .f32 := iblk3 (F := Ideal) V c 2 t

/-- Point t's block of the neighbour sums at row p, column k is the array at bond row 5000 t + p. -/
theorem neiBlk_apply (t : Fin cfg3.N) (p : Fin 5000) (k : Fin 256) :
    neiBlk V c t (ix2 p k) = neiArr V c (ix2 (bondRow t p) k) := by
  obtain ⟨erow, ecol, -⟩ := idx_maps t
  show neiArr V c (((cfg3.win 0).blk t).view.emb (ix2 p k)) = _
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 256 + 1 * k.val = k.val; omega

/-- Every point's block of the weights is the whole matrix. -/
theorem wBlk_apply (t : Fin cfg3.N) (k : Fin 256) (q : Fin 256) :
    wBlk V c t (ix2 k q) = wArr V c (ix2 k q) := by
  obtain ⟨-, -, erow, ecol, -⟩ := idx_maps t
  show wArr V c (((cfg3.win 1).blk t).view.emb (ix2 k q)) = _
  refine congrArg _ (funext fun a => Fin.ext ?_)
  match a with
  | ⟨0, _⟩ => show win3_1.index t (0 : Fin 2) * 256 + 1 * k.val = k.val; omega
  | ⟨1, _⟩ => show win3_1.index t (1 : Fin 2) * 256 + 1 * q.val = q.val; omega

/-- Point t's block of the bias at row p, column q is the array at bond row 5000 t + p. -/
theorem biasBlk_apply (t : Fin cfg3.N) (p : Fin 5000) (q : Fin 256) :
    biasBlk V c t (ix2 p q) = biasArr V c (ix2 (bondRow t p) q) := by
  obtain ⟨-, -, -, -, erow, ecol, -⟩ := idx_maps t
  show biasArr V c (((cfg3.win 2).blk t).view.emb (ix2 p q)) = _
  refine congrArg _ (funext fun a => Fin.ext ?_)
  match a with
  | ⟨0, _⟩ => show win3_2.index t (0 : Fin 2) * 5000 + 1 * p.val = 5000 * t.val + p.val; omega
  | ⟨1, _⟩ => show win3_2.index t (1 : Fin 2) * 256 + 1 * q.val = q.val; omega

/-- The new bond messages: relu(bias + nei · W) of the arrays as the region finds them. -/
abbrev newBonds : FVec Ideal S100000x256 .f32 :=
  reluBonds (addf (biasArr V c) (Host.dotGeneral (F := Ideal) (φ₁ := .f32) (φ₂ := .f32) Cert.ReferenceIdeal.dot_S100000x256_S256x256_S100000x256_1_0_0_1_n_n none
    (neiArr V c) (wArr V c)))

/-- What point t writes back is its block of the table that holds the new bond messages (over any tree rows: the
    block lies past them). -/
theorem flushed_eq (tree : FVec Ideal S10000x256 .f32) (t : Fin cfg3.N) :
    (dat3 (F := Ideal) V c).flushed 3 t = ((cfg3.win 3).blk t).view.read (Elt Ideal) (table tree (newBonds V c)) := by
  show (cfg3.win 3).cut (grid3.coords t) ((dat3 (F := Ideal) V c).after 3 t) = _
  rw [after3_3]
  unfold outsAt3
  rw [piece (F := Ideal) c (grid3.coords t) (ms3_0 t) (hs3_0 t) (ms3_1 t) (hs3_1 t) (ms3_2 t) (hs3_2 t) (ms3_3 t) (hs3_3 t)
    (iblk3 V c 0 t) (iblk3 V c 1 t) (iblk3 V c 2 t)]
  funext y
  obtain ⟨-, -, -, -, -, -, erow, ecol⟩ := idx_maps t
  have hp : (y 0).val < 5000 := (y 0).isLt
  have hq : (y 1).val < 256 := (y 1).isLt
  have hx : (cfg3.win 3).xinj (grid3.coords t) y = ix2 ⟨(y 0).val, hp⟩ ⟨(y 1).val, hq⟩ :=
    funext fun a => match a with
      | ⟨0, _⟩ => rfl
      | ⟨1, _⟩ => rfl
  have hrow : ((((cfg3.win 3).blk t).view.emb y) 0).val = 10000 + (bondRow t ⟨(y 0).val, hp⟩).val := by
    show win3_3.index t (0 : Fin 2) * 5000 + 1 * (y 0).val = 10000 + (5000 * t.val + (y 0).val); omega
  have hcol : ((((cfg3.win 3).blk t).view.emb y) 1).val = (y 1).val := by
    show win3_3.index t (1 : Fin 2) * 256 + 1 * (y 1).val = (y 1).val; omega
  have hsum : (∑ k : Fin 256, neiBlk V c t (ix2 ⟨(y 0).val, hp⟩ k) * wBlk V c t (ix2 k ⟨(y 1).val, hq⟩))
      = ∑ k : Fin 256, neiArr V c (ix2 (bondRow t ⟨(y 0).val, hp⟩) k) * wArr V c (ix2 k ⟨(y 1).val, hq⟩) :=
    Finset.sum_congr rfl fun k _ => by rw [neiBlk_apply V c t, wBlk_apply V c t]
  show k3_pay1 (F := Ideal) (neiBlk V c t) (wBlk V c t) (biasBlk V c t) ((cfg3.win 3).xinj (grid3.coords t) y)
    = table tree (newBonds V c) (((cfg3.win 3).blk t).view.emb y)
  rw [hx]
  refine (pay_apply (neiBlk V c t) (wBlk V c t) (biasBlk V c t) ⟨(y 0).val, hp⟩ ⟨(y 1).val, hq⟩).trans ?_
  refine Eq.trans ?_ (table_right tree (newBonds V c) (((cfg3.win 3).blk t).view.emb y)
    (bondRow t ⟨(y 0).val, hp⟩) ⟨(y 1).val, hq⟩ hrow hcol).symm
  refine Eq.trans ?_ (ref_apply (biasArr V c) (neiArr V c) (wArr V c) (bondRow t ⟨(y 0).val, hp⟩) ⟨(y 1).val, hq⟩).symm
  rw [hsum, biasBlk_apply V c t]
  exact congrArg (fun s => max s 0) (add_comm _ _)

end Blocks

/-- An index of the table is in point t's block iff each coordinate is in the block's range on its axis. -/
theorem mem_blk (t : Fin cfg3.N) (i : S110000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole (Pipeline.arrRef spec3 3)).slice (win3_3.rect t)).set ↔ _
  rw [View.set_slice_whole, Rect.mem_set_unit]
  exact Iff.rfl

/-- The rows some point's block covers: all from row 10000 on (row r lies in the block of point (r - 10000) / 5000). -/
theorem covered_iff (i : S110000x256.Idx) :
    (∃ t : Fin cfg3.N, (cfg3.win 3).flush t = true ∧ i ∈ ((cfg3.win 3).blk t).view.set) ↔ 10000 ≤ (i 0).val := by
  have hN : cfg3.N = 20 := N_3
  constructor
  · rintro ⟨t, -, hi⟩
    rw [mem_blk] at hi
    have hb : win3_3.index t (0 : Fin 2) * 5000 ≤ (i 0).val ∧ (i 0).val < win3_3.index t (0 : Fin 2) * 5000 + 5000 := hi 0
    obtain ⟨-, -, -, -, -, -, erow, ecol⟩ := idx_maps t
    omega
  · intro h
    have hrowlt : (i 0).val < 110000 := (i 0).isLt
    have hcollt : (i 1).val < 256 := (i 1).isLt
    obtain ⟨n, hn⟩ : ∃ n, n = ((i 0).val - 10000) / 5000 := ⟨_, rfl⟩
    have hlt : n < cfg3.N := by rw [hN]; omega
    have erow : win3_3.index ⟨n, hlt⟩ (0 : Fin 2) = n + 2 := (idx_maps ⟨n, hlt⟩).2.2.2.2.2.2.1
    have ecol : win3_3.index ⟨n, hlt⟩ (1 : Fin 2) = 0 := (idx_maps ⟨n, hlt⟩).2.2.2.2.2.2.2
    refine ⟨⟨n, hlt⟩, flush3_3 _, ?_⟩
    rw [mem_blk]
    intro a
    match a with
    | ⟨0, _⟩ => show win3_3.index ⟨n, hlt⟩ (0 : Fin 2) * 5000 ≤ (i 0).val ∧ (i 0).val < win3_3.index ⟨n, hlt⟩ (0 : Fin 2) * 5000 + 5000; omega
    | ⟨1, _⟩ => show win3_3.index ⟨n, hlt⟩ (1 : Fin 2) * 256 ≤ (i 1).val ∧ (i 1).val < win3_3.index ⟨n, hlt⟩ (1 : Fin 2) * 256 + 256; omega

end RoundThree

/-- The table after round region 3. -/
theorem region3_out (V : (c : Dev nD) → (b : Ref sig .tc) → Buf (Elt Ideal) ((c : Thread nD τ).loc b)) (c : Dev nD)
    (tree : FVec Ideal S10000x256 .f32) (g : FVec Ideal S100000x256 .f32)
    (hbuf : V c (Pipeline.arrRef spec3 3) = table tree g) :
    @Eq (FVec Ideal S110000x256 .f32) ((dat3 (F := Ideal) V c).arrAt 3 cfg3.N)
      (table tree (reluBonds (addf (V c (Pipeline.arrRef spec3 2) : FVec Ideal S100000x256 .f32)
          (Host.dotGeneral (F := Ideal) (φ₁ := .f32) (φ₂ := .f32) Cert.ReferenceIdeal.dot_S100000x256_S256x256_S100000x256_1_0_0_1_n_n none
            (V c (Pipeline.arrRef spec3 0) : FVec Ideal S100000x256 .f32) (V c (Pipeline.arrRef spec3 1) : FVec Ideal S256x256 .f32))))) := by
  funext i
  rw [(dat3 (F := Ideal) V c).arrAt_eq_piecewise 3 (table tree (RoundThree.newBonds V c)) (fun t _ => RoundThree.flushed_eq V c tree t) i, A_eq3, hbuf]
  have hq : (i 1).val < 256 := (i 1).isLt
  by_cases h : 10000 ≤ (i 0).val
  · exact if_pos ((RoundThree.covered_iff i).mpr h)
  · have hr : (i 0).val < 10000 := Nat.lt_of_not_le h
    rw [if_neg (mt (RoundThree.covered_iff i).mp h), RoundThree.table_left tree g i ⟨(i 0).val, hr⟩ ⟨(i 1).val, hq⟩ rfl rfl]
    exact (RoundThree.table_left tree _ i ⟨(i 0).val, hr⟩ ⟨(i 1).val, hq⟩ rfl rfl).symm

end Cert.Passing

end
-- ==== Proof.RegionAtoms.lean ====
/-
  The last region: relu(fatoms · Aᵀ + nei · Bᵀ + b) where A and B are the first 35 and the last 256 columns of W_o.
  The reference multiplies the concatenation [fatoms | nei] by W_oᵀ: a sum over 291 columns, which splits into the sum
  over the first 35 and the sum over the last 256.
-/
import proofs.«431449_j16389595201591_3_alg».proof.Proof.Passing
import proofs.«431449_j16389595201591_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.Passing

open Cert.KernelIdeal Cert.KernelIdeal.Gen
open Idealize.ShloMosaic.ValueIdx
open scoped BigOperators

namespace Atoms

/-! ## The kernel's two products at an entry -/

theorem lhs35_0 (i : S5000x256.Idx) (q : dot_S5000x35_S35x256_S5000x256_1_0_0_1_n_n.contr.Idx) :
    (dot_S5000x35_S35x256_S5000x256_1_0_0_1_n_n.lhsIdx i q 0).val = (i 0).val := by
  unfold DotDims.lhsIdx
  rw [dif_neg (show ¬(0 : Fin S5000x35.rank) ∈ dot_S5000x35_S35x256_S5000x256_1_0_0_1_n_n.lhsBatch by decide), dif_pos (show (0 : Fin S5000x35.rank) ∈ dot_S5000x35_S35x256_S5000x256_1_0_0_1_n_n.lhsNonContracting by decide)]
  rfl
theorem lhs35_1 (i : S5000x256.Idx) (q : dot_S5000x35_S35x256_S5000x256_1_0_0_1_n_n.contr.Idx) :
    (dot_S5000x35_S35x256_S5000x256_1_0_0_1_n_n.lhsIdx i q 1).val = (q ⟨0, by decide⟩).val :=
  dot_S5000x35_S35x256_S5000x256_1_0_0_1_n_n.lhsIdx_val_of_single rfl i q
theorem rhs35_0 (i : S5000x256.Idx) (q : dot_S5000x35_S35x256_S5000x256_1_0_0_1_n_n.contr.Idx) :
    (dot_S5000x35_S35x256_S5000x256_1_0_0_1_n_n.rhsIdx i q 0).val = (q ⟨0, by decide⟩).val :=
  dot_S5000x35_S35x256_S5000x256_1_0_0_1_n_n.rhsIdx_val_of_single rfl i q
theorem rhs35_1 (i : S5000x256.Idx) (q : dot_S5000x35_S35x256_S5000x256_1_0_0_1_n_n.contr.Idx) :
    (dot_S5000x35_S35x256_S5000x256_1_0_0_1_n_n.rhsIdx i q 1).val = (i 1).val := by
  unfold DotDims.rhsIdx
  rw [dif_neg (show ¬(1 : Fin S35x256.rank) ∈ dot_S5000x35_S35x256_S5000x256_1_0_0_1_n_n.rhsBatch by decide), dif_pos (show (1 : Fin S35x256.rank) ∈ dot_S5000x35_S35x256_S5000x256_1_0_0_1_n_n.rhsNonContracting by decide)]
  rfl

/-- The product of a block of atom features with the first weight window, at row `p` and column `q`:
    the sum over the 35 feature columns. -/
theorem matmul35_apply (x : FVec Ideal S5000x35 .f32) (y : FVec Ideal S35x256 .f32) (p : Fin 5000) (q : Fin 256) :
    matmul (F := Ideal) dot_S5000x35_S35x256_S5000x256_1_0_0_1_n_n none x y (constant S5000x256 .f32 0x00000000#32) (ix2 p q)
      = ∑ k : Fin 35, x (ix2 p k) * y (ix2 k q) := by
  simp only [matmul]
  rw [Ideal.matmul_constant_zero_apply, ← Equiv.sum_comp (contrEquiv1 dot_S5000x35_S35x256_S5000x256_1_0_0_1_n_n 35 rfl rfl).symm]
  refine Finset.sum_congr rfl fun k _ => ?_
  have hk := contrEquiv1_symm_val dot_S5000x35_S35x256_S5000x256_1_0_0_1_n_n 35 rfl rfl k
  have el : dot_S5000x35_S35x256_S5000x256_1_0_0_1_n_n.lhsIdx (ix2 p q) ((contrEquiv1 dot_S5000x35_S35x256_S5000x256_1_0_0_1_n_n 35 rfl rfl).symm k) = ix2 p k := funext fun a => Fin.ext (by
    match a with
    | ⟨0, _⟩ => exact lhs35_0 _ _
    | ⟨1, _⟩ => exact (lhs35_1 _ _).trans hk)
  have er : dot_S5000x35_S35x256_S5000x256_1_0_0_1_n_n.rhsIdx (ix2 p q) ((contrEquiv1 dot_S5000x35_S35x256_S5000x256_1_0_0_1_n_n 35 rfl rfl).symm k) = ix2 k q := funext fun a => Fin.ext (by
    match a with
    | ⟨0, _⟩ => exact (rhs35_0 _ _).trans hk
    | ⟨1, _⟩ => exact rhs35_1 _ _)
  rw [el, er]

theorem lhs256_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs256_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs256_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs256_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The product of a block of neighbour sums with the second weight window, at row `p` and column `q`:
    the sum over the 256 hidden columns. -/
theorem matmul256_apply (x : FVec Ideal S5000x256 .f32) (y : FVec Ideal S256x256 .f32) (p : Fin 5000) (q : Fin 256) :
    matmul (F := Ideal) dot_S5000x256_S256x256_S5000x256_1_0_0_1_n_n none x y (constant S5000x256 .f32 0x00000000#32) (ix2 p q)
      = ∑ k : Fin 256, x (ix2 p k) * y (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs256_0 _ _
    | ⟨1, _⟩ => exact (lhs256_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! ## The reference's one product at an entry -/

theorem lhs291_0 (i : Cert.ReferenceIdeal.S50000x256.Idx) (q : Cert.ReferenceIdeal.dot_S50000x291_S291x256_S50000x256_1_0_0_1_n_n.contr.Idx) :
    (Cert.ReferenceIdeal.dot_S50000x291_S291x256_S50000x256_1_0_0_1_n_n.lhsIdx i q 0).val = (i 0).val := by
  unfold DotDims.lhsIdx
  rw [dif_neg (show ¬(0 : Fin Cert.ReferenceIdeal.S50000x291.rank) ∈ Cert.ReferenceIdeal.dot_S50000x291_S291x256_S50000x256_1_0_0_1_n_n.lhsBatch by decide), dif_pos (show (0 : Fin Cert.ReferenceIdeal.S50000x291.rank) ∈ Cert.ReferenceIdeal.dot_S50000x291_S291x256_S50000x256_1_0_0_1_n_n.lhsNonContracting by decide)]
  rfl
theorem lhs291_1 (i : Cert.ReferenceIdeal.S50000x256.Idx) (q : Cert.ReferenceIdeal.dot_S50000x291_S291x256_S50000x256_1_0_0_1_n_n.contr.Idx) :
    (Cert.ReferenceIdeal.dot_S50000x291_S291x256_S50000x256_1_0_0_1_n_n.lhsIdx i q 1).val = (q ⟨0, by decide⟩).val :=
  Cert.ReferenceIdeal.dot_S50000x291_S291x256_S50000x256_1_0_0_1_n_n.lhsIdx_val_of_single rfl i q
theorem rhs291_0 (i : Cert.ReferenceIdeal.S50000x256.Idx) (q : Cert.ReferenceIdeal.dot_S50000x291_S291x256_S50000x256_1_0_0_1_n_n.contr.Idx) :
    (Cert.ReferenceIdeal.dot_S50000x291_S291x256_S50000x256_1_0_0_1_n_n.rhsIdx i q 0).val = (q ⟨0, by decide⟩).val :=
  Cert.ReferenceIdeal.dot_S50000x291_S291x256_S50000x256_1_0_0_1_n_n.rhsIdx_val_of_single rfl i q
theorem rhs291_1 (i : Cert.ReferenceIdeal.S50000x256.Idx) (q : Cert.ReferenceIdeal.dot_S50000x291_S291x256_S50000x256_1_0_0_1_n_n.contr.Idx) :
    (Cert.ReferenceIdeal.dot_S50000x291_S291x256_S50000x256_1_0_0_1_n_n.rhsIdx i q 1).val = (i 1).val := by
  unfold DotDims.rhsIdx
  rw [dif_neg (show ¬(1 : Fin Cert.ReferenceIdeal.S291x256.rank) ∈ Cert.ReferenceIdeal.dot_S50000x291_S291x256_S50000x256_1_0_0_1_n_n.rhsBatch by decide), dif_pos (show (1 : Fin Cert.ReferenceIdeal.S291x256.rank) ∈ Cert.ReferenceIdeal.dot_S50000x291_S291x256_S50000x256_1_0_0_1_n_n.rhsNonContracting by decide)]
  rfl

/-- The reference's product of the joined rows with the transposed weights, at row `r` and column `q`:
    the sum over all 291 columns. -/
theorem dot291_apply (x : FVec Ideal Cert.ReferenceIdeal.S50000x291 .f32) (y : FVec Ideal Cert.ReferenceIdeal.S291x256 .f32)
    (r : Fin 50000) (q : Fin 256) :
    Host.dotGeneral (F := Ideal) Cert.ReferenceIdeal.dot_S50000x291_S291x256_S50000x256_1_0_0_1_n_n none x y (ix2 r q) = ∑ k : Fin 291, x (ix2 r k) * y (ix2 k q) := by
  simp only [Host.dotGeneral]
  rw [Ideal.dotGeneral_apply, ← Equiv.sum_comp (contrEquiv1 Cert.ReferenceIdeal.dot_S50000x291_S291x256_S50000x256_1_0_0_1_n_n 291 rfl rfl).symm]
  refine Finset.sum_congr rfl fun k _ => ?_
  have hk := contrEquiv1_symm_val Cert.ReferenceIdeal.dot_S50000x291_S291x256_S50000x256_1_0_0_1_n_n 291 rfl rfl k
  have el : Cert.ReferenceIdeal.dot_S50000x291_S291x256_S50000x256_1_0_0_1_n_n.lhsIdx (ix2 r q) ((contrEquiv1 Cert.ReferenceIdeal.dot_S50000x291_S291x256_S50000x256_1_0_0_1_n_n 291 rfl rfl).symm k) = ix2 r k := funext fun a => Fin.ext (by
    match a with
    | ⟨0, _⟩ => exact lhs291_0 _ _
    | ⟨1, _⟩ => exact (lhs291_1 _ _).trans hk)
  have er : Cert.ReferenceIdeal.dot_S50000x291_S291x256_S50000x256_1_0_0_1_n_n.rhsIdx (ix2 r q) ((contrEquiv1 Cert.ReferenceIdeal.dot_S50000x291_S291x256_S50000x256_1_0_0_1_n_n 291 rfl rfl).symm k) = ix2 k q := funext fun a => Fin.ext (by
    match a with
    | ⟨0, _⟩ => exact (rhs291_0 _ _).trans hk
    | ⟨1, _⟩ => exact rhs291_1 _ _)
  rw [el, er]

/-! ## The kernel's stored value at an entry -/

/-- The stored value as one term of the five loaded blocks. -/
theorem pay_eq (x0 : FVec Ideal S5000x35 .f32) (x2 : FVec Ideal S35x256 .f32) (x1 : FVec Ideal S5000x256 .f32)
    (x3 : FVec Ideal S256x256 .f32) (x4 : FVec Ideal S1x256 .f32) :
    k4_pay1 (F := Ideal) x0 x2 x1 x3 x4
      = maximumf (addf (addf
            (matmul (F := Ideal) dot_S5000x35_S35x256_S5000x256_1_0_0_1_n_n none x0 (shapeCast S35x256 x2 shapeCasts_S35x256_S35x256) (constant S5000x256 .f32 0x00000000#32))
            (matmul (F := Ideal) dot_S5000x256_S256x256_S5000x256_1_0_0_1_n_n none (shapeCast S5000x256 x1 shapeCasts_S5000x256_S5000x256)
              (shapeCast S256x256 x3 shapeCasts_S256x256_S256x256) (constant S5000x256 .f32 0x00000000#32)))
          (broadcastTo S5000x256 (shapeCast S1x256 x4 shapeCasts_S1x256_S1x256) broadcasts_S1x256_S5000x256))
        (broadcast S5000x256 (Scalar.ofBits (F := Ideal) .f32 0x00000000#32)) := rfl

/-- At row `p` and column `q` of a block the kernel stores
    max(Σ_{k<35} x0[p,k]·x2[k,q] + Σ_{k<256} x1[p,k]·x3[k,q] + x4[0,q], 0). -/
theorem pay_apply (x0 : FVec Ideal S5000x35 .f32) (x2 : FVec Ideal S35x256 .f32) (x1 : FVec Ideal S5000x256 .f32)
    (x3 : FVec Ideal S256x256 .f32) (x4 : FVec Ideal S1x256 .f32) (p : Fin 5000) (q : Fin 256) :
    k4_pay1 (F := Ideal) x0 x2 x1 x3 x4 (ix2 p q)
      = max ((∑ k : Fin 35, x0 (ix2 p k) * x2 (ix2 k q)) + (∑ k : Fin 256, x1 (ix2 p k) * x3 (ix2 k q)) + x4 (ix2 (0 : Fin 1) q))
          (Ideal.ofBits .f32 0x00000000#32) := by
  rw [pay_eq]
  simp only [shapeCast_self]
  rw [maximumf_apply, addf_apply, addf_apply, matmul35_apply, matmul256_apply, broadcastTo_1b_ab_apply]
  rfl

/-! ## The reference at an entry -/

/-- A sum over the 291 joined columns is the sum over the first 35 plus the sum over the last 256. -/
theorem sum_291_split {M : Type} [AddCommMonoid M] (f : Fin 291 → M) :
    ∑ k : Fin 291, f k = ∑ k : Fin 35, f ⟨k.val, by omega⟩ + ∑ k : Fin 256, f ⟨35 + k.val, by omega⟩ :=
  Fin.sum_univ_add (a := 35) (b := 256) f

/-- The joined row [fatoms | nei] at one of its first 35 columns is the atom feature there. -/
theorem joined_left (fa : FVec Ideal S50000x35 .f32) (nei : FVec Ideal S50000x256 .f32)
    (h : Shape.Concatenates [S50000x35, S50000x256] Cert.ReferenceIdeal.S50000x291 1) (r : Fin 50000) (k : Fin 35) (k' : Fin 291)
    (hk : k'.val = k.val) :
    concatenate Cert.ReferenceIdeal.S50000x291 1 [⟨S50000x35, fa⟩, ⟨S50000x256, nei⟩] h (ix2 r k') = fa (ix2 r k) :=
  concatenate_pair_apply_left 1 fa nei h (ix2 r k') rfl (ix2 r k) fun b => by
    match b with
    | ⟨0, _⟩ => rfl
    | ⟨1, _⟩ => exact hk.symm

/-- The joined row at one of its last 256 columns is the neighbour sum 35 columns to the left. -/
theorem joined_right (fa : FVec Ideal S50000x35 .f32) (nei : FVec Ideal S50000x256 .f32)
    (h : Shape.Concatenates [S50000x35, S50000x256] Cert.ReferenceIdeal.S50000x291 1) (r : Fin 50000) (k : Fin 256) (k' : Fin 291)
    (hk : k'.val = 35 + k.val) :
    concatenate Cert.ReferenceIdeal.S50000x291 1 [⟨S50000x35, fa⟩, ⟨S50000x256, nei⟩] h (ix2 r k') = nei (ix2 r k) :=
  concatenate_pair_apply_right 1 fa nei h (ix2 r k') rfl rfl (ix2 r k)
    (fun b hb => by
      match b with
      | ⟨0, _⟩ => rfl
      | ⟨1, _⟩ => exact absurd rfl hb)
    (by show k.val + 35 = k'.val; omega)

/-- The bias broadcast over the rows reads the bias at the column. -/
theorem bias_rows_apply (b : FVec Ideal S256 .f32) (h1 : S256.BroadcastsInDim S1x256 (![1] : Fin 1 → Fin S1x256.rank))
    (h2 : S1x256.BroadcastsInDim S50000x256 (![0, 1] : Fin 2 → Fin S50000x256.rank)) (r : Fin 50000) (q : Fin 256) :
    broadcastInDim S50000x256 ![0, 1] h2 (broadcastInDim S1x256 ![1] h1 b) (ix2 r q) = b (ix1 q) :=
  (broadcastInDim_apply _ h2 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans
  (broadcastInDim_apply _ h1 b (ix2 (0 : Fin 1) q) (ix1 q) (fun a => match a with
    | ⟨0, _⟩ => by show q.val = if (256 : Nat) = 1 then 0 else q.val; rw [if_neg (by decide)]))

/-- The zero of the final maximum, broadcast from a scalar, reads the same word everywhere. -/
theorem zero_rows_apply (h0 : S_.BroadcastsInDim S50000x256 (![] : Fin 0 → Fin S50000x256.rank)) (r : Fin 50000) (q : Fin 256) :
    broadcastInDim S50000x256 ![] h0 (constant (F := Ideal) S_ .f32 0x00000000#32) (ix2 r q) = Ideal.ofBits .f32 0x00000000#32 :=
  broadcastInDim_apply _ h0 _ (ix2 r q) ix0 (fun a => a.elim0)

/-- At row `r` and column `q` the reference holds
    max(Σ_{k<35} fatoms[r,k]·W_o[q,k] + Σ_{k<256} nei[r,k]·W_o[q,35+k] + b[q], 0):
    its sum over the 291 joined columns, split at column 35. -/
theorem ref_apply (fa : FVec Ideal S50000x35 .f32) (nei : FVec Ideal S50000x256 .f32) (wo : FVec Ideal S256x291 .f32)
    (b : FVec Ideal S256 .f32) (r : Fin 50000) (q : Fin 256) :
    atomHidden fa nei wo b (ix2 r q)
      = max ((∑ k : Fin 35, fa (ix2 r k) * wo (ix2 q (⟨k.val, by omega⟩ : Fin 291)))
            + (∑ k : Fin 256, nei (ix2 r k) * wo (ix2 q (⟨35 + k.val, by omega⟩ : Fin 291))) + b (ix1 q))
          (Ideal.ofBits .f32 0x00000000#32) := by
  unfold atomHidden
  rw [maximumf_apply, addf_apply, dot291_apply, sum_291_split, bias_rows_apply, zero_rows_apply]
  refine congrArg (fun s => max (s + b (ix1 q)) (Ideal.ofBits .f32 0x00000000#32)) ?_
  refine congrArg₂ (· + ·) (Finset.sum_congr rfl fun k _ => ?_) (Finset.sum_congr rfl fun k _ => ?_)
  · rw [joined_left fa nei _ r k _ rfl, transpose_ix2_apply]
  · rw [joined_right fa nei _ r k _ rfl, transpose_ix2_apply]

/-- One entry of a block against one entry of the reference: when the two row blocks hold row `r` of the atom features
    and of the neighbour sums, the two weight windows hold W_o's first 35 and last 256 columns transposed, and the
    bias window holds the bias as one row, the kernel's entry is the reference's: both are
    max(Σ_{k<35} fatoms[r,k]·W_o[q,k] + Σ_{k<256} nei[r,k]·W_o[q,35+k] + b[q], 0). -/
theorem entry_eq (x0 : FVec Ideal S5000x35 .f32) (x2 : FVec Ideal S35x256 .f32) (x1 : FVec Ideal S5000x256 .f32)
    (x3 : FVec Ideal S256x256 .f32) (x4 : FVec Ideal S1x256 .f32)
    (fa : FVec Ideal S50000x35 .f32) (nei : FVec Ideal S50000x256 .f32) (wo : FVec Ideal S256x291 .f32) (b : FVec Ideal S256 .f32)
    (p : Fin 5000) (q : Fin 256) (r : Fin 50000)
    (hx0 : ∀ k : Fin 35, x0 (ix2 p k) = fa (ix2 r k)) (hx1 : ∀ k : Fin 256, x1 (ix2 p k) = nei (ix2 r k))
    (hx2 : ∀ k : Fin 35, x2 (ix2 k q) = wo (ix2 q (⟨k.val, by omega⟩ : Fin 291)))
    (hx3 : ∀ k : Fin 256, x3 (ix2 k q) = wo (ix2 q (⟨35 + k.val, by omega⟩ : Fin 291)))
    (hx4 : x4 (ix2 (0 : Fin 1) q) = b (ix1 q)) :
    k4_pay1 (F := Ideal) x0 x2 x1 x3 x4 (ix2 p q) = atomHidden fa nei wo b (ix2 r q) := by
  rw [pay_apply, ref_apply, hx4]
  refine congrArg (fun s => max (s + b (ix1 q)) (Ideal.ofBits .f32 0x00000000#32)) ?_
  refine congrArg₂ (· + ·) (Finset.sum_congr rfl fun k _ => ?_) (Finset.sum_congr rfl fun k _ => ?_)
  · rw [hx0 k, hx2 k]
  · rw [hx1 k, hx3 k]

/-! ## From blocks to the array -/

theorem hz2 : (![0, 0] : Fin 2 → Nat) = fun _ => 0 := funext fun a => by fin_cases a <;> rfl

/-- The printed index maps over the ten grid points: the two row-blocked inputs and the output sit at block row `t`,
    block column 0; the two weight windows and the bias window at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem point_lt (t : Fin cfg4.N) : t.val < 10 := lt_of_lt_of_eq t.isLt N_4

section Blocks
variable (V : (c : Dev nD) → (b : Ref sig .tc) → Buf (Elt Ideal) ((c : Thread nD τ).loc b)) (c : Dev nD)

/-- The atom features' block at point `t` is rows 5000·t … 5000·t + 4999 of the array. -/
theorem fatoms_block (t : Fin cfg4.N) (p : Fin 5000) (k : Fin 35) (r : Fin 50000) (hr : r.val = t.val * 5000 + p.val) :
    (iblk4 V c 0 t : FVec Ideal S5000x35 .f32) (ix2 p k) = (V c (Pipeline.arrRef spec4 0) : FVec Ideal S50000x35 .f32) (ix2 r k) := by
  obtain ⟨e0, e1, -⟩ := idx_facts4 t
  unfold iblk4
  rw [View.read_apply]
  show (V c (Pipeline.arrRef spec4 0) : FVec Ideal S50000x35 .f32) _ = (V c (Pipeline.arrRef spec4 0) : FVec Ideal S50000x35 .f32) (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 35 + 1 * k.val = k.val; omega

/-- The neighbour sums' block at point `t` is the same rows of their array. -/
theorem nei_block (t : Fin cfg4.N) (p : Fin 5000) (k : Fin 256) (r : Fin 50000) (hr : r.val = t.val * 5000 + p.val) :
    (iblk4 V c 1 t : FVec Ideal S5000x256 .f32) (ix2 p k) = (V c (Pipeline.arrRef spec4 1) : FVec Ideal S50000x256 .f32) (ix2 r k) := by
  obtain ⟨-, -, e0, e1, -⟩ := idx_facts4 t
  unfold iblk4
  rw [View.read_apply]
  show (V c (Pipeline.arrRef spec4 1) : FVec Ideal S50000x256 .f32) _ = (V c (Pipeline.arrRef spec4 1) : FVec Ideal S50000x256 .f32) (ix2 r k)
  refine congrArg _ (funext fun a => Fin.ext ?_)
  match a with
  | ⟨0, _⟩ => show win4_1.index t (0 : Fin 2) * 5000 + 1 * p.val = r.val; omega
  | ⟨1, _⟩ => show win4_1.index t (1 : Fin 2) * 256 + 1 * k.val = k.val; omega

/-- The first weight window's block is its whole array at every point. -/
theorem wA_block (t : Fin cfg4.N) (k : Fin 35) (q : Fin 256) :
    (iblk4 V c 2 t : FVec Ideal S35x256 .f32) (ix2 k q) = (V c (Pipeline.arrRef spec4 2) : FVec Ideal S35x256 .f32) (ix2 k q) := by
  obtain ⟨-, -, -, -, e0, e1, -⟩ := idx_facts4 t
  unfold iblk4
  rw [View.read_apply]
  show (V c (Pipeline.arrRef spec4 2) : FVec Ideal S35x256 .f32) _ = (V c (Pipeline.arrRef spec4 2) : FVec Ideal S35x256 .f32) (ix2 k q)
  refine congrArg _ (funext fun a => Fin.ext ?_)
  match a with
  | ⟨0, _⟩ => show win4_2.index t (0 : Fin 2) * 35 + 1 * k.val = k.val; omega
  | ⟨1, _⟩ => show win4_2.index t (1 : Fin 2) * 256 + 1 * q.val = q.val; omega

/-- The second weight window's block is its whole array at every point. -/
theorem wB_block (t : Fin cfg4.N) (k : Fin 256) (q : Fin 256) :
    (iblk4 V c 3 t : FVec Ideal S256x256 .f32) (ix2 k q) = (V c (Pipeline.arrRef spec4 3) : FVec Ideal S256x256 .f32) (ix2 k q) := by
  obtain ⟨-, -, -, -, -, -, e0, e1, -⟩ := idx_facts4 t
  unfold iblk4
  rw [View.read_apply]
  show (V c (Pipeline.arrRef spec4 3) : FVec Ideal S256x256 .f32) _ = (V c (Pipeline.arrRef spec4 3) : FVec Ideal S256x256 .f32) (ix2 k q)
  refine congrArg _ (funext fun a => Fin.ext ?_)
  match a with
  | ⟨0, _⟩ => show win4_3.index t (0 : Fin 2) * 256 + 1 * k.val = k.val; omega
  | ⟨1, _⟩ => show win4_3.index t (1 : Fin 2) * 256 + 1 * q.val = q.val; omega

/-- The bias window's block is its one row at every point. -/
theorem bias_block (t : Fin cfg4.N) (q : Fin 256) :
    (iblk4 V c 4 t : FVec Ideal S1x256 .f32) (ix2 (0 : Fin 1) q) = (V c (Pipeline.arrRef spec4 4) : FVec Ideal S1x256 .f32) (ix2 (0 : Fin 1) q) := by
  obtain ⟨-, -, -, -, -, -, -, -, e0, e1, -⟩ := idx_facts4 t
  unfold iblk4
  rw [View.read_apply]
  show (V c (Pipeline.arrRef spec4 4) : FVec Ideal S1x256 .f32) _ = (V c (Pipeline.arrRef spec4 4) : FVec Ideal S1x256 .f32) (ix2 (0 : Fin 1) q)
  refine congrArg _ (funext fun a => Fin.ext ?_)
  match a with
  | ⟨0, _⟩ => show win4_4.index t (0 : Fin 2) * 1 + 1 * 0 = 0; omega
  | ⟨1, _⟩ => show win4_4.index t (1 : Fin 2) * 256 + 1 * q.val = q.val; omega

/-- An entry of the output's block at point `t` sits in the array at row 5000·t + p. -/
theorem out_block_emb (t : Fin cfg4.N) (p : Fin 5000) (q : Fin 256) (r : Fin 50000) (hr : r.val = t.val * 5000 + p.val) :
    (((cfg4.win 5).blk t).view.emb (ix2 p q) : S50000x256.Idx) = ix2 r q := by
  obtain ⟨-, -, -, -, -, -, -, -, -, -, e0, e1⟩ := idx_facts4 t
  refine funext fun a => Fin.ext ?_
  match a with
  | ⟨0, _⟩ => show win4_5.index t (0 : Fin 2) * 5000 + 1 * p.val = r.val; omega
  | ⟨1, _⟩ => show win4_5.index t (1 : Fin 2) * 256 + 1 * q.val = q.val; omega

end Blocks

/-! ## The three small windows read through their host definitions -/

/-- The first weight window, W_o's columns 0 … 34 transposed, at (k, q) is W_o at (q, k). -/
theorem wA_apply (wo : FVec Ideal S256x291 .f32) (hs : S256x291.Slices ![0, 0] S256x35) (ht : S256x35.Transposes [1, 0] S35x256)
    (k : Fin 35) (q : Fin 256) :
    transpose S35x256 [1, 0] (extractStridedSlice S256x35 ![0, 0] wo hs) ht (ix2 k q) = wo (ix2 q (⟨k.val, by omega⟩ : Fin 291)) :=
  (transpose_ix2_apply _ ht k q).trans (slice2_axis1_apply 0 wo hs q k _ (Nat.zero_add _).symm)

/-- The second weight window, W_o's columns 35 … 290 transposed, at (k, q) is W_o at (q, 35 + k). -/
theorem wB_apply (wo : FVec Ideal S256x291 .f32) (hs : S256x291.Slices ![0, 35] S256x256) (ht : S256x256.Transposes [1, 0] S256x256)
    (k : Fin 256) (q : Fin 256) :
    transpose S256x256 [1, 0] (extractStridedSlice S256x256 ![0, 35] wo hs) ht (ix2 k q) = wo (ix2 q (⟨35 + k.val, by omega⟩ : Fin 291)) :=
  (transpose_ix2_apply _ ht k q).trans (slice2_axis1_apply 35 wo hs q k _ rfl)

section Array
variable (V : (c : Dev nD) → (b : Ref sig .tc) → Buf (Elt Ideal) ((c : Thread nD τ).loc b)) (c : Dev nD)
  (wo : FVec Ideal S256x291 .f32) (b : FVec Ideal S256 .f32)

/-- What point `t` writes back is block `t` of the atom hidden states. -/
theorem flushed4_eq
    (h2 : V c (Pipeline.arrRef spec4 2)
      = transpose S35x256 [1, 0] (extractStridedSlice S256x35 ![0, 0] wo slices_S256x291_S256x35_0_0) transposes_S256x35_S35x256_1_0)
    (h3 : V c (Pipeline.arrRef spec4 3)
      = transpose S256x256 [1, 0] (extractStridedSlice S256x256 ![0, 35] wo slices_S256x291_S256x256_0_35) transposes_S256x256_S256x256_1_0)
    (h4 : V c (Pipeline.arrRef spec4 4) = shapeCast S1x256 b shapeCasts_S256_S1x256) (t : Fin cfg4.N) :
    (dat4 (F := Ideal) V c).flushed 5 t
      = ((cfg4.win 5).blk t).view.read (Elt Ideal)
          (atomHidden (V c (Pipeline.arrRef spec4 0) : FVec Ideal S50000x35 .f32) (V c (Pipeline.arrRef spec4 1) : FVec Ideal S50000x256 .f32) wo b) := by
  show (cfg4.win 5).cut (grid4.coords t) ((dat4 (F := Ideal) V c).after 5 t) = _
  rw [after4_5]
  unfold out4_5
  rw [View.canon_unit_zero hz2]
  simp only [View.ld_unit_zero (S := S5000x35) hz2, View.ld_unit_zero (S := S35x256) hz2, View.ld_unit_zero (S := S5000x256) hz2,
    View.ld_unit_zero (S := S256x256) hz2, View.ld_unit_zero (S := S1x256) hz2]
  have key : ∀ j : S5000x256.Idx,
      k4_pay1 (F := Ideal) (iblk4 V c 0 t) (iblk4 V c 2 t) (iblk4 V c 1 t) (iblk4 V c 3 t) (iblk4 V c 4 t) j
        = atomHidden (V c (Pipeline.arrRef spec4 0) : FVec Ideal S50000x35 .f32) (V c (Pipeline.arrRef spec4 1) : FVec Ideal S50000x256 .f32) wo b
            (((cfg4.win 5).blk t).view.emb j) := by
    intro j
    obtain ⟨p, q, rfl⟩ : ∃ (p : Fin 5000) (q : Fin 256), j = ix2 p q := ⟨j 0, j 1, eq_ix2 j⟩
    have ht := point_lt t
    have hr : (⟨t.val * 5000 + p.val, by omega⟩ : Fin 50000).val = t.val * 5000 + p.val := rfl
    rw [out_block_emb t p q ⟨t.val * 5000 + p.val, by omega⟩ hr]
    exact entry_eq (iblk4 V c 0 t) (iblk4 V c 2 t) (iblk4 V c 1 t) (iblk4 V c 3 t) (iblk4 V c 4 t) _ _ wo b p q _
      (fun k => fatoms_block V c t p k _ hr) (fun k => nei_block V c t p k _ hr)
      (fun k => (wA_block V c t k q).trans ((congrFun h2 (ix2 k q)).trans (wA_apply wo _ _ k q)))
      (fun k => (wB_block V c t k q).trans ((congrFun h3 (ix2 k q)).trans (wB_apply wo _ _ k q)))
      ((bias_block V c t q).trans ((congrFun h4 (ix2 (0 : Fin 1) q)).trans (shapeCast_a_1a_apply b _ 0 q)))
  funext j
  exact key j

end Array

/-! ## The ten blocks cover the array -/

/-- An entry of the array lies in point `t`'s block iff each coordinate is in the block's range on its axis. -/
theorem mem_blk4 (t : Fin cfg4.N) (i : S50000x256.Idx) :
    i ∈ ((cfg4.win 5).blk t).view.set ↔ ∀ a : Fin 2, win4_5.index t a * S5000x256.size a ≤ (i a).val ∧ (i a).val < win4_5.index t a * S5000x256.size a + S5000x256.size a := by
  show i ∈ ((View.whole main_call0_v428).slice (win4_5.rect t)).set ↔ _
  rw [View.set_slice_whole, Rect.mem_set_unit]
  exact Iff.rfl

/-- Row `r` of the array lies in the block of point r / 5000, and every point writes its block back. -/
theorem cover4 (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  obtain ⟨t, ht⟩ : ∃ t : Fin cfg4.N, t.val = (i 0).val / 5000 :=
    ⟨⟨(i 0).val / 5000, lt_of_lt_of_eq (by omega : (i 0).val / 5000 < 10) N_4.symm⟩, rfl⟩
  obtain ⟨-, -, -, -, -, -, -, -, -, -, e0, e1⟩ := idx_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 256 ≤ (i 1).val ∧ (i 1).val < win4_5.index t (1 : Fin 2) * 256 + 256; omega

end Atoms

open Atoms in
/-- The atom hidden states the last region leaves, when its weight windows hold the two transposed column blocks of W_o
    and its bias window the bias as one row. -/
theorem region4_out (V : (c : Dev nD) → (b : Ref sig .tc) → Buf (Elt Ideal) ((c : Thread nD τ).loc b)) (c : Dev nD)
    (wo : FVec Ideal S256x291 .f32) (b : FVec Ideal S256 .f32)
    (h2 : V c (Pipeline.arrRef spec4 2)
      = transpose S35x256 [1, 0] (extractStridedSlice S256x35 ![0, 0] wo slices_S256x291_S256x35_0_0) transposes_S256x35_S35x256_1_0)
    (h3 : V c (Pipeline.arrRef spec4 3)
      = transpose S256x256 [1, 0] (extractStridedSlice S256x256 ![0, 35] wo slices_S256x291_S256x256_0_35) transposes_S256x256_S256x256_1_0)
    (h4 : V c (Pipeline.arrRef spec4 4) = shapeCast S1x256 b shapeCasts_S256_S1x256) :
    ((dat4 (F := Ideal) V c).arrAt 5 cfg4.N : FVec Ideal S50000x256 .f32)
      = atomHidden (V c (Pipeline.arrRef spec4 0) : FVec Ideal S50000x35 .f32) (V c (Pipeline.arrRef spec4 1) : FVec Ideal S50000x256 .f32) wo b := by
  exact (dat4 (F := Ideal) V c).arrAt_eq_of_cover 5 _ (fun t _ => flushed4_eq V c wo b h2 h3 h4 t) cover4

end Cert.Passing

end
-- ==== Proof.KernelValue.lean ====
/-
  The idealized kernel's two results as stages of the vocabulary.

  The run leaves each result buffer at the fold of the six host stretches and the five regions' write-backs over the
  launch memory.  Reading that fold stage by stage: the first region leaves the bond input and its relu; each of the next
  three stretches forms the neighbour sum of the current table (ten row gathers added in order, which is the sum over the
  neighbour axis) and each round region overwrites the table's bond rows with relu(bondInput + nei · W_hᵀ), the tree rows
  untouched; the fifth stretch takes the pair means through the shifted table and the atoms' neighbour sum; the last
  region forms the atom hidden states and the last stretch their means over each molecule.
-/
import proofs.«431449_j16389595201591_3_alg».proof.Proof.Passing
import proofs.«431449_j16389595201591_3_alg».proof.Proof.GatherRows
import proofs.«431449_j16389595201591_3_alg».proof.Proof.PairRows
import proofs.«431449_j16389595201591_3_alg».proof.Proof.RegionBond
import proofs.«431449_j16389595201591_3_alg».proof.Proof.RegionRound1
import proofs.«431449_j16389595201591_3_alg».proof.Proof.RegionRound2
import proofs.«431449_j16389595201591_3_alg».proof.Proof.RegionRound3
import proofs.«431449_j16389595201591_3_alg».proof.Proof.RegionAtoms
import proofs.«431449_j16389595201591_3_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.Passing

open Cert.KernelIdeal Cert.KernelIdeal.Gen

variable (m : (ℓ : Loc nD τ sig) → Buf (Elt Ideal) ℓ) (ρ : Dev nD → PrngReg) (c : Dev nD)

/-! ## The neighbour chain in two halves

The host code adds the ten columns' rows one after the other; the first five additions and the last five are read
separately, so that no single reading walks more than half a stretch. -/

/-- Zero, then columns 0 … 4 of the bonds' neighbour lists. -/
def chainBondsLo (M : FVec Ideal S110000x256 .f32) (idx : IVec S100000x10 32) : FVec Ideal S100000x256 .f32 :=
  (addf (addf (addf (addf (addf (broadcastInDim S100000x256 ![] bcast_S_S100000x256 (constant S_ .f32 0x00000000#32))
      (pickBonds M (extractStridedSlice S100000x1 ![0, 0] idx slices_S100000x10_S100000x1_0_0)))
      (pickBonds M (extractStridedSlice S100000x1 ![0, 1] idx slices_S100000x10_S100000x1_0_1)))
      (pickBonds M (extractStridedSlice S100000x1 ![0, 2] idx slices_S100000x10_S100000x1_0_2)))
      (pickBonds M (extractStridedSlice S100000x1 ![0, 3] idx slices_S100000x10_S100000x1_0_3)))
      (pickBonds M (extractStridedSlice S100000x1 ![0, 4] idx slices_S100000x10_S100000x1_0_4)))

/-- Columns 5 … 9 added to what the first half left. -/
def chainBondsHi (acc : FVec Ideal S100000x256 .f32) (M : FVec Ideal S110000x256 .f32) (idx : IVec S100000x10 32) :
    FVec Ideal S100000x256 .f32 :=
  (addf (addf (addf (addf (addf acc
      (pickBonds M (extractStridedSlice S100000x1 ![0, 5] idx slices_S100000x10_S100000x1_0_5)))
      (pickBonds M (extractStridedSlice S100000x1 ![0, 6] idx slices_S100000x10_S100000x1_0_6)))
      (pickBonds M (extractStridedSlice S100000x1 ![0, 7] idx slices_S100000x10_S100000x1_0_7)))
      (pickBonds M (extractStridedSlice S100000x1 ![0, 8] idx slices_S100000x10_S100000x1_0_8)))
      (pickBonds M (extractStridedSlice S100000x1 ![0, 9] idx slices_S100000x10_S100000x1_0_9)))

theorem chainBonds_halves (M : FVec Ideal S110000x256 .f32) (idx : IVec S100000x10 32) :
    chainBonds M idx = chainBondsHi (chainBondsLo M idx) M idx := rfl

/-- Zero, then columns 0 … 4 of the atoms' neighbour lists. -/
def chainAtomsLo (M : FVec Ideal S110000x256 .f32) (idx : IVec S50000x10 32) : FVec Ideal S50000x256 .f32 :=
  (addf (addf (addf (addf (addf (broadcastInDim S50000x256 ![] bcast_S_S50000x256 (constant S_ .f32 0x00000000#32))
      (pickAtoms M (extractStridedSlice S50000x1 ![0, 0] idx slices_S50000x10_S50000x1_0_0)))
      (pickAtoms M (extractStridedSlice S50000x1 ![0, 1] idx slices_S50000x10_S50000x1_0_1)))
      (pickAtoms M (extractStridedSlice S50000x1 ![0, 2] idx slices_S50000x10_S50000x1_0_2)))
      (pickAtoms M (extractStridedSlice S50000x1 ![0, 3] idx slices_S50000x10_S50000x1_0_3)))
      (pickAtoms M (extractStridedSlice S50000x1 ![0, 4] idx slices_S50000x10_S50000x1_0_4)))

/-- Columns 5 … 9 added to what the first half left. -/
def chainAtomsHi (acc : FVec Ideal S50000x256 .f32) (M : FVec Ideal S110000x256 .f32) (idx : IVec S50000x10 32) :
    FVec Ideal S50000x256 .f32 :=
  (addf (addf (addf (addf (addf acc
      (pickAtoms M (extractStridedSlice S50000x1 ![0, 5] idx slices_S50000x10_S50000x1_0_5)))
      (pickAtoms M (extractStridedSlice S50000x1 ![0, 6] idx slices_S50000x10_S50000x1_0_6)))
      (pickAtoms M (extractStridedSlice S50000x1 ![0, 7] idx slices_S50000x10_S50000x1_0_7)))
      (pickAtoms M (extractStridedSlice S50000x1 ![0, 8] idx slices_S50000x10_S50000x1_0_8)))
      (pickAtoms M (extractStridedSlice S50000x1 ![0, 9] idx slices_S50000x10_S50000x1_0_9)))

theorem chainAtoms_halves (M : FVec Ideal S110000x256 .f32) (idx : IVec S50000x10 32) :
    chainAtoms M idx = chainAtomsHi (chainAtomsLo M idx) M idx := rfl

/-- Contents carried to a buffer's own type and back are the contents. -/
theorem ofBuf_toBuf {T : BufTy} (x : StableHlo.TRef sig T) (v : T.Contents (Elt Ideal)) : x.ofBuf (x.toBuf v) = v := by
  obtain ⟨r, h, h2, h3⟩ := x
  subst h
  rfl

/-- Open the vocabulary's stage definitions, so that both sides of a reading are spelt in the printed operations. -/
macro "unfold_defs" : tactic =>
  `(tactic| simp only [chainBondsLo, chainBondsHi, chainAtomsLo, chainAtomsHi, pickBonds, pickAtoms, table, pairRowsShifted, pairMeanOf, molMean])

/-- A stretch of host operations run in two parts. -/
theorem after_halves (n : Nat) (ops : List (HloOp τ sig (Elt Ideal))) (V : Valuation τ sig (Elt Ideal)) :
    StableHlo.after ops V = StableHlo.after (List.drop n ops) (StableHlo.after (List.take n ops) V) := by
  rw [← StableHlo.after_append, List.take_append_drop]

/-! ## The second host stretch (before the first round) -/

set_option maxHeartbeats 8000000 in
theorem s1_lo (V : Valuation τ sig (Elt Ideal)) :
    StableHlo.after (List.take 63 (hostOps1 (F := Ideal))) V (Proc.devRef .tc main_call0_v58)
      = chainBondsLo (table (V (Proc.devRef .tc main_arg2)) (V (Proc.devRef .tc main_call0_v6_1))) (V (Proc.devRef .tc main_arg4)) := by
  simp only [hostOps1, List.take_succ_cons, List.take_zero]
  after_results_simp
  try simp only [ofBuf_toBuf]
  try unfold_defs
  rfl

set_option maxHeartbeats 8000000 in
theorem s1_lo_table (V : Valuation τ sig (Elt Ideal)) :
    StableHlo.after (List.take 63 (hostOps1 (F := Ideal))) V (Proc.devRef .tc main_call0_v7)
      = table (V (Proc.devRef .tc main_arg2)) (V (Proc.devRef .tc main_call0_v6_1)) := by
  simp only [hostOps1, List.take_succ_cons, List.take_zero]
  after_results_simp
  try simp only [ofBuf_toBuf]
  try unfold_defs
  rfl

set_option maxHeartbeats 8000000 in
theorem s1_lo_idx (V : Valuation τ sig (Elt Ideal)) :
    StableHlo.after (List.take 63 (hostOps1 (F := Ideal))) V (Proc.devRef .tc main_arg4) = V (Proc.devRef .tc main_arg4) := by
  simp only [hostOps1, List.take_succ_cons, List.take_zero]
  after_results_simp

set_option maxHeartbeats 8000000 in
theorem s1_hi (U : Valuation τ sig (Elt Ideal)) :
    StableHlo.after (List.drop 63 (hostOps1 (F := Ideal))) U (Proc.devRef .tc main_call0_v108)
      = chainBondsHi (U (Proc.devRef .tc main_call0_v58)) (U (Proc.devRef .tc main_call0_v7)) (U (Proc.devRef .tc main_arg4)) := by
  simp only [hostOps1, List.drop_succ_cons, List.drop_zero]
  after_results_simp
  try simp only [ofBuf_toBuf]
  try unfold_defs
  rfl

set_option maxHeartbeats 8000000 in
theorem s1_hi_buf (U : Valuation τ sig (Elt Ideal)) :
    StableHlo.after (List.drop 63 (hostOps1 (F := Ideal))) U (Proc.devRef .tc main_call0_v109) = U (Proc.devRef .tc main_call0_v7) := by
  simp only [hostOps1, List.drop_succ_cons, List.drop_zero]
  after_results_simp
  try simp only [ofBuf_toBuf]
  try unfold_defs
  rfl

/-- What the first round region finds as its neighbour sum and as its table. -/
theorem s1_nei (V : Valuation τ sig (Elt Ideal)) :
    StableHlo.after (hostOps1 (F := Ideal)) V (Proc.devRef .tc main_call0_v108)
      = chainBonds (table (V (Proc.devRef .tc main_arg2)) (V (Proc.devRef .tc main_call0_v6_1))) (V (Proc.devRef .tc main_arg4)) := by
  rw [after_halves 63, s1_hi, s1_lo, s1_lo_table, s1_lo_idx, chainBonds_halves]

theorem s1_buf (V : Valuation τ sig (Elt Ideal)) :
    StableHlo.after (hostOps1 (F := Ideal)) V (Proc.devRef .tc main_call0_v109)
      = table (V (Proc.devRef .tc main_arg2)) (V (Proc.devRef .tc main_call0_v6_1)) := by
  rw [after_halves 63, s1_hi_buf, s1_lo_table]

/-! ## The third host stretch (before the second round) -/

set_option maxHeartbeats 8000000 in
theorem s2_lo (V : Valuation τ sig (Elt Ideal)) :
    StableHlo.after (List.take 62 (hostOps2 (F := Ideal))) V (Proc.devRef .tc main_call0_v160)
      = chainBondsLo (V (Proc.devRef .tc main_call0_v109)) (V (Proc.devRef .tc main_arg4)) := by
  simp only [hostOps2, List.take_succ_cons, List.take_zero]
  after_results_simp
  try simp only [ofBuf_toBuf]
  try unfold_defs
  rfl

set_option maxHeartbeats 8000000 in
theorem s2_lo_table (V : Valuation τ sig (Elt Ideal)) :
    StableHlo.after (List.take 62 (hostOps2 (F := Ideal))) V (Proc.devRef .tc main_call0_v109)
      = V (Proc.devRef .tc main_call0_v109) := by
  simp only [hostOps2, List.take_succ_cons, List.take_zero]
  after_results_simp

set_option maxHeartbeats 8000000 in
theorem s2_lo_idx (V : Valuation τ sig (Elt Ideal)) :
    StableHlo.after (List.take 62 (hostOps2 (F := Ideal))) V (Proc.devRef .tc main_arg4)
      = V (Proc.devRef .tc main_arg4) := by
  simp only [hostOps2, List.take_succ_cons, List.take_zero]
  after_results_simp

set_option maxHeartbeats 8000000 in
theorem s2_hi (U : Valuation τ sig (Elt Ideal)) :
    StableHlo.after (List.drop 62 (hostOps2 (F := Ideal))) U (Proc.devRef .tc main_call0_v210)
      = chainBondsHi (U (Proc.devRef .tc main_call0_v160)) (U (Proc.devRef .tc main_call0_v109)) (U (Proc.devRef .tc main_arg4)) := by
  simp only [hostOps2, List.drop_succ_cons, List.drop_zero]
  after_results_simp
  try simp only [ofBuf_toBuf]
  try unfold_defs
  rfl

set_option maxHeartbeats 8000000 in
theorem s2_hi_buf (U : Valuation τ sig (Elt Ideal)) :
    StableHlo.after (List.drop 62 (hostOps2 (F := Ideal))) U (Proc.devRef .tc main_call0_v211)
      = U (Proc.devRef .tc main_call0_v109) := by
  simp only [hostOps2, List.drop_succ_cons, List.drop_zero]
  after_results_simp
  try simp only [ofBuf_toBuf]
  try unfold_defs
  rfl

/-- What the round region after this stretch finds as its neighbour sum and as its table. -/
theorem s2_nei (V : Valuation τ sig (Elt Ideal)) :
    StableHlo.after (hostOps2 (F := Ideal)) V (Proc.devRef .tc main_call0_v210) = chainBonds (V (Proc.devRef .tc main_call0_v109)) (V (Proc.devRef .tc main_arg4)) := by
  rw [after_halves 62, s2_hi, s2_lo, s2_lo_table, s2_lo_idx, chainBonds_halves]

theorem s2_buf (V : Valuation τ sig (Elt Ideal)) :
    StableHlo.after (hostOps2 (F := Ideal)) V (Proc.devRef .tc main_call0_v211) = V (Proc.devRef .tc main_call0_v109) := by
  rw [after_halves 62, s2_hi_buf, s2_lo_table]

/-! ## The fourth host stretch (before the third round) -/

set_option maxHeartbeats 8000000 in
theorem s3_lo (V : Valuation τ sig (Elt Ideal)) :
    StableHlo.after (List.take 62 (hostOps3 (F := Ideal))) V (Proc.devRef .tc main_call0_v262)
      = chainBondsLo (V (Proc.devRef .tc main_call0_v211)) (V (Proc.devRef .tc main_arg4)) := by
  simp only [hostOps3, List.take_succ_cons, List.take_zero]
  after_results_simp
  try simp only [ofBuf_toBuf]
  try unfold_defs
  rfl

set_option maxHeartbeats 8000000 in
theorem s3_lo_table (V : Valuation τ sig (Elt Ideal)) :
    StableHlo.after (List.take 62 (hostOps3 (F := Ideal))) V (Proc.devRef .tc main_call0_v211)
      = V (Proc.devRef .tc main_call0_v211) := by
  simp only [hostOps3, List.take_succ_cons, List.take_zero]
  after_results_simp

set_option maxHeartbeats 8000000 in
theorem s3_lo_idx (V : Valuation τ sig (Elt Ideal)) :
    StableHlo.after (List.take 62 (hostOps3 (F := Ideal))) V (Proc.devRef .tc main_arg4)
      = V (Proc.devRef .tc main_arg4) := by
  simp only [hostOps3, List.take_succ_cons, List.take_zero]
  after_results_simp

set_option maxHeartbeats 8000000 in
theorem s3_hi (U : Valuation τ sig (Elt Ideal)) :
    StableHlo.after (List.drop 62 (hostOps3 (F := Ideal))) U (Proc.devRef .tc main_call0_v312)
      = chainBondsHi (U (Proc.devRef .tc main_call0_v262)) (U (Proc.devRef .tc main_call0_v211)) (U (Proc.devRef .tc main_arg4)) := by
  simp only [hostOps3, List.drop_succ_cons, List.drop_zero]
  after_results_simp
  try simp only [ofBuf_toBuf]
  try unfold_defs
  rfl

set_option maxHeartbeats 8000000 in
theorem s3_hi_buf (U : Valuation τ sig (Elt Ideal)) :
    StableHlo.after (List.drop 62 (hostOps3 (F := Ideal))) U (Proc.devRef .tc main_call0_v313)
      = U (Proc.devRef .tc main_call0_v211) := by
  simp only [hostOps3, List.drop_succ_cons, List.drop_zero]
  after_results_simp
  try simp only [ofBuf_toBuf]
  try unfold_defs
  rfl

/-- What the round region after this stretch finds as its neighbour sum and as its table. -/
theorem s3_nei (V : Valuation τ sig (Elt Ideal)) :
    StableHlo.after (hostOps3 (F := Ideal)) V (Proc.devRef .tc main_call0_v312) = chainBonds (V (Proc.devRef .tc main_call0_v211)) (V (Proc.devRef .tc main_arg4)) := by
  rw [after_halves 62, s3_hi, s3_lo, s3_lo_table, s3_lo_idx, chainBonds_halves]

theorem s3_buf (V : Valuation τ sig (Elt Ideal)) :
    StableHlo.after (hostOps3 (F := Ideal)) V (Proc.devRef .tc main_call0_v313) = V (Proc.devRef .tc main_call0_v211) := by
  rw [after_halves 62, s3_hi_buf, s3_lo_table]

/-! ## The fifth host stretch (the pair means, the atoms' neighbour sum, the bias as one row) -/

set_option maxHeartbeats 8000000 in
theorem s4_pairs_lo (V : Valuation τ sig (Elt Ideal)) :
    StableHlo.after (List.take 79 (hostOps4 (F := Ideal))) V (Proc.devRef .tc main_v0_1)
      = pairMeanOf (pairRowsShifted (V (Proc.devRef .tc main_call0_v313)) (V (Proc.devRef .tc main_arg5))) := by
  simp only [hostOps4, List.take_succ_cons, List.take_zero]
  after_results_simp
  try simp only [ofBuf_toBuf]
  try unfold_defs
  rfl

set_option maxHeartbeats 8000000 in
theorem s4_lo (V : Valuation τ sig (Elt Ideal)) :
    StableHlo.after (List.take 79 (hostOps4 (F := Ideal))) V (Proc.devRef .tc main_call0_v376)
      = chainAtomsLo (V (Proc.devRef .tc main_call0_v313)) (V (Proc.devRef .tc main_arg3)) := by
  simp only [hostOps4, List.take_succ_cons, List.take_zero]
  after_results_simp
  try simp only [ofBuf_toBuf]
  try unfold_defs
  rfl

set_option maxHeartbeats 8000000 in
theorem s4_lo_table (V : Valuation τ sig (Elt Ideal)) :
    StableHlo.after (List.take 79 (hostOps4 (F := Ideal))) V (Proc.devRef .tc main_call0_v313)
      = V (Proc.devRef .tc main_call0_v313) := by
  simp only [hostOps4, List.take_succ_cons, List.take_zero]
  after_results_simp

set_option maxHeartbeats 8000000 in
theorem s4_lo_idx (V : Valuation τ sig (Elt Ideal)) :
    StableHlo.after (List.take 79 (hostOps4 (F := Ideal))) V (Proc.devRef .tc main_arg3)
      = V (Proc.devRef .tc main_arg3) := by
  simp only [hostOps4, List.take_succ_cons, List.take_zero]
  after_results_simp

set_option maxHeartbeats 8000000 in
theorem s4_lo_bias (V : Valuation τ sig (Elt Ideal)) :
    StableHlo.after (List.take 79 (hostOps4 (F := Ideal))) V (Proc.devRef .tc main_arg9)
      = V (Proc.devRef .tc main_arg9) := by
  simp only [hostOps4, List.take_succ_cons, List.take_zero]
  after_results_simp

set_option maxHeartbeats 8000000 in
theorem s4_hi (U : Valuation τ sig (Elt Ideal)) :
    StableHlo.after (List.drop 79 (hostOps4 (F := Ideal))) U (Proc.devRef .tc main_call0_v426)
      = chainAtomsHi (U (Proc.devRef .tc main_call0_v376)) (U (Proc.devRef .tc main_call0_v313)) (U (Proc.devRef .tc main_arg3)) := by
  simp only [hostOps4, List.drop_succ_cons, List.drop_zero]
  after_results_simp
  try simp only [ofBuf_toBuf]
  try unfold_defs
  rfl

set_option maxHeartbeats 8000000 in
theorem s4_hi_pairs (U : Valuation τ sig (Elt Ideal)) :
    StableHlo.after (List.drop 79 (hostOps4 (F := Ideal))) U (Proc.devRef .tc main_v0_1)
      = U (Proc.devRef .tc main_v0_1) := by
  simp only [hostOps4, List.drop_succ_cons, List.drop_zero]
  after_results_simp

set_option maxHeartbeats 8000000 in
theorem s4_hi_bias (U : Valuation τ sig (Elt Ideal)) :
    StableHlo.after (List.drop 79 (hostOps4 (F := Ideal))) U (Proc.devRef .tc main_call0_v427)
      = shapeCast S1x256 (U (Proc.devRef .tc main_arg9)) shapeCasts_S256_S1x256 := by
  simp only [hostOps4, List.drop_succ_cons, List.drop_zero]
  after_results_simp
  try simp only [ofBuf_toBuf]
  try unfold_defs
  rfl

theorem s4_pairs (V : Valuation τ sig (Elt Ideal)) :
    StableHlo.after (hostOps4 (F := Ideal)) V (Proc.devRef .tc main_v0_1)
      = pairMeanOf (pairRowsShifted (V (Proc.devRef .tc main_call0_v313)) (V (Proc.devRef .tc main_arg5))) := by
  rw [after_halves 79, s4_hi_pairs, s4_pairs_lo]

theorem s4_nei (V : Valuation τ sig (Elt Ideal)) :
    StableHlo.after (hostOps4 (F := Ideal)) V (Proc.devRef .tc main_call0_v426) = chainAtoms (V (Proc.devRef .tc main_call0_v313)) (V (Proc.devRef .tc main_arg3)) := by
  rw [after_halves 79, s4_hi, s4_lo, s4_lo_table, s4_lo_idx, chainAtoms_halves]

theorem s4_bias (V : Valuation τ sig (Elt Ideal)) :
    StableHlo.after (hostOps4 (F := Ideal)) V (Proc.devRef .tc main_call0_v427) = shapeCast S1x256 (V (Proc.devRef .tc main_arg9)) shapeCasts_S256_S1x256 := by
  rw [after_halves 79, s4_hi_bias, s4_lo_bias]

/-! ## What rides unchanged from the first region's exit to the last region's entry

Five arguments, the three transposed weight blocks and the bond input are written by nothing after the first region:
each boundary's contents hold them at the same values. -/

/-- The buffers later stages read, at their values. -/
structure Kept (m : (ℓ : Loc nD τ sig) → Buf (Elt Ideal) ℓ) (c : Dev nD) (W : Valuation τ sig (Elt Ideal)) : Prop where
  a0 : W (Proc.devRef .tc main_arg0) = (m ((c : Thread nD τ).loc main_arg0))
  a3 : W (Proc.devRef .tc main_arg3) = (m ((c : Thread nD τ).loc main_arg3))
  a4 : W (Proc.devRef .tc main_arg4) = (m ((c : Thread nD τ).loc main_arg4))
  a5 : W (Proc.devRef .tc main_arg5) = (m ((c : Thread nD τ).loc main_arg5))
  a9 : W (Proc.devRef .tc main_arg9) = (m ((c : Thread nD τ).loc main_arg9))
  wh : W (Proc.devRef .tc main_call0_v1) = (transpose S256x256 [1, 0] (m ((c : Thread nD τ).loc main_arg7)) transposes_S256x256_S256x256_1_0)
  woa : W (Proc.devRef .tc main_call0_v3) = (transpose S35x256 [1, 0] (extractStridedSlice S256x35 ![0, 0] (m ((c : Thread nD τ).loc main_arg8)) slices_S256x291_S256x35_0_0) transposes_S256x35_S35x256_1_0)
  won : W (Proc.devRef .tc main_call0_v5) = (transpose S256x256 [1, 0] (extractStridedSlice S256x256 ![0, 35] (m ((c : Thread nD τ).loc main_arg8)) slices_S256x291_S256x256_0_35) transposes_S256x256_S256x256_1_0)
  binp : W (Proc.devRef .tc main_call0_v6_0) = (bondInput (m ((c : Thread nD τ).loc main_arg1)) (m ((c : Thread nD τ).loc main_arg6)))

/-- A buffer no operation of a host stretch writes keeps its contents (the stretch's written buffers listed by `simp`, each
    told apart from the buffer by deciding the two references different). -/
macro "keep_host" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

set_option maxHeartbeats 8000000 in
theorem kept3 (h : Kept m c (W2 (F := Ideal) m ρ c)) : Kept m c (W3 (F := Ideal) m ρ c) where
  a0 := (show StableHlo.after (hostOps1 (F := Ideal)) (W2 m ρ c) (Proc.devRef .tc main_arg0) = W2 m ρ c (Proc.devRef .tc main_arg0) by keep_host hostOps1).trans h.a0
  a3 := (show StableHlo.after (hostOps1 (F := Ideal)) (W2 m ρ c) (Proc.devRef .tc main_arg3) = W2 m ρ c (Proc.devRef .tc main_arg3) by keep_host hostOps1).trans h.a3
  a4 := (show StableHlo.after (hostOps1 (F := Ideal)) (W2 m ρ c) (Proc.devRef .tc main_arg4) = W2 m ρ c (Proc.devRef .tc main_arg4) by keep_host hostOps1).trans h.a4
  a5 := (show StableHlo.after (hostOps1 (F := Ideal)) (W2 m ρ c) (Proc.devRef .tc main_arg5) = W2 m ρ c (Proc.devRef .tc main_arg5) by keep_host hostOps1).trans h.a5
  a9 := (show StableHlo.after (hostOps1 (F := Ideal)) (W2 m ρ c) (Proc.devRef .tc main_arg9) = W2 m ρ c (Proc.devRef .tc main_arg9) by keep_host hostOps1).trans h.a9
  wh := (show StableHlo.after (hostOps1 (F := Ideal)) (W2 m ρ c) (Proc.devRef .tc main_call0_v1) = W2 m ρ c (Proc.devRef .tc main_call0_v1) by keep_host hostOps1).trans h.wh
  woa := (show StableHlo.after (hostOps1 (F := Ideal)) (W2 m ρ c) (Proc.devRef .tc main_call0_v3) = W2 m ρ c (Proc.devRef .tc main_call0_v3) by keep_host hostOps1).trans h.woa
  won := (show StableHlo.after (hostOps1 (F := Ideal)) (W2 m ρ c) (Proc.devRef .tc main_call0_v5) = W2 m ρ c (Proc.devRef .tc main_call0_v5) by keep_host hostOps1).trans h.won
  binp := (show StableHlo.after (hostOps1 (F := Ideal)) (W2 m ρ c) (Proc.devRef .tc main_call0_v6_0) = W2 m ρ c (Proc.devRef .tc main_call0_v6_0) by keep_host hostOps1).trans h.binp

theorem kept4 (h : Kept m c (W3 (F := Ideal) m ρ c)) : Kept m c (W4 (F := Ideal) m ρ c) where
  a0 := (W4_of_ne m ρ c main_arg0 (by decide)).trans h.a0
  a3 := (W4_of_ne m ρ c main_arg3 (by decide)).trans h.a3
  a4 := (W4_of_ne m ρ c main_arg4 (by decide)).trans h.a4
  a5 := (W4_of_ne m ρ c main_arg5 (by decide)).trans h.a5
  a9 := (W4_of_ne m ρ c main_arg9 (by decide)).trans h.a9
  wh := ((W4_arr m ρ c 1).trans (((dat1 (V3 m ρ) c).arrAt_in 1 rfl _).trans (A_eq1 (V3 m ρ) c 1))).trans h.wh
  woa := (W4_of_ne m ρ c main_call0_v3 (by decide)).trans h.woa
  won := (W4_of_ne m ρ c main_call0_v5 (by decide)).trans h.won
  binp := ((W4_arr m ρ c 2).trans (((dat1 (V3 m ρ) c).arrAt_in 2 rfl _).trans (A_eq1 (V3 m ρ) c 2))).trans h.binp

set_option maxHeartbeats 8000000 in
theorem kept5 (h : Kept m c (W4 (F := Ideal) m ρ c)) : Kept m c (W5 (F := Ideal) m ρ c) where
  a0 := (show StableHlo.after (hostOps2 (F := Ideal)) (W4 m ρ c) (Proc.devRef .tc main_arg0) = W4 m ρ c (Proc.devRef .tc main_arg0) by keep_host hostOps2).trans h.a0
  a3 := (show StableHlo.after (hostOps2 (F := Ideal)) (W4 m ρ c) (Proc.devRef .tc main_arg3) = W4 m ρ c (Proc.devRef .tc main_arg3) by keep_host hostOps2).trans h.a3
  a4 := (show StableHlo.after (hostOps2 (F := Ideal)) (W4 m ρ c) (Proc.devRef .tc main_arg4) = W4 m ρ c (Proc.devRef .tc main_arg4) by keep_host hostOps2).trans h.a4
  a5 := (show StableHlo.after (hostOps2 (F := Ideal)) (W4 m ρ c) (Proc.devRef .tc main_arg5) = W4 m ρ c (Proc.devRef .tc main_arg5) by keep_host hostOps2).trans h.a5
  a9 := (show StableHlo.after (hostOps2 (F := Ideal)) (W4 m ρ c) (Proc.devRef .tc main_arg9) = W4 m ρ c (Proc.devRef .tc main_arg9) by keep_host hostOps2).trans h.a9
  wh := (show StableHlo.after (hostOps2 (F := Ideal)) (W4 m ρ c) (Proc.devRef .tc main_call0_v1) = W4 m ρ c (Proc.devRef .tc main_call0_v1) by keep_host hostOps2).trans h.wh
  woa := (show StableHlo.after (hostOps2 (F := Ideal)) (W4 m ρ c) (Proc.devRef .tc main_call0_v3) = W4 m ρ c (Proc.devRef .tc main_call0_v3) by keep_host hostOps2).trans h.woa
  won := (show StableHlo.after (hostOps2 (F := Ideal)) (W4 m ρ c) (Proc.devRef .tc main_call0_v5) = W4 m ρ c (Proc.devRef .tc main_call0_v5) by keep_host hostOps2).trans h.won
  binp := (show StableHlo.after (hostOps2 (F := Ideal)) (W4 m ρ c) (Proc.devRef .tc main_call0_v6_0) = W4 m ρ c (Proc.devRef .tc main_call0_v6_0) by keep_host hostOps2).trans h.binp

theorem kept6 (h : Kept m c (W5 (F := Ideal) m ρ c)) : Kept m c (W6 (F := Ideal) m ρ c) where
  a0 := (W6_of_ne m ρ c main_arg0 (by decide)).trans h.a0
  a3 := (W6_of_ne m ρ c main_arg3 (by decide)).trans h.a3
  a4 := (W6_of_ne m ρ c main_arg4 (by decide)).trans h.a4
  a5 := (W6_of_ne m ρ c main_arg5 (by decide)).trans h.a5
  a9 := (W6_of_ne m ρ c main_arg9 (by decide)).trans h.a9
  wh := ((W6_arr m ρ c 1).trans (((dat2 (V5 m ρ) c).arrAt_in 1 rfl _).trans (A_eq2 (V5 m ρ) c 1))).trans h.wh
  woa := (W6_of_ne m ρ c main_call0_v3 (by decide)).trans h.woa
  won := (W6_of_ne m ρ c main_call0_v5 (by decide)).trans h.won
  binp := ((W6_arr m ρ c 2).trans (((dat2 (V5 m ρ) c).arrAt_in 2 rfl _).trans (A_eq2 (V5 m ρ) c 2))).trans h.binp

set_option maxHeartbeats 8000000 in
theorem kept7 (h : Kept m c (W6 (F := Ideal) m ρ c)) : Kept m c (W7 (F := Ideal) m ρ c) where
  a0 := (show StableHlo.after (hostOps3 (F := Ideal)) (W6 m ρ c) (Proc.devRef .tc main_arg0) = W6 m ρ c (Proc.devRef .tc main_arg0) by keep_host hostOps3).trans h.a0
  a3 := (show StableHlo.after (hostOps3 (F := Ideal)) (W6 m ρ c) (Proc.devRef .tc main_arg3) = W6 m ρ c (Proc.devRef .tc main_arg3) by keep_host hostOps3).trans h.a3
  a4 := (show StableHlo.after (hostOps3 (F := Ideal)) (W6 m ρ c) (Proc.devRef .tc main_arg4) = W6 m ρ c (Proc.devRef .tc main_arg4) by keep_host hostOps3).trans h.a4
  a5 := (show StableHlo.after (hostOps3 (F := Ideal)) (W6 m ρ c) (Proc.devRef .tc main_arg5) = W6 m ρ c (Proc.devRef .tc main_arg5) by keep_host hostOps3).trans h.a5
  a9 := (show StableHlo.after (hostOps3 (F := Ideal)) (W6 m ρ c) (Proc.devRef .tc main_arg9) = W6 m ρ c (Proc.devRef .tc main_arg9) by keep_host hostOps3).trans h.a9
  wh := (show StableHlo.after (hostOps3 (F := Ideal)) (W6 m ρ c) (Proc.devRef .tc main_call0_v1) = W6 m ρ c (Proc.devRef .tc main_call0_v1) by keep_host hostOps3).trans h.wh
  woa := (show StableHlo.after (hostOps3 (F := Ideal)) (W6 m ρ c) (Proc.devRef .tc main_call0_v3) = W6 m ρ c (Proc.devRef .tc main_call0_v3) by keep_host hostOps3).trans h.woa
  won := (show StableHlo.after (hostOps3 (F := Ideal)) (W6 m ρ c) (Proc.devRef .tc main_call0_v5) = W6 m ρ c (Proc.devRef .tc main_call0_v5) by keep_host hostOps3).trans h.won
  binp := (show StableHlo.after (hostOps3 (F := Ideal)) (W6 m ρ c) (Proc.devRef .tc main_call0_v6_0) = W6 m ρ c (Proc.devRef .tc main_call0_v6_0) by keep_host hostOps3).trans h.binp

theorem kept8 (h : Kept m c (W7 (F := Ideal) m ρ c)) : Kept m c (W8 (F := Ideal) m ρ c) where
  a0 := (W8_of_ne m ρ c main_arg0 (by decide)).trans h.a0
  a3 := (W8_of_ne m ρ c main_arg3 (by decide)).trans h.a3
  a4 := (W8_of_ne m ρ c main_arg4 (by decide)).trans h.a4
  a5 := (W8_of_ne m ρ c main_arg5 (by decide)).trans h.a5
  a9 := (W8_of_ne m ρ c main_arg9 (by decide)).trans h.a9
  wh := ((W8_arr m ρ c 1).trans (((dat3 (V7 m ρ) c).arrAt_in 1 rfl _).trans (A_eq3 (V7 m ρ) c 1))).trans h.wh
  woa := (W8_of_ne m ρ c main_call0_v3 (by decide)).trans h.woa
  won := (W8_of_ne m ρ c main_call0_v5 (by decide)).trans h.won
  binp := ((W8_arr m ρ c 2).trans (((dat3 (V7 m ρ) c).arrAt_in 2 rfl _).trans (A_eq3 (V7 m ρ) c 2))).trans h.binp

set_option maxHeartbeats 8000000 in
theorem kept9 (h : Kept m c (W8 (F := Ideal) m ρ c)) : Kept m c (W9 (F := Ideal) m ρ c) where
  a0 := (show StableHlo.after (hostOps4 (F := Ideal)) (W8 m ρ c) (Proc.devRef .tc main_arg0) = W8 m ρ c (Proc.devRef .tc main_arg0) by keep_host hostOps4).trans h.a0
  a3 := (show StableHlo.after (hostOps4 (F := Ideal)) (W8 m ρ c) (Proc.devRef .tc main_arg3) = W8 m ρ c (Proc.devRef .tc main_arg3) by keep_host hostOps4).trans h.a3
  a4 := (show StableHlo.after (hostOps4 (F := Ideal)) (W8 m ρ c) (Proc.devRef .tc main_arg4) = W8 m ρ c (Proc.devRef .tc main_arg4) by keep_host hostOps4).trans h.a4
  a5 := (show StableHlo.after (hostOps4 (F := Ideal)) (W8 m ρ c) (Proc.devRef .tc main_arg5) = W8 m ρ c (Proc.devRef .tc main_arg5) by keep_host hostOps4).trans h.a5
  a9 := (show StableHlo.after (hostOps4 (F := Ideal)) (W8 m ρ c) (Proc.devRef .tc main_arg9) = W8 m ρ c (Proc.devRef .tc main_arg9) by keep_host hostOps4).trans h.a9
  wh := (show StableHlo.after (hostOps4 (F := Ideal)) (W8 m ρ c) (Proc.devRef .tc main_call0_v1) = W8 m ρ c (Proc.devRef .tc main_call0_v1) by keep_host hostOps4).trans h.wh
  woa := (show StableHlo.after (hostOps4 (F := Ideal)) (W8 m ρ c) (Proc.devRef .tc main_call0_v3) = W8 m ρ c (Proc.devRef .tc main_call0_v3) by keep_host hostOps4).trans h.woa
  won := (show StableHlo.after (hostOps4 (F := Ideal)) (W8 m ρ c) (Proc.devRef .tc main_call0_v5) = W8 m ρ c (Proc.devRef .tc main_call0_v5) by keep_host hostOps4).trans h.won
  binp := (show StableHlo.after (hostOps4 (F := Ideal)) (W8 m ρ c) (Proc.devRef .tc main_call0_v6_0) = W8 m ρ c (Proc.devRef .tc main_call0_v6_0) by keep_host hostOps4).trans h.binp

/-! ## The first host stretch and the first region -/

/-- The first stretch leaves the arguments as launched. -/
theorem w1_a0 : W1 (F := Ideal) m ρ c (Proc.devRef .tc main_arg0) = (m ((c : Thread nD τ).loc main_arg0)) := by
  show StableHlo.after (hostOps0 (F := Ideal)) (W0 m ρ c) (Proc.devRef .tc main_arg0) = _
  simp only [hostOps0]
  after_results_simp
  try simp only [ofBuf_toBuf]
  try rfl

/--  -/
theorem w1_a1 : W1 (F := Ideal) m ρ c (Proc.devRef .tc main_arg1) = (m ((c : Thread nD τ).loc main_arg1)) := by
  show StableHlo.after (hostOps0 (F := Ideal)) (W0 m ρ c) (Proc.devRef .tc main_arg1) = _
  simp only [hostOps0]
  after_results_simp
  try simp only [ofBuf_toBuf]
  try rfl

/--  -/
theorem w1_a2 : W1 (F := Ideal) m ρ c (Proc.devRef .tc main_arg2) = (m ((c : Thread nD τ).loc main_arg2)) := by
  show StableHlo.after (hostOps0 (F := Ideal)) (W0 m ρ c) (Proc.devRef .tc main_arg2) = _
  simp only [hostOps0]
  after_results_simp
  try simp only [ofBuf_toBuf]
  try rfl

/--  -/
theorem w1_a3 : W1 (F := Ideal) m ρ c (Proc.devRef .tc main_arg3) = (m ((c : Thread nD τ).loc main_arg3)) := by
  show StableHlo.after (hostOps0 (F := Ideal)) (W0 m ρ c) (Proc.devRef .tc main_arg3) = _
  simp only [hostOps0]
  after_results_simp
  try simp only [ofBuf_toBuf]
  try rfl

/--  -/
theorem w1_a4 : W1 (F := Ideal) m ρ c (Proc.devRef .tc main_arg4) = (m ((c : Thread nD τ).loc main_arg4)) := by
  show StableHlo.after (hostOps0 (F := Ideal)) (W0 m ρ c) (Proc.devRef .tc main_arg4) = _
  simp only [hostOps0]
  after_results_simp
  try simp only [ofBuf_toBuf]
  try rfl

/--  -/
theorem w1_a5 : W1 (F := Ideal) m ρ c (Proc.devRef .tc main_arg5) = (m ((c : Thread nD τ).loc main_arg5)) := by
  show StableHlo.after (hostOps0 (F := Ideal)) (W0 m ρ c) (Proc.devRef .tc main_arg5) = _
  simp only [hostOps0]
  after_results_simp
  try simp only [ofBuf_toBuf]
  try rfl

/--  -/
theorem w1_a9 : W1 (F := Ideal) m ρ c (Proc.devRef .tc main_arg9) = (m ((c : Thread nD τ).loc main_arg9)) := by
  show StableHlo.after (hostOps0 (F := Ideal)) (W0 m ρ c) (Proc.devRef .tc main_arg9) = _
  simp only [hostOps0]
  after_results_simp
  try simp only [ofBuf_toBuf]
  try rfl

/-- The transposed weights the regions read. -/
theorem w1_wi : W1 (F := Ideal) m ρ c (Proc.devRef .tc main_call0_v0) = transpose S40x256 [1, 0] (m ((c : Thread nD τ).loc main_arg6)) transposes_S256x40_S40x256_1_0 := by
  show StableHlo.after (hostOps0 (F := Ideal)) (W0 m ρ c) (Proc.devRef .tc main_call0_v0) = _
  simp only [hostOps0]
  after_results_simp
  try simp only [ofBuf_toBuf]
  try rfl

/--  -/
theorem w1_wh : W1 (F := Ideal) m ρ c (Proc.devRef .tc main_call0_v1) = (transpose S256x256 [1, 0] (m ((c : Thread nD τ).loc main_arg7)) transposes_S256x256_S256x256_1_0) := by
  show StableHlo.after (hostOps0 (F := Ideal)) (W0 m ρ c) (Proc.devRef .tc main_call0_v1) = _
  simp only [hostOps0]
  after_results_simp
  try simp only [ofBuf_toBuf]
  try rfl

/--  -/
theorem w1_woa : W1 (F := Ideal) m ρ c (Proc.devRef .tc main_call0_v3) = (transpose S35x256 [1, 0] (extractStridedSlice S256x35 ![0, 0] (m ((c : Thread nD τ).loc main_arg8)) slices_S256x291_S256x35_0_0) transposes_S256x35_S35x256_1_0) := by
  show StableHlo.after (hostOps0 (F := Ideal)) (W0 m ρ c) (Proc.devRef .tc main_call0_v3) = _
  simp only [hostOps0]
  after_results_simp
  try simp only [ofBuf_toBuf]
  try rfl

/--  -/
theorem w1_won : W1 (F := Ideal) m ρ c (Proc.devRef .tc main_call0_v5) = (transpose S256x256 [1, 0] (extractStridedSlice S256x256 ![0, 35] (m ((c : Thread nD τ).loc main_arg8)) slices_S256x291_S256x256_0_35) transposes_S256x256_S256x256_1_0) := by
  show StableHlo.after (hostOps0 (F := Ideal)) (W0 m ρ c) (Proc.devRef .tc main_call0_v5) = _
  simp only [hostOps0]
  after_results_simp
  try simp only [ofBuf_toBuf]
  try rfl

/-- The first region's raw output is the bond input. -/
theorem w2_binp : W2 (F := Ideal) m ρ c (Proc.devRef .tc main_call0_v6_0) = (bondInput (m ((c : Thread nD τ).loc main_arg1)) (m ((c : Thread nD τ).loc main_arg6))) := by
  refine (W2_arr m ρ c 2).trans ((region0_raw (V1 m ρ) c).trans ?_)
  show Host.dotGeneral (F := Ideal) (φ₁ := .f32) (φ₂ := .f32) Cert.ReferenceIdeal.dot_S100000x40_S40x256_S100000x256_1_0_0_1_n_n none
      (W1 (F := Ideal) m ρ c (Proc.devRef .tc main_arg1)) (W1 (F := Ideal) m ρ c (Proc.devRef .tc main_call0_v0)) = _
  rw [w1_a1, w1_wi]
  rfl

/-- Its second output is the first bond messages. -/
theorem w2_g0 : W2 (F := Ideal) m ρ c (Proc.devRef .tc main_call0_v6_1) = (reluBonds (bondInput (m ((c : Thread nD τ).loc main_arg1)) (m ((c : Thread nD τ).loc main_arg6)))) := by
  refine (W2_arr m ρ c 3).trans ((region0_relu (V1 m ρ) c).trans ?_)
  show reluBonds (Host.dotGeneral (F := Ideal) (φ₁ := .f32) (φ₂ := .f32) Cert.ReferenceIdeal.dot_S100000x40_S40x256_S100000x256_1_0_0_1_n_n none
      (W1 (F := Ideal) m ρ c (Proc.devRef .tc main_arg1)) (W1 (F := Ideal) m ρ c (Proc.devRef .tc main_call0_v0))) = _
  rw [w1_a1, w1_wi]
  rfl

theorem w2_a2 : W2 (F := Ideal) m ρ c (Proc.devRef .tc main_arg2) = (m ((c : Thread nD τ).loc main_arg2)) :=
  (W2_of_ne m ρ c main_arg2 (by decide)).trans (w1_a2 m ρ c)

theorem kept2 : Kept m c (W2 (F := Ideal) m ρ c) where
  a0 := (W2_of_ne m ρ c main_arg0 (by decide)).trans (w1_a0 m ρ c)
  a3 := (W2_of_ne m ρ c main_arg3 (by decide)).trans (w1_a3 m ρ c)
  a4 := (W2_of_ne m ρ c main_arg4 (by decide)).trans (w1_a4 m ρ c)
  a5 := (W2_of_ne m ρ c main_arg5 (by decide)).trans (w1_a5 m ρ c)
  a9 := (W2_of_ne m ρ c main_arg9 (by decide)).trans (w1_a9 m ρ c)
  wh := (W2_of_ne m ρ c main_call0_v1 (by decide)).trans (w1_wh m ρ c)
  woa := (W2_of_ne m ρ c main_call0_v3 (by decide)).trans (w1_woa m ρ c)
  won := (W2_of_ne m ρ c main_call0_v5 (by decide)).trans (w1_won m ρ c)
  binp := w2_binp m ρ c

/-! ## Round 1 -/

/-- The neighbour sum round region 1 reads. -/
theorem r1_nei : W3 (F := Ideal) m ρ c (Proc.devRef .tc main_call0_v108) = neighbourSumBonds (table (m ((c : Thread nD τ).loc main_arg2)) (reluBonds (bondInput (m ((c : Thread nD τ).loc main_arg1)) (m ((c : Thread nD τ).loc main_arg6))))) (m ((c : Thread nD τ).loc main_arg4)) := by
  refine (s1_nei (W2 (F := Ideal) m ρ c)).trans ?_
  rw [w2_a2, w2_g0, (kept2 m ρ c).a4, chainBonds_eq]

/-- The table round region 1 finds. -/
theorem r1_buf : W3 (F := Ideal) m ρ c (Proc.devRef .tc main_call0_v109) = table (m ((c : Thread nD τ).loc main_arg2)) (reluBonds (bondInput (m ((c : Thread nD τ).loc main_arg1)) (m ((c : Thread nD τ).loc main_arg6)))) := by
  refine (s1_buf (W2 (F := Ideal) m ρ c)).trans ?_
  rw [w2_a2, w2_g0]

/-- The table round region 1 leaves. -/
theorem r1_out : W4 (F := Ideal) m ρ c (Proc.devRef .tc main_call0_v109) = table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))) := by
  refine (W4_arr m ρ c 3).trans ((region1_out (V3 m ρ) c (m ((c : Thread nD τ).loc main_arg2)) (reluBonds (bondInput (m ((c : Thread nD τ).loc main_arg1)) (m ((c : Thread nD τ).loc main_arg6)))) (r1_buf m ρ c)).trans ?_)
  show table (m ((c : Thread nD τ).loc main_arg2)) (reluBonds (addf (W3 (F := Ideal) m ρ c (Proc.devRef .tc main_call0_v6_0))
      (Host.dotGeneral (F := Ideal) (φ₁ := .f32) (φ₂ := .f32) Cert.ReferenceIdeal.dot_S100000x256_S256x256_S100000x256_1_0_0_1_n_n none
        (W3 (F := Ideal) m ρ c (Proc.devRef .tc main_call0_v108)) (W3 (F := Ideal) m ρ c (Proc.devRef .tc main_call0_v1))))) = _
  rw [(kept3 m ρ c (kept2 m ρ c)).binp, (kept3 m ρ c (kept2 m ρ c)).wh, r1_nei]
  rfl

/-! ## Round 2 -/

/-- The neighbour sum round region 2 reads. -/
theorem r2_nei : W5 (F := Ideal) m ρ c (Proc.devRef .tc main_call0_v210) = neighbourSumBonds (table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))) (m ((c : Thread nD τ).loc main_arg4)) := by
  refine (s2_nei (W4 (F := Ideal) m ρ c)).trans ?_
  rw [r1_out, (kept4 m ρ c (kept3 m ρ c (kept2 m ρ c))).a4, chainBonds_eq]

/-- The table round region 2 finds. -/
theorem r2_buf : W5 (F := Ideal) m ρ c (Proc.devRef .tc main_call0_v211) = table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))) := by
  refine (s2_buf (W4 (F := Ideal) m ρ c)).trans ?_
  rw [r1_out]

/-- The table round region 2 leaves. -/
theorem r2_out : W6 (F := Ideal) m ρ c (Proc.devRef .tc main_call0_v211) = table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))) := by
  refine (W6_arr m ρ c 3).trans ((region2_out (V5 m ρ) c (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))) (r2_buf m ρ c)).trans ?_)
  show table (m ((c : Thread nD τ).loc main_arg2)) (reluBonds (addf (W5 (F := Ideal) m ρ c (Proc.devRef .tc main_call0_v6_0))
      (Host.dotGeneral (F := Ideal) (φ₁ := .f32) (φ₂ := .f32) Cert.ReferenceIdeal.dot_S100000x256_S256x256_S100000x256_1_0_0_1_n_n none
        (W5 (F := Ideal) m ρ c (Proc.devRef .tc main_call0_v210)) (W5 (F := Ideal) m ρ c (Proc.devRef .tc main_call0_v1))))) = _
  rw [(kept5 m ρ c (kept4 m ρ c (kept3 m ρ c (kept2 m ρ c)))).binp, (kept5 m ρ c (kept4 m ρ c (kept3 m ρ c (kept2 m ρ c)))).wh, r2_nei]
  rfl

/-! ## Round 3 -/

/-- The neighbour sum round region 3 reads. -/
theorem r3_nei : W7 (F := Ideal) m ρ c (Proc.devRef .tc main_call0_v312) = neighbourSumBonds (table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))))) (m ((c : Thread nD τ).loc main_arg4)) := by
  refine (s3_nei (W6 (F := Ideal) m ρ c)).trans ?_
  rw [r2_out, (kept6 m ρ c (kept5 m ρ c (kept4 m ρ c (kept3 m ρ c (kept2 m ρ c))))).a4, chainBonds_eq]

/-- The table round region 3 finds. -/
theorem r3_buf : W7 (F := Ideal) m ρ c (Proc.devRef .tc main_call0_v313) = table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))) := by
  refine (s3_buf (W6 (F := Ideal) m ρ c)).trans ?_
  rw [r2_out]

/-- The table round region 3 leaves. -/
theorem r3_out : W8 (F := Ideal) m ρ c (Proc.devRef .tc main_call0_v313) = table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))))) := by
  refine (W8_arr m ρ c 3).trans ((region3_out (V7 m ρ) c (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))) (r3_buf m ρ c)).trans ?_)
  show table (m ((c : Thread nD τ).loc main_arg2)) (reluBonds (addf (W7 (F := Ideal) m ρ c (Proc.devRef .tc main_call0_v6_0))
      (Host.dotGeneral (F := Ideal) (φ₁ := .f32) (φ₂ := .f32) Cert.ReferenceIdeal.dot_S100000x256_S256x256_S100000x256_1_0_0_1_n_n none
        (W7 (F := Ideal) m ρ c (Proc.devRef .tc main_call0_v312)) (W7 (F := Ideal) m ρ c (Proc.devRef .tc main_call0_v1))))) = _
  rw [(kept7 m ρ c (kept6 m ρ c (kept5 m ρ c (kept4 m ρ c (kept3 m ρ c (kept2 m ρ c)))))).binp, (kept7 m ρ c (kept6 m ρ c (kept5 m ρ c (kept4 m ρ c (kept3 m ρ c (kept2 m ρ c)))))).wh, r3_nei]
  rfl

/-! ## The pair means, the atoms and the molecule means -/

/-- The bond messages after the three rounds are the vocabulary's `bondMessages`. -/
theorem rounds_eq : (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6))))))) = bondMessages (m ((c : Thread nD τ).loc main_arg1)) (m ((c : Thread nD τ).loc main_arg6)) (m ((c : Thread nD τ).loc main_arg7)) (m ((c : Thread nD τ).loc main_arg2)) (m ((c : Thread nD τ).loc main_arg4)) := rfl

/-- The pair means as the fifth stretch leaves them. -/
theorem w9_pairs : W9 (F := Ideal) m ρ c (Proc.devRef .tc main_v0_1) = pairMeanOf (pairRowsShifted (table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))))) (m ((c : Thread nD τ).loc main_arg5))) := by
  refine (s4_pairs (W8 (F := Ideal) m ρ c)).trans ?_
  rw [r3_out, (kept8 m ρ c (kept7 m ρ c (kept6 m ρ c (kept5 m ρ c (kept4 m ρ c (kept3 m ρ c (kept2 m ρ c))))))).a5]

/-- The atoms' neighbour sum the last region reads. -/
theorem w9_nei : W9 (F := Ideal) m ρ c (Proc.devRef .tc main_call0_v426) = neighbourSumAtoms (table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))))) (m ((c : Thread nD τ).loc main_arg3)) := by
  refine (s4_nei (W8 (F := Ideal) m ρ c)).trans ?_
  rw [r3_out, (kept8 m ρ c (kept7 m ρ c (kept6 m ρ c (kept5 m ρ c (kept4 m ρ c (kept3 m ρ c (kept2 m ρ c))))))).a3, chainAtoms_eq]

/-- The bias as one row. -/
theorem w9_bias : W9 (F := Ideal) m ρ c (Proc.devRef .tc main_call0_v427) = shapeCast S1x256 (m ((c : Thread nD τ).loc main_arg9)) shapeCasts_S256_S1x256 := by
  refine (s4_bias (W8 (F := Ideal) m ρ c)).trans ?_
  rw [(kept8 m ρ c (kept7 m ρ c (kept6 m ρ c (kept5 m ρ c (kept4 m ρ c (kept3 m ρ c (kept2 m ρ c))))))).a9]

/-- The atom hidden states the last region leaves. -/
theorem w10_hidden : W10 (F := Ideal) m ρ c (Proc.devRef .tc main_call0_v428)
    = atomHidden (m ((c : Thread nD τ).loc main_arg0)) (neighbourSumAtoms (table (m ((c : Thread nD τ).loc main_arg2)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (round (bondInput (m ((c : Thread nD τ).loc main_arg1)) (m ((c : Thread nD τ).loc main_arg6))) (m ((c : Thread nD τ).loc main_arg7)) (m ((c : Thread nD τ).loc main_arg2)) (m ((c : Thread nD τ).loc main_arg4)) (reluBonds (bondInput (m ((c : Thread nD τ).loc main_arg1)) (m ((c : Thread nD τ).loc main_arg6)))))))) (m ((c : Thread nD τ).loc main_arg3))) (m ((c : Thread nD τ).loc main_arg8)) (m ((c : Thread nD τ).loc main_arg9)) := by
  refine (W10_arr m ρ c 5).trans ((region4_out (V9 m ρ) c (m ((c : Thread nD τ).loc main_arg8)) (m ((c : Thread nD τ).loc main_arg9)) (kept9 m ρ c (kept8 m ρ c (kept7 m ρ c (kept6 m ρ c (kept5 m ρ c (kept4 m ρ c (kept3 m ρ c (kept2 m ρ c)))))))).woa (kept9 m ρ c (kept8 m ρ c (kept7 m ρ c (kept6 m ρ c (kept5 m ρ c (kept4 m ρ c (kept3 m ρ c (kept2 m ρ c)))))))).won (w9_bias m ρ c)).trans ?_)
  show atomHidden (W9 (F := Ideal) m ρ c (Proc.devRef .tc main_arg0)) (W9 (F := Ideal) m ρ c (Proc.devRef .tc main_call0_v426)) (m ((c : Thread nD τ).loc main_arg8)) (m ((c : Thread nD τ).loc main_arg9)) = _
  rw [(kept9 m ρ c (kept8 m ρ c (kept7 m ρ c (kept6 m ρ c (kept5 m ρ c (kept4 m ρ c (kept3 m ρ c (kept2 m ρ c)))))))).a0, w9_nei]

/-- The first result: the molecule means of the atom hidden states. -/
theorem kernel_mol : W11 (F := Ideal) m ρ c (Proc.devRef .tc main_v0_0)
    = molMean (atomHidden (m ((c : Thread nD τ).loc main_arg0)) (neighbourSumAtoms (table (m ((c : Thread nD τ).loc main_arg2)) (bondMessages (m ((c : Thread nD τ).loc main_arg1)) (m ((c : Thread nD τ).loc main_arg6)) (m ((c : Thread nD τ).loc main_arg7)) (m ((c : Thread nD τ).loc main_arg2)) (m ((c : Thread nD τ).loc main_arg4)))) (m ((c : Thread nD τ).loc main_arg3))) (m ((c : Thread nD τ).loc main_arg8)) (m ((c : Thread nD τ).loc main_arg9))) := by
  have e : W11 (F := Ideal) m ρ c (Proc.devRef .tc main_v0_0) = molMean (W10 (F := Ideal) m ρ c (Proc.devRef .tc main_call0_v428)) := by
    show StableHlo.after (hostOps5 (F := Ideal)) (W10 m ρ c) (Proc.devRef .tc main_v0_0) = _
    simp only [hostOps5]
    after_results_simp
    try simp only [ofBuf_toBuf]
    unfold_defs
    rfl
  rw [e, w10_hidden, rounds_eq]

/-- The second result: the pair means, for pair indices in range of the bond messages. -/
theorem kernel_pairs (hp : ∀ i, 0 ≤ ((m ((c : Thread nD τ).loc main_arg5)) i).toInt ∧ ((m ((c : Thread nD τ).loc main_arg5)) i).toInt < 100000) :
    W11 (F := Ideal) m ρ c (Proc.devRef .tc main_v0_1) = pairMeanOf (pairRows (bondMessages (m ((c : Thread nD τ).loc main_arg1)) (m ((c : Thread nD τ).loc main_arg6)) (m ((c : Thread nD τ).loc main_arg7)) (m ((c : Thread nD τ).loc main_arg2)) (m ((c : Thread nD τ).loc main_arg4))) (m ((c : Thread nD τ).loc main_arg5))) := by
  have e1 : W11 (F := Ideal) m ρ c (Proc.devRef .tc main_v0_1) = W10 (F := Ideal) m ρ c (Proc.devRef .tc main_v0_1) := by
    show StableHlo.after (hostOps5 (F := Ideal)) (W10 m ρ c) (Proc.devRef .tc main_v0_1) = _
    keep_host hostOps5
  have e2 : W10 (F := Ideal) m ρ c (Proc.devRef .tc main_v0_1) = W9 (F := Ideal) m ρ c (Proc.devRef .tc main_v0_1) := W10_of_ne m ρ c main_v0_1 (by decide)
  rw [e1, e2, w9_pairs, pairRowsShifted_eq _ _ _ hp, rounds_eq]

end Cert.Passing

end
-- ==== Proof.RefValue.lean ====
/-
  The reference's run, read stretch by stretch.

  Every weakly fair execution of the reference's @main ends with each buffer at the fold of its hundred host
  operations over the launch memory.  The list is read in seven stretches, cut before each concatenate: the bond input,
  the three rounds, the pair means, the atoms' neighbour sum, the atom hidden states and their means over each molecule.  Read at the two result
  buffers the fold is, letter for letter, the vocabulary's molecule means and pair means of the arguments.
-/
import proofs.«431449_j16389595201591_3_alg».proof.Proof.Passing
import proofs.«431449_j16389595201591_3_alg».proof.Proof.ReferenceRun

set_option maxRecDepth 16384

noncomputable section

open Idealize.ShloMosaic Idealize.ShloMosaic.TcCoe Idealize.SL.Sem Idealize.ShloMosaic.StableHlo

namespace Cert.Passing

namespace Ref

open Cert.ReferenceIdeal Cert.ReferenceIdeal.Gen Cert.ReferenceIdeal.Value

/-- Contents carried to a buffer's own type and back are the contents. -/
theorem ofBuf_toBuf_ref {F : FTy → Type} {T : BufTy} (x : StableHlo.TRef sig T) (v : T.Contents (Elt F)) : x.ofBuf (x.toBuf v) = v := by
  obtain ⟨r, h, h2, h3⟩ := x
  subst h
  rfl

/-! ## The operation list in seven stretches, one before each concatenate

Stretch 1 forms the bond input and its relu; stretches 2, 3, 4 are the three rounds (each begins by concatenating the table);
stretch 5 takes the pair means; stretch 6 concatenates the table again and sums the atoms' neighbours; stretch 7 concatenates
[fatoms | nei] and forms the atom hidden states and their means. -/

abbrev rest1 : List (HloOp τ sig (Elt Ideal)) := List.drop 5 (ops (F := Ideal))
abbrev rest2 : List (HloOp τ sig (Elt Ideal)) := List.drop 18 rest1
abbrev rest3 : List (HloOp τ sig (Elt Ideal)) := List.drop 18 rest2
abbrev rest4 : List (HloOp τ sig (Elt Ideal)) := List.drop 18 rest3
abbrev rest5 : List (HloOp τ sig (Elt Ideal)) := List.drop 14 rest4
abbrev part1 : List (HloOp τ sig (Elt Ideal)) := List.take 5 (ops (F := Ideal))
abbrev part2 : List (HloOp τ sig (Elt Ideal)) := List.take 18 rest1
abbrev part3 : List (HloOp τ sig (Elt Ideal)) := List.take 18 rest2
abbrev part4 : List (HloOp τ sig (Elt Ideal)) := List.take 18 rest3
abbrev part5 : List (HloOp τ sig (Elt Ideal)) := List.take 14 rest4
abbrev part6 : List (HloOp τ sig (Elt Ideal)) := List.take 12 rest5
abbrev part7 : List (HloOp τ sig (Elt Ideal)) := List.drop 12 rest5

/-- A list of operations run in two parts. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

theorem after_cut (n : Nat) (l : List (HloOp τ sig (Elt Ideal))) (V : Valuation τ sig (Elt Ideal)) :
    StableHlo.after l V = StableHlo.after (List.drop n l) (StableHlo.after (List.take n l) V) := by
  rw [← after_app, List.take_append_drop]

/-- The whole list is the seven stretches in order. -/
theorem after_parts (V : Valuation τ sig (Elt Ideal)) :
    StableHlo.after (ops (F := Ideal)) V
      = StableHlo.after part7 (StableHlo.after part6 (StableHlo.after part5 (StableHlo.after part4
          (StableHlo.after part3 (StableHlo.after part2 (StableHlo.after part1 V)))))) := by
  rw [after_cut 5 (ops (F := Ideal)) V, after_cut 18 rest1, after_cut 18 rest2, after_cut 18 rest3, after_cut 14 rest4, after_cut 12 rest5]

/-- Evaluate a stretch to its literal operations, read the result, and drop the typed references' cast pairs. -/
macro "read_part" : tactic =>
  `(tactic| (simp only [part1, part2, part3, part4, part5, part6, part7, rest1, rest2, rest3, rest4, rest5, ops, List.take_succ_cons, List.take_zero, List.drop_succ_cons, List.drop_zero]; after_results_simp; (try simp only [ofBuf_toBuf_ref]); (try simp only [round, roundOf, reluBonds, bondInput, table, neighbourSumBonds, wrapBonds, pairMeanOf, pairRows, wrapPairs, molMean, atomHidden, neighbourSumAtoms, wrapAtoms]); (try rfl)))

set_option maxHeartbeats 4000000 in
theorem part1_binp (U : Valuation τ sig (Elt Ideal)) : StableHlo.after part1 U (Proc.devRef .tc main_v1) = bondInput (U (Proc.devRef .tc main_arg1)) (U (Proc.devRef .tc main_arg6)) := by
  read_part
set_option maxHeartbeats 4000000 in
theorem part1_g0 (U : Valuation τ sig (Elt Ideal)) : StableHlo.after part1 U (Proc.devRef .tc main_v2) = reluBonds (bondInput (U (Proc.devRef .tc main_arg1)) (U (Proc.devRef .tc main_arg6))) := by
  read_part
set_option maxHeartbeats 4000000 in
theorem part1_keep_arg0 (U : Valuation τ sig (Elt Ideal)) : StableHlo.after part1 U (Proc.devRef .tc main_arg0) = U (Proc.devRef .tc main_arg0) := by
  read_part
set_option maxHeartbeats 4000000 in
theorem part1_keep_arg2 (U : Valuation τ sig (Elt Ideal)) : StableHlo.after part1 U (Proc.devRef .tc main_arg2) = U (Proc.devRef .tc main_arg2) := by
  read_part
set_option maxHeartbeats 4000000 in
theorem part1_keep_arg3 (U : Valuation τ sig (Elt Ideal)) : StableHlo.after part1 U (Proc.devRef .tc main_arg3) = U (Proc.devRef .tc main_arg3) := by
  read_part
set_option maxHeartbeats 4000000 in
theorem part1_keep_arg4 (U : Valuation τ sig (Elt Ideal)) : StableHlo.after part1 U (Proc.devRef .tc main_arg4) = U (Proc.devRef .tc main_arg4) := by
  read_part
set_option maxHeartbeats 4000000 in
theorem part1_keep_arg5 (U : Valuation τ sig (Elt Ideal)) : StableHlo.after part1 U (Proc.devRef .tc main_arg5) = U (Proc.devRef .tc main_arg5) := by
  read_part
set_option maxHeartbeats 4000000 in
theorem part1_keep_arg7 (U : Valuation τ sig (Elt Ideal)) : StableHlo.after part1 U (Proc.devRef .tc main_arg7) = U (Proc.devRef .tc main_arg7) := by
  read_part
set_option maxHeartbeats 4000000 in
theorem part1_keep_arg8 (U : Valuation τ sig (Elt Ideal)) : StableHlo.after part1 U (Proc.devRef .tc main_arg8) = U (Proc.devRef .tc main_arg8) := by
  read_part
set_option maxHeartbeats 4000000 in
theorem part1_keep_arg9 (U : Valuation τ sig (Elt Ideal)) : StableHlo.after part1 U (Proc.devRef .tc main_arg9) = U (Proc.devRef .tc main_arg9) := by
  read_part
set_option maxHeartbeats 4000000 in
theorem part2_round (U : Valuation τ sig (Elt Ideal)) : StableHlo.after part2 U (Proc.devRef .tc main_v15) = round (U (Proc.devRef .tc main_v1)) (U (Proc.devRef .tc main_arg7)) (U (Proc.devRef .tc main_arg2)) (U (Proc.devRef .tc main_arg4)) (U (Proc.devRef .tc main_v2)) := by
  read_part
set_option maxHeartbeats 4000000 in
theorem part2_keep_v1 (U : Valuation τ sig (Elt Ideal)) : StableHlo.after part2 U (Proc.devRef .tc main_v1) = U (Proc.devRef .tc main_v1) := by
  read_part
set_option maxHeartbeats 4000000 in
theorem part2_keep_arg0 (U : Valuation τ sig (Elt Ideal)) : StableHlo.after part2 U (Proc.devRef .tc main_arg0) = U (Proc.devRef .tc main_arg0) := by
  read_part
set_option maxHeartbeats 4000000 in
theorem part2_keep_arg2 (U : Valuation τ sig (Elt Ideal)) : StableHlo.after part2 U (Proc.devRef .tc main_arg2) = U (Proc.devRef .tc main_arg2) := by
  read_part
set_option maxHeartbeats 4000000 in
theorem part2_keep_arg3 (U : Valuation τ sig (Elt Ideal)) : StableHlo.after part2 U (Proc.devRef .tc main_arg3) = U (Proc.devRef .tc main_arg3) := by
  read_part
set_option maxHeartbeats 4000000 in
theorem part2_keep_arg4 (U : Valuation τ sig (Elt Ideal)) : StableHlo.after part2 U (Proc.devRef .tc main_arg4) = U (Proc.devRef .tc main_arg4) := by
  read_part
set_option maxHeartbeats 4000000 in
theorem part2_keep_arg5 (U : Valuation τ sig (Elt Ideal)) : StableHlo.after part2 U (Proc.devRef .tc main_arg5) = U (Proc.devRef .tc main_arg5) := by
  read_part
set_option maxHeartbeats 4000000 in
theorem part2_keep_arg7 (U : Valuation τ sig (Elt Ideal)) : StableHlo.after part2 U (Proc.devRef .tc main_arg7) = U (Proc.devRef .tc main_arg7) := by
  read_part
set_option maxHeartbeats 4000000 in
theorem part2_keep_arg8 (U : Valuation τ sig (Elt Ideal)) : StableHlo.after part2 U (Proc.devRef .tc main_arg8) = U (Proc.devRef .tc main_arg8) := by
  read_part
set_option maxHeartbeats 4000000 in
theorem part2_keep_arg9 (U : Valuation τ sig (Elt Ideal)) : StableHlo.after part2 U (Proc.devRef .tc main_arg9) = U (Proc.devRef .tc main_arg9) := by
  read_part
set_option maxHeartbeats 4000000 in
theorem part3_round (U : Valuation τ sig (Elt Ideal)) : StableHlo.after part3 U (Proc.devRef .tc main_v28) = round (U (Proc.devRef .tc main_v1)) (U (Proc.devRef .tc main_arg7)) (U (Proc.devRef .tc main_arg2)) (U (Proc.devRef .tc main_arg4)) (U (Proc.devRef .tc main_v15)) := by
  read_part
set_option maxHeartbeats 4000000 in
theorem part3_keep_v1 (U : Valuation τ sig (Elt Ideal)) : StableHlo.after part3 U (Proc.devRef .tc main_v1) = U (Proc.devRef .tc main_v1) := by
  read_part
set_option maxHeartbeats 4000000 in
theorem part3_keep_arg0 (U : Valuation τ sig (Elt Ideal)) : StableHlo.after part3 U (Proc.devRef .tc main_arg0) = U (Proc.devRef .tc main_arg0) := by
  read_part
set_option maxHeartbeats 4000000 in
theorem part3_keep_arg2 (U : Valuation τ sig (Elt Ideal)) : StableHlo.after part3 U (Proc.devRef .tc main_arg2) = U (Proc.devRef .tc main_arg2) := by
  read_part
set_option maxHeartbeats 4000000 in
theorem part3_keep_arg3 (U : Valuation τ sig (Elt Ideal)) : StableHlo.after part3 U (Proc.devRef .tc main_arg3) = U (Proc.devRef .tc main_arg3) := by
  read_part
set_option maxHeartbeats 4000000 in
theorem part3_keep_arg4 (U : Valuation τ sig (Elt Ideal)) : StableHlo.after part3 U (Proc.devRef .tc main_arg4) = U (Proc.devRef .tc main_arg4) := by
  read_part
set_option maxHeartbeats 4000000 in
theorem part3_keep_arg5 (U : Valuation τ sig (Elt Ideal)) : StableHlo.after part3 U (Proc.devRef .tc main_arg5) = U (Proc.devRef .tc main_arg5) := by
  read_part
set_option maxHeartbeats 4000000 in
theorem part3_keep_arg7 (U : Valuation τ sig (Elt Ideal)) : StableHlo.after part3 U (Proc.devRef .tc main_arg7) = U (Proc.devRef .tc main_arg7) := by
  read_part
set_option maxHeartbeats 4000000 in
theorem part3_keep_arg8 (U : Valuation τ sig (Elt Ideal)) : StableHlo.after part3 U (Proc.devRef .tc main_arg8) = U (Proc.devRef .tc main_arg8) := by
  read_part
set_option maxHeartbeats 4000000 in
theorem part3_keep_arg9 (U : Valuation τ sig (Elt Ideal)) : StableHlo.after part3 U (Proc.devRef .tc main_arg9) = U (Proc.devRef .tc main_arg9) := by
  read_part
set_option maxHeartbeats 4000000 in
theorem part4_round (U : Valuation τ sig (Elt Ideal)) : StableHlo.after part4 U (Proc.devRef .tc main_v41) = round (U (Proc.devRef .tc main_v1)) (U (Proc.devRef .tc main_arg7)) (U (Proc.devRef .tc main_arg2)) (U (Proc.devRef .tc main_arg4)) (U (Proc.devRef .tc main_v28)) := by
  read_part
set_option maxHeartbeats 4000000 in
theorem part4_keep_arg0 (U : Valuation τ sig (Elt Ideal)) : StableHlo.after part4 U (Proc.devRef .tc main_arg0) = U (Proc.devRef .tc main_arg0) := by
  read_part
set_option maxHeartbeats 4000000 in
theorem part4_keep_arg2 (U : Valuation τ sig (Elt Ideal)) : StableHlo.after part4 U (Proc.devRef .tc main_arg2) = U (Proc.devRef .tc main_arg2) := by
  read_part
set_option maxHeartbeats 4000000 in
theorem part4_keep_arg3 (U : Valuation τ sig (Elt Ideal)) : StableHlo.after part4 U (Proc.devRef .tc main_arg3) = U (Proc.devRef .tc main_arg3) := by
  read_part
set_option maxHeartbeats 4000000 in
theorem part4_keep_arg5 (U : Valuation τ sig (Elt Ideal)) : StableHlo.after part4 U (Proc.devRef .tc main_arg5) = U (Proc.devRef .tc main_arg5) := by
  read_part
set_option maxHeartbeats 4000000 in
theorem part4_keep_arg8 (U : Valuation τ sig (Elt Ideal)) : StableHlo.after part4 U (Proc.devRef .tc main_arg8) = U (Proc.devRef .tc main_arg8) := by
  read_part
set_option maxHeartbeats 4000000 in
theorem part4_keep_arg9 (U : Valuation τ sig (Elt Ideal)) : StableHlo.after part4 U (Proc.devRef .tc main_arg9) = U (Proc.devRef .tc main_arg9) := by
  read_part
set_option maxHeartbeats 4000000 in
theorem part5_pairs (U : Valuation τ sig (Elt Ideal)) : StableHlo.after part5 U (Proc.devRef .tc main_v51) = pairMeanOf (pairRows (U (Proc.devRef .tc main_v41)) (U (Proc.devRef .tc main_arg5))) := by
  read_part
set_option maxHeartbeats 4000000 in
theorem part5_keep_v41 (U : Valuation τ sig (Elt Ideal)) : StableHlo.after part5 U (Proc.devRef .tc main_v41) = U (Proc.devRef .tc main_v41) := by
  read_part
set_option maxHeartbeats 4000000 in
theorem part5_keep_arg0 (U : Valuation τ sig (Elt Ideal)) : StableHlo.after part5 U (Proc.devRef .tc main_arg0) = U (Proc.devRef .tc main_arg0) := by
  read_part
set_option maxHeartbeats 4000000 in
theorem part5_keep_arg2 (U : Valuation τ sig (Elt Ideal)) : StableHlo.after part5 U (Proc.devRef .tc main_arg2) = U (Proc.devRef .tc main_arg2) := by
  read_part
set_option maxHeartbeats 4000000 in
theorem part5_keep_arg3 (U : Valuation τ sig (Elt Ideal)) : StableHlo.after part5 U (Proc.devRef .tc main_arg3) = U (Proc.devRef .tc main_arg3) := by
  read_part
set_option maxHeartbeats 4000000 in
theorem part5_keep_arg8 (U : Valuation τ sig (Elt Ideal)) : StableHlo.after part5 U (Proc.devRef .tc main_arg8) = U (Proc.devRef .tc main_arg8) := by
  read_part
set_option maxHeartbeats 4000000 in
theorem part5_keep_arg9 (U : Valuation τ sig (Elt Ideal)) : StableHlo.after part5 U (Proc.devRef .tc main_arg9) = U (Proc.devRef .tc main_arg9) := by
  read_part
set_option maxHeartbeats 4000000 in
theorem part6_nei (U : Valuation τ sig (Elt Ideal)) : StableHlo.after part6 U (Proc.devRef .tc main_v60) = neighbourSumAtoms (table (U (Proc.devRef .tc main_arg2)) (U (Proc.devRef .tc main_v41))) (U (Proc.devRef .tc main_arg3)) := by
  read_part
set_option maxHeartbeats 4000000 in
theorem part6_keep_v51 (U : Valuation τ sig (Elt Ideal)) : StableHlo.after part6 U (Proc.devRef .tc main_v51) = U (Proc.devRef .tc main_v51) := by
  read_part
set_option maxHeartbeats 4000000 in
theorem part6_keep_arg0 (U : Valuation τ sig (Elt Ideal)) : StableHlo.after part6 U (Proc.devRef .tc main_arg0) = U (Proc.devRef .tc main_arg0) := by
  read_part
set_option maxHeartbeats 4000000 in
theorem part6_keep_arg8 (U : Valuation τ sig (Elt Ideal)) : StableHlo.after part6 U (Proc.devRef .tc main_arg8) = U (Proc.devRef .tc main_arg8) := by
  read_part
set_option maxHeartbeats 4000000 in
theorem part6_keep_arg9 (U : Valuation τ sig (Elt Ideal)) : StableHlo.after part6 U (Proc.devRef .tc main_arg9) = U (Proc.devRef .tc main_arg9) := by
  read_part
set_option maxHeartbeats 4000000 in
theorem part7_mol (U : Valuation τ sig (Elt Ideal)) : StableHlo.after part7 U (Proc.devRef .tc main_v71) = molMean (atomHidden (U (Proc.devRef .tc main_arg0)) (U (Proc.devRef .tc main_v60)) (U (Proc.devRef .tc main_arg8)) (U (Proc.devRef .tc main_arg9))) := by
  read_part
set_option maxHeartbeats 4000000 in
theorem part7_keep_v51 (U : Valuation τ sig (Elt Ideal)) : StableHlo.after part7 U (Proc.devRef .tc main_v51) = U (Proc.devRef .tc main_v51) := by
  read_part

/-! ## What each stretch leaves, in terms of the launch contents -/

variable (V : Valuation τ sig (Elt Ideal))

/-- The contents after each stretch. -/
abbrev X1 : Valuation τ sig (Elt Ideal) := StableHlo.after part1 V
abbrev X2 : Valuation τ sig (Elt Ideal) := StableHlo.after part2 (X1 V)
abbrev X3 : Valuation τ sig (Elt Ideal) := StableHlo.after part3 (X2 V)
abbrev X4 : Valuation τ sig (Elt Ideal) := StableHlo.after part4 (X3 V)
abbrev X5 : Valuation τ sig (Elt Ideal) := StableHlo.after part5 (X4 V)
abbrev X6 : Valuation τ sig (Elt Ideal) := StableHlo.after part6 (X5 V)
abbrev X7 : Valuation τ sig (Elt Ideal) := StableHlo.after part7 (X6 V)

theorem x1_binp : X1 V (Proc.devRef .tc main_v1) = (bondInput (V (Proc.devRef .tc main_arg1)) (V (Proc.devRef .tc main_arg6))) := part1_binp V
theorem x1_g0 : X1 V (Proc.devRef .tc main_v2) = (reluBonds (bondInput (V (Proc.devRef .tc main_arg1)) (V (Proc.devRef .tc main_arg6)))) := part1_g0 V
theorem x1_a0 : X1 V (Proc.devRef .tc main_arg0) = (V (Proc.devRef .tc main_arg0)) := part1_keep_arg0 V
theorem x1_a2 : X1 V (Proc.devRef .tc main_arg2) = (V (Proc.devRef .tc main_arg2)) := part1_keep_arg2 V
theorem x1_a3 : X1 V (Proc.devRef .tc main_arg3) = (V (Proc.devRef .tc main_arg3)) := part1_keep_arg3 V
theorem x1_a4 : X1 V (Proc.devRef .tc main_arg4) = (V (Proc.devRef .tc main_arg4)) := part1_keep_arg4 V
theorem x1_a5 : X1 V (Proc.devRef .tc main_arg5) = (V (Proc.devRef .tc main_arg5)) := part1_keep_arg5 V
theorem x1_a7 : X1 V (Proc.devRef .tc main_arg7) = (V (Proc.devRef .tc main_arg7)) := part1_keep_arg7 V
theorem x1_a8 : X1 V (Proc.devRef .tc main_arg8) = (V (Proc.devRef .tc main_arg8)) := part1_keep_arg8 V
theorem x1_a9 : X1 V (Proc.devRef .tc main_arg9) = (V (Proc.devRef .tc main_arg9)) := part1_keep_arg9 V

theorem x2_bonds : X2 V (Proc.devRef .tc main_v15) = (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))) :=
  (part2_round (X1 V)).trans (by rw [x1_binp, x1_a7, x1_a2, x1_a4, x1_g0])
theorem x2_binp : X2 V (Proc.devRef .tc main_v1) = (bondInput (V (Proc.devRef .tc main_arg1)) (V (Proc.devRef .tc main_arg6))) := (part2_keep_v1 (X1 V)).trans (x1_binp V)
theorem x2_a0 : X2 V (Proc.devRef .tc main_arg0) = (V (Proc.devRef .tc main_arg0)) := (part2_keep_arg0 (X1 V)).trans (x1_a0 V)
theorem x2_a2 : X2 V (Proc.devRef .tc main_arg2) = (V (Proc.devRef .tc main_arg2)) := (part2_keep_arg2 (X1 V)).trans (x1_a2 V)
theorem x2_a3 : X2 V (Proc.devRef .tc main_arg3) = (V (Proc.devRef .tc main_arg3)) := (part2_keep_arg3 (X1 V)).trans (x1_a3 V)
theorem x2_a4 : X2 V (Proc.devRef .tc main_arg4) = (V (Proc.devRef .tc main_arg4)) := (part2_keep_arg4 (X1 V)).trans (x1_a4 V)
theorem x2_a5 : X2 V (Proc.devRef .tc main_arg5) = (V (Proc.devRef .tc main_arg5)) := (part2_keep_arg5 (X1 V)).trans (x1_a5 V)
theorem x2_a7 : X2 V (Proc.devRef .tc main_arg7) = (V (Proc.devRef .tc main_arg7)) := (part2_keep_arg7 (X1 V)).trans (x1_a7 V)
theorem x2_a8 : X2 V (Proc.devRef .tc main_arg8) = (V (Proc.devRef .tc main_arg8)) := (part2_keep_arg8 (X1 V)).trans (x1_a8 V)
theorem x2_a9 : X2 V (Proc.devRef .tc main_arg9) = (V (Proc.devRef .tc main_arg9)) := (part2_keep_arg9 (X1 V)).trans (x1_a9 V)

theorem x3_bonds : X3 V (Proc.devRef .tc main_v28) = (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6)))))) :=
  (part3_round (X2 V)).trans (by rw [x2_binp, x2_a7, x2_a2, x2_a4, x2_bonds])
theorem x3_binp : X3 V (Proc.devRef .tc main_v1) = (bondInput (V (Proc.devRef .tc main_arg1)) (V (Proc.devRef .tc main_arg6))) := (part3_keep_v1 (X2 V)).trans (x2_binp V)
theorem x3_a0 : X3 V (Proc.devRef .tc main_arg0) = (V (Proc.devRef .tc main_arg0)) := (part3_keep_arg0 (X2 V)).trans (x2_a0 V)
theorem x3_a2 : X3 V (Proc.devRef .tc main_arg2) = (V (Proc.devRef .tc main_arg2)) := (part3_keep_arg2 (X2 V)).trans (x2_a2 V)
theorem x3_a3 : X3 V (Proc.devRef .tc main_arg3) = (V (Proc.devRef .tc main_arg3)) := (part3_keep_arg3 (X2 V)).trans (x2_a3 V)
theorem x3_a4 : X3 V (Proc.devRef .tc main_arg4) = (V (Proc.devRef .tc main_arg4)) := (part3_keep_arg4 (X2 V)).trans (x2_a4 V)
theorem x3_a5 : X3 V (Proc.devRef .tc main_arg5) = (V (Proc.devRef .tc main_arg5)) := (part3_keep_arg5 (X2 V)).trans (x2_a5 V)
theorem x3_a7 : X3 V (Proc.devRef .tc main_arg7) = (V (Proc.devRef .tc main_arg7)) := (part3_keep_arg7 (X2 V)).trans (x2_a7 V)
theorem x3_a8 : X3 V (Proc.devRef .tc main_arg8) = (V (Proc.devRef .tc main_arg8)) := (part3_keep_arg8 (X2 V)).trans (x2_a8 V)
theorem x3_a9 : X3 V (Proc.devRef .tc main_arg9) = (V (Proc.devRef .tc main_arg9)) := (part3_keep_arg9 (X2 V)).trans (x2_a9 V)

theorem x4_bonds : X4 V (Proc.devRef .tc main_v41) = (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))))) :=
  (part4_round (X3 V)).trans (by rw [x3_binp, x3_a7, x3_a2, x3_a4, x3_bonds])

theorem x4_a0 : X4 V (Proc.devRef .tc main_arg0) = (V (Proc.devRef .tc main_arg0)) := (part4_keep_arg0 (X3 V)).trans (x3_a0 V)
theorem x4_a2 : X4 V (Proc.devRef .tc main_arg2) = (V (Proc.devRef .tc main_arg2)) := (part4_keep_arg2 (X3 V)).trans (x3_a2 V)
theorem x4_a3 : X4 V (Proc.devRef .tc main_arg3) = (V (Proc.devRef .tc main_arg3)) := (part4_keep_arg3 (X3 V)).trans (x3_a3 V)
theorem x4_a5 : X4 V (Proc.devRef .tc main_arg5) = (V (Proc.devRef .tc main_arg5)) := (part4_keep_arg5 (X3 V)).trans (x3_a5 V)
theorem x4_a8 : X4 V (Proc.devRef .tc main_arg8) = (V (Proc.devRef .tc main_arg8)) := (part4_keep_arg8 (X3 V)).trans (x3_a8 V)
theorem x4_a9 : X4 V (Proc.devRef .tc main_arg9) = (V (Proc.devRef .tc main_arg9)) := (part4_keep_arg9 (X3 V)).trans (x3_a9 V)

theorem x5_pairs : X5 V (Proc.devRef .tc main_v51) = pairMeanOf (pairRows (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))))) (V (Proc.devRef .tc main_arg5))) :=
  (part5_pairs (X4 V)).trans (by rw [x4_bonds, x4_a5])
theorem x5_bonds : X5 V (Proc.devRef .tc main_v41) = (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))))) := (part5_keep_v41 (X4 V)).trans (x4_bonds V)
theorem x5_a0 : X5 V (Proc.devRef .tc main_arg0) = (V (Proc.devRef .tc main_arg0)) := (part5_keep_arg0 (X4 V)).trans (x4_a0 V)
theorem x5_a2 : X5 V (Proc.devRef .tc main_arg2) = (V (Proc.devRef .tc main_arg2)) := (part5_keep_arg2 (X4 V)).trans (x4_a2 V)
theorem x5_a3 : X5 V (Proc.devRef .tc main_arg3) = (V (Proc.devRef .tc main_arg3)) := (part5_keep_arg3 (X4 V)).trans (x4_a3 V)
theorem x5_a8 : X5 V (Proc.devRef .tc main_arg8) = (V (Proc.devRef .tc main_arg8)) := (part5_keep_arg8 (X4 V)).trans (x4_a8 V)
theorem x5_a9 : X5 V (Proc.devRef .tc main_arg9) = (V (Proc.devRef .tc main_arg9)) := (part5_keep_arg9 (X4 V)).trans (x4_a9 V)

theorem x6_nei : X6 V (Proc.devRef .tc main_v60) = neighbourSumAtoms (table (V (Proc.devRef .tc main_arg2)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6)))))))) (V (Proc.devRef .tc main_arg3)) :=
  (part6_nei (X5 V)).trans (by rw [x5_a2, x5_bonds, x5_a3])
theorem x6_pairs : X6 V (Proc.devRef .tc main_v51) = pairMeanOf (pairRows (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))))) (V (Proc.devRef .tc main_arg5))) := (part6_keep_v51 (X5 V)).trans (x5_pairs V)
theorem x6_a0 : X6 V (Proc.devRef .tc main_arg0) = (V (Proc.devRef .tc main_arg0)) := (part6_keep_arg0 (X5 V)).trans (x5_a0 V)
theorem x6_a8 : X6 V (Proc.devRef .tc main_arg8) = (V (Proc.devRef .tc main_arg8)) := (part6_keep_arg8 (X5 V)).trans (x5_a8 V)
theorem x6_a9 : X6 V (Proc.devRef .tc main_arg9) = (V (Proc.devRef .tc main_arg9)) := (part6_keep_arg9 (X5 V)).trans (x5_a9 V)

theorem x7_mol : X7 V (Proc.devRef .tc main_v71)
    = molMean (atomHidden (V (Proc.devRef .tc main_arg0)) (neighbourSumAtoms (table (V (Proc.devRef .tc main_arg2)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6)))))))) (V (Proc.devRef .tc main_arg3))) (V (Proc.devRef .tc main_arg8)) (V (Proc.devRef .tc main_arg9))) :=
  (part7_mol (X6 V)).trans (by rw [x6_a0, x6_nei, x6_a8, x6_a9])
theorem x7_pairs : X7 V (Proc.devRef .tc main_v51) = pairMeanOf (pairRows (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (round (bondInput (V (Proc.devRef .tc main_arg1)) (V (Proc.devRef .tc main_arg6))) (V (Proc.devRef .tc main_arg7)) (V (Proc.devRef .tc main_arg2)) (V (Proc.devRef .tc main_arg4)) (reluBonds (bondInput (V (Proc.devRef .tc main_arg1)) (V (Proc.devRef .tc main_arg6))))))) (V (Proc.devRef .tc main_arg5))) := (part7_keep_v51 (X6 V)).trans (x6_pairs V)

/-- The first result of the whole list. -/
theorem mol_eq : StableHlo.after (ops (F := Ideal)) V (Proc.devRef .tc main_v71)
      = molMean (atomHidden (V (Proc.devRef .tc main_arg0)) (neighbourSumAtoms (table (V (Proc.devRef .tc main_arg2)) (bondMessages (V (Proc.devRef .tc main_arg1)) (V (Proc.devRef .tc main_arg6)) (V (Proc.devRef .tc main_arg7)) (V (Proc.devRef .tc main_arg2)) (V (Proc.devRef .tc main_arg4)))) (V (Proc.devRef .tc main_arg3))) (V (Proc.devRef .tc main_arg8)) (V (Proc.devRef .tc main_arg9))) := by
  rw [after_parts]
  exact x7_mol V

/-- The second result of the whole list. -/
theorem pairs_eq : StableHlo.after (ops (F := Ideal)) V (Proc.devRef .tc main_v51)
      = pairMeanOf (pairRows (bondMessages (V (Proc.devRef .tc main_arg1)) (V (Proc.devRef .tc main_arg6)) (V (Proc.devRef .tc main_arg7)) (V (Proc.devRef .tc main_arg2)) (V (Proc.devRef .tc main_arg4))) (V (Proc.devRef .tc main_arg5))) := by
  rw [after_parts]
  exact x7_pairs V

/-- No operation writes an argument. -/
macro "keep_arg" : tactic =>
  `(tactic| exact StableHlo.after_of_forall_not_mem _ _ (List.forall_iff_forall_mem.mp (by
      simp only [ops, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

set_option maxHeartbeats 8000000 in
theorem keep_arg0 (V : Valuation τ sig (Elt Ideal)) : StableHlo.after (ops (F := Ideal)) V (Proc.devRef .tc main_arg0) = V (Proc.devRef .tc main_arg0) := by
  keep_arg
set_option maxHeartbeats 8000000 in
theorem keep_arg1 (V : Valuation τ sig (Elt Ideal)) : StableHlo.after (ops (F := Ideal)) V (Proc.devRef .tc main_arg1) = V (Proc.devRef .tc main_arg1) := by
  keep_arg
set_option maxHeartbeats 8000000 in
theorem keep_arg2 (V : Valuation τ sig (Elt Ideal)) : StableHlo.after (ops (F := Ideal)) V (Proc.devRef .tc main_arg2) = V (Proc.devRef .tc main_arg2) := by
  keep_arg
set_option maxHeartbeats 8000000 in
theorem keep_arg3 (V : Valuation τ sig (Elt Ideal)) : StableHlo.after (ops (F := Ideal)) V (Proc.devRef .tc main_arg3) = V (Proc.devRef .tc main_arg3) := by
  keep_arg
set_option maxHeartbeats 8000000 in
theorem keep_arg4 (V : Valuation τ sig (Elt Ideal)) : StableHlo.after (ops (F := Ideal)) V (Proc.devRef .tc main_arg4) = V (Proc.devRef .tc main_arg4) := by
  keep_arg
set_option maxHeartbeats 8000000 in
theorem keep_arg5 (V : Valuation τ sig (Elt Ideal)) : StableHlo.after (ops (F := Ideal)) V (Proc.devRef .tc main_arg5) = V (Proc.devRef .tc main_arg5) := by
  keep_arg
set_option maxHeartbeats 8000000 in
theorem keep_arg6 (V : Valuation τ sig (Elt Ideal)) : StableHlo.after (ops (F := Ideal)) V (Proc.devRef .tc main_arg6) = V (Proc.devRef .tc main_arg6) := by
  keep_arg
set_option maxHeartbeats 8000000 in
theorem keep_arg7 (V : Valuation τ sig (Elt Ideal)) : StableHlo.after (ops (F := Ideal)) V (Proc.devRef .tc main_arg7) = V (Proc.devRef .tc main_arg7) := by
  keep_arg
set_option maxHeartbeats 8000000 in
theorem keep_arg8 (V : Valuation τ sig (Elt Ideal)) : StableHlo.after (ops (F := Ideal)) V (Proc.devRef .tc main_arg8) = V (Proc.devRef .tc main_arg8) := by
  keep_arg
set_option maxHeartbeats 8000000 in
theorem keep_arg9 (V : Valuation τ sig (Elt Ideal)) : StableHlo.after (ops (F := Ideal)) V (Proc.devRef .tc main_arg9) = V (Proc.devRef .tc main_arg9) := by
  keep_arg

end Ref

open Cert.ReferenceIdeal in
/-- THE REFERENCE'S RUN: every weakly fair execution terminates with the two results at the molecule means and the pair
    means of the arguments, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v71)
        = molMean (atomHidden (m ((c.tc : Thread nD τ).loc main_arg0))
            (neighbourSumAtoms (table (m ((c.tc : Thread nD τ).loc main_arg2))
              (bondMessages (m ((c.tc : Thread nD τ).loc main_arg1)) (m ((c.tc : Thread nD τ).loc main_arg6)) (m ((c.tc : Thread nD τ).loc main_arg7))
                (m ((c.tc : Thread nD τ).loc main_arg2)) (m ((c.tc : Thread nD τ).loc main_arg4))))
              (m ((c.tc : Thread nD τ).loc main_arg3)))
            (m ((c.tc : Thread nD τ).loc main_arg8)) (m ((c.tc : Thread nD τ).loc main_arg9)))
      ∧ r.2.mem ((c.tc : Thread nD τ).loc main_v51)
        = pairMeanOf (pairRows (bondMessages (m ((c.tc : Thread nD τ).loc main_arg1)) (m ((c.tc : Thread nD τ).loc main_arg6)) (m ((c.tc : Thread nD τ).loc main_arg7))
            (m ((c.tc : Thread nD τ).loc main_arg2)) (m ((c.tc : Thread nD τ).loc main_arg4))) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run Cert.ReferenceIdeal.defs _ _).mono (fun _ h c => ⟨(h c main_v71).trans (Ref.mol_eq _), (h c main_v51).trans (Ref.pairs_eq _),
      (h c main_arg0).trans (Ref.keep_arg0 _),
      (h c main_arg1).trans (Ref.keep_arg1 _),
      (h c main_arg2).trans (Ref.keep_arg2 _),
      (h c main_arg3).trans (Ref.keep_arg3 _),
      (h c main_arg4).trans (Ref.keep_arg4 _),
      (h c main_arg5).trans (Ref.keep_arg5 _),
      (h c main_arg6).trans (Ref.keep_arg6 _),
      (h c main_arg7).trans (Ref.keep_arg7 _),
      (h c main_arg8).trans (Ref.keep_arg8 _),
      (h c main_arg9).trans (Ref.keep_arg9 _)⟩)
    (run_seq Cert.ReferenceIdeal.Value.scopedRefs_eq Cert.ReferenceIdeal.Value.scopedSems_eq Cert.ReferenceIdeal.defs main (fun _ => Cert.ReferenceIdeal.Value.ops) Cert.ReferenceIdeal.Value.main_eq (fun _ => Cert.ReferenceIdeal.Value.ops_sub) m ρ)

end Cert.Passing

end
-- ==== Proof.PairRange.lean ====
/-
  The precondition's last conjunct, decoded: every pair index lies in 0 … 99999.
-/
import proofs.«431449_j16389595201591_3_alg».proof.Defs
import proofs.«431449_j16389595201591_3_alg».proof.Proof.Gen.Pre_finite_inputs
import Idealize.ShloMosaic.Lib.ReduceAll
import Idealize.ShloMosaic.Lib.StableHlo.Predicate
import Idealize.ShloMosaic.Lib.ValueIdx

noncomputable section

open Idealize.ShloMosaic

namespace Cert.Passing

namespace PairsRange

/-- A word that compares signed "at least 0" and "below 100000" has its signed value in 0 … 99999. -/
theorem word_range (x : BitVec 32) (h0 : IntOp.cmpi .sge x 0#32 = 1#1) (h1 : IntOp.cmpi .slt x 100000#32 = 1#1) :
    0 ≤ x.toInt ∧ x.toInt < 100000 := by
  have a := IntOp.cmpi_sge.1 h0
  have b := IntOp.cmpi_slt.1 h1
  have e0 : (0#32 : BitVec 32).toInt = 0 := by decide
  have e1 : (100000#32 : BitVec 32).toInt = 100000 := by decide
  rw [e0] at a
  rw [e1] at b
  exact ⟨a, b⟩

end PairsRange

open PairsRange in
/-- Under the precondition every pair index is in range of the bond messages. -/
theorem pair_range (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, 0 ≤ ((m ((c.tc : Thread Cert.KernelIdeal.nD Cert.KernelIdeal.τ).loc Cert.KernelIdeal.main_arg5)) i).toInt
      ∧ ((m ((c.tc : Thread Cert.KernelIdeal.nD Cert.KernelIdeal.τ).loc Cert.KernelIdeal.main_arg5)) i).toInt < 100000 := by
  intro i
  -- the scalar shape has one index
  haveI : Subsingleton Cert.Pre_finite_inputs.S_.Idx := ⟨fun a b => funext fun d => d.elim0⟩
  -- the predicate is 1 at that index; it is an and-chain whose last link is the reduce over the pair array
  have e := congrFun (h c) ValueIdx.ix0
  dsimp only [Cert.Pre_finite_inputs.fn, Cert.Pre_finite_inputs.fn_part1, Cert.Pre_finite_inputs.fn_part2] at e
  obtain ⟨-, hred⟩ := IntOp.andi_eq_one.1 e
  -- a reduce by and that is 1 met only 1s: the element at i is 1, and it is the and of the two compares
  have hel := Host.reduce_andi_all _ _ _ _ _ hred i
  obtain ⟨hge, hlt⟩ := IntOp.andi_eq_one.1 hel
  exact word_range _ hge hlt

end Cert.Passing

end
-- ==== Proof.lean ====
/-
  A message-passing network over a molecule graph, as a Pallas kernel of five launches and as a jnp reference:
  equal results over the extended reals.

  Both programs compute bondInput = fbonds · W_iᵀ, start the bond messages at relu(bondInput), and three times replace
  them by relu(bondInput + nei · W_hᵀ), where nei sums, for each bond, the ten rows of the table [tree messages ;
  bond messages] that its neighbour list names (a negative index counted from the table's end, then clamped).  The
  kernel keeps the table in one buffer and overwrites its bond rows in place; the reference rebuilds the table by
  concatenation.  The kernel forms nei by ten row gathers added one after the other, the reference by one gather and a
  sum over the neighbour axis: the same ten extended reals, and addition of extended reals is commutative and
  associative.  The pair means read bond message p; the kernel reads it as table row p + 10000, which is the same row
  exactly when 0 ≤ p < 100000 (the precondition's last conjunct: outside it a negative p is counted from the end of
  different arrays by the two programs).  The atom hidden states are relu([fatoms | nei] · W_oᵀ + b_o); the kernel splits
  the product over 291 columns into the first 35 and the last 256.  No step needs the inputs' finiteness.

  The three frames are the generated ones (the reference's is its run with the results dropped); the ideal pass rewrote
  nothing, so `preserves` is trivial.
-/
import proofs.«431449_j16389595201591_3_alg».proof.Defs
import proofs.«431449_j16389595201591_3_alg».proof.Proof.Gen.Kernel
import proofs.«431449_j16389595201591_3_alg».proof.Proof.Gen.Kernel.Skeleton
import proofs.«431449_j16389595201591_3_alg».proof.Proof.Gen.Kernel.Launch
import proofs.«431449_j16389595201591_3_alg».proof.Proof.Gen.Kernel.Points
import proofs.«431449_j16389595201591_3_alg».proof.Proof.Gen.Kernel.Frame
import proofs.«431449_j16389595201591_3_alg».proof.Proof.Gen.KernelIdeal
import proofs.«431449_j16389595201591_3_alg».proof.Proof.Gen.KernelIdeal.Skeleton
import proofs.«431449_j16389595201591_3_alg».proof.Proof.Gen.KernelIdeal.Launch
import proofs.«431449_j16389595201591_3_alg».proof.Proof.Gen.KernelIdeal.Points
import proofs.«431449_j16389595201591_3_alg».proof.Proof.Gen.KernelIdeal.Frame
import proofs.«431449_j16389595201591_3_alg».proof.Proof.Gen.ReferenceIdeal
import proofs.«431449_j16389595201591_3_alg».proof.Proof.Gen.Pre_finite_inputs
import proofs.«431449_j16389595201591_3_alg».proof.Proof.KernelRun
import proofs.«431449_j16389595201591_3_alg».proof.Proof.KernelValue
import proofs.«431449_j16389595201591_3_alg».proof.Proof.RefValue
import proofs.«431449_j16389595201591_3_alg».proof.Proof.PairRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.Passing.ref_run m ρ)

/-- Both programs, from memories agreeing on the arguments, end with the molecule means and the pair means of the
    same message-passing network. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v0_0),
    fun c => Cert.KernelIdeal.Gen.W11 (F := Ideal) m ρ c (Proc.devRef .tc Cert.KernelIdeal.main_v0_1),
    Cert.KernelIdeal.ValueRun.run m ρ, ?_⟩
  refine (θ_run Cert.ReferenceIdeal.defs _ _).mono (fun r h c => ?_) (Cert.Passing.ref_run m' ρ')
  obtain ⟨h0, h1, hargs⟩ := h c
  obtain ⟨e0, e1, e2, e3, e4, e5, e6, e7, e8, e9⟩ := hagree c
  refine ⟨?_, ?_, hargs⟩
  · rw [h0]
    dsimp only
    rw [Cert.Passing.kernel_mol, e0, e1, e2, e3, e4, e6, e7, e8, e9]
  · rw [h1]
    dsimp only
    rw [Cert.Passing.kernel_pairs m ρ c (Cert.Passing.pair_range m hpre c), e1, e2, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
